-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x16x128 : Shape := ⟨3, ![512, 16, 128]⟩
abbrev S512 : Shape := ⟨1, ![512]⟩
abbrev S256x512 : Shape := ⟨2, ![256, 512]⟩
abbrev S512x512 : Shape := ⟨2, ![512, 512]⟩
abbrev S644x512 : Shape := ⟨2, ![644, 512]⟩
abbrev S512x128 : Shape := ⟨2, ![512, 128]⟩
abbrev S128 : Shape := ⟨1, ![128]⟩
abbrev S_ : Shape := ⟨0, ![]⟩

class Facts : Prop where
  bcast_S_S512x16x128 : S_.BroadcastsInDim S512x16x128 (![] : Fin 0 → Fin S512x16x128.rank)
  reducesTo_S512x16x128_S_d0_1_2 : S512x16x128.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S644x512 : S_.BroadcastsInDim S644x512 (![] : Fin 0 → Fin S644x512.rank)
  reducesTo_S644x512_S_d0_1 : S644x512.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg15 : FVec F S512 .f32) (main_arg16 : FVec F S512x128 .f32) (main_arg17 : FVec F S128 .f32) (main_v63 : IVec S_ 1) (main_v67 : IVec S_ 1) : IVec S_ 1 :=
  let main_v68 : IVec S_ 1 := andi main_v63 main_v67
  let main_v69 : FVec F S512 .f32 := Host.absf main_arg15
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512x128 .f32 := Host.absf main_arg16
  let main_cst_28 : FVec F S_ .f32 := constant S_ .f32 0x7F800000#32
  let main_v75 : FVec F S512x128 .f32 := broadcastInDim S512x128 ![] bcast_S_S512x128 main_cst_28
  let main_v76 : IVec S512x128 1 := cmpf .olt main_v74 main_v75
  let main_c_29 : IVec S_ 1 := constantI S_ 1 1#1
  let main_v77 : IVec S_ 1 := (fun x v => Host.reduce IntOp.andi x v reducesTo_S512x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg12 : FVec F S512x512 .f32) (main_arg13 : FVec F S512 .f32) (main_arg14 : FVec F S512 .f32) (main_arg15 : FVec F S512 .f32) (main_arg16 : FVec F S512x128 .f32) (main_arg17 : FVec F S128 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg12
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg13
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512 .f32 := Host.absf main_arg14
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg15 main_arg16 main_arg17 main_v63 main_v67

def fn_part2 {F : FTy → Type} [FloatOps F] (main_arg8 : FVec F S512x512 .f32) (main_arg9 : FVec F S512 .f32) (main_arg10 : FVec F S644x512 .f32) (main_arg11 : FVec F S512 .f32) (main_arg12 : FVec F S512x512 .f32) (main_arg13 : FVec F S512 .f32) (main_arg14 : FVec F S512 .f32) (main_arg15 : FVec F S512 .f32) (main_arg16 : FVec F S512x128 .f32) (main_arg17 : FVec F S128 .f32) (main_v33 : IVec S_ 1) : IVec S_ 1 :=
  let main_v34 : FVec F S512x512 .f32 := Host.absf main_arg8
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S644x512 .f32 := Host.absf main_arg10
  let main_cst_16 : FVec F S_ .f32 := constant S_ .f32 0x7F800000#32
  let main_v45 : FVec F S644x512 .f32 := broadcastInDim S644x512 ![] bcast_S_S644x512 main_cst_16
  let main_v46 : IVec S644x512 1 := cmpf .olt main_v44 main_v45
  let main_c_17 : IVec S_ 1 := constantI S_ 1 1#1
  let main_v47 : IVec S_ 1 := (fun x v => Host.reduce IntOp.andi x v reducesTo_S644x512_S_d0_1 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_arg12 main_arg13 main_arg14 main_arg15 main_arg16 main_arg17 main_v48 main_v49 main_v50

def fn_part1 {F : FTy → Type} [FloatOps F] (main_arg5 : FVec F S512 .f32) (main_arg6 : FVec F S512 .f32) (main_arg7 : FVec F S512 .f32) (main_arg8 : FVec F S512x512 .f32) (main_arg9 : FVec F S512 .f32) (main_arg10 : FVec F S644x512 .f32) (main_arg11 : FVec F S512 .f32) (main_arg12 : FVec F S512x512 .f32) (main_arg13 : FVec F S512 .f32) (main_arg14 : FVec F S512 .f32) (main_arg15 : FVec F S512 .f32) (main_arg16 : FVec F S512x128 .f32) (main_arg17 : FVec F S128 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S512x16x128 .f32) (main_arg1 : IVec S512 32) (main_arg2 : FVec F S256x512 .f32) (main_arg3 : FVec F S512 .f32) (main_arg4 : FVec F S512x512 .f32) (main_arg5 : FVec F S512 .f32) (main_arg6 : FVec F S512 .f32) (main_arg7 : FVec F S512 .f32) (main_arg8 : FVec F S512x512 .f32) (main_arg9 : FVec F S512 .f32) (main_arg10 : FVec F S644x512 .f32) (main_arg11 : FVec F S512 .f32) (main_arg12 : FVec F S512x512 .f32) (main_arg13 : FVec F S512 .f32) (main_arg14 : FVec F S512 .f32) (main_arg15 : FVec F S512 .f32) (main_arg16 : FVec F S512x128 .f32) (main_arg17 : FVec F S128 .f32) : IVec S_ 1 :=
  let main_v0 : FVec F S512x16x128 .f32 := Host.absf main_arg0
  let main_cst : FVec F S_ .f32 := constant S_ .f32 0x7F800000#32
  let main_v1 : FVec F S512x16x128 .f32 := broadcastInDim S512x16x128 ![] bcast_S_S512x16x128 main_cst
  let main_v2 : IVec S512x16x128 1 := cmpf .olt main_v0 main_v1
  let main_c : IVec S_ 1 := constantI S_ 1 1#1
  let main_v3 : IVec S_ 1 := (fun x v => Host.reduce IntOp.andi x v reducesTo_S512x16x128_S_d0_1_2 h_S_) main_v2 main_c
  let main_v4 : FVec F S256x512 .f32 := Host.absf main_arg2
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S512x16x128 : Shape := ⟨3, ![512, 16, 128]⟩
abbrev S512 : Shape := ⟨1, ![512]⟩
abbrev S256x512 : Shape := ⟨2, ![256, 512]⟩
abbrev S512x512 : Shape := ⟨2, ![512, 512]⟩
abbrev S644x512 : Shape := ⟨2, ![644, 512]⟩
abbrev S512x128 : Shape := ⟨2, ![512, 128]⟩
abbrev S128 : Shape := ⟨1, ![128]⟩
abbrev S240x16 : Shape := ⟨2, ![240, 16]⟩
abbrev S16x240 : Shape := ⟨2, ![16, 240]⟩
abbrev S128x512 : Shape := ⟨2, ![128, 512]⟩
abbrev S4x512 : Shape := ⟨2, ![4, 512]⟩
abbrev S1x16x128 : Shape := ⟨3, ![1, 16, 128]⟩
abbrev S16x128 : Shape := ⟨2, ![16, 128]⟩
abbrev S240x128 : Shape := ⟨2, ![240, 128]⟩
abbrev S240x512 : Shape := ⟨2, ![240, 512]⟩
abbrev S1x512 : Shape := ⟨2, ![1, 512]⟩
abbrev S240 : Shape := ⟨1, ![240]⟩
abbrev S240x1 : Shape := ⟨2, ![240, 1]⟩
abbrev S16x512 : Shape := ⟨2, ![16, 512]⟩
abbrev S1 : Shape := ⟨1, ![1]⟩
abbrev S16x4 : Shape := ⟨2, ![16, 4]⟩
abbrev S16 : Shape := ⟨1, ![16]⟩
abbrev S16x1 : Shape := ⟨2, ![16, 1]⟩
abbrev S1x128 : Shape := ⟨2, ![1, 128]⟩

abbrev nBuf : Space → Nat
  | .hbm => 26
  | .vmem => 26
  | .smem => 1
  | _ => 0

abbrev bufTy : (tb : Table) → Fin (tcTables nBuf tb) → BufTy
  | .hbm, ⟨0, _⟩ => ⟨S512x16x128, .f32⟩
  | .hbm, ⟨1, _⟩ => ⟨S256x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S644x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512x128, .f32⟩
  | .hbm, ⟨16, _⟩ => ⟨S128, .f32⟩
  | .hbm, ⟨17, _⟩ => ⟨S240x16, .f32⟩
  | .hbm, ⟨18, _⟩ => ⟨S240x16, .f32⟩
  | .hbm, ⟨19, _⟩ => ⟨S16x240, .f32⟩
  | .hbm, ⟨20, _⟩ => ⟨S128x512, .f32⟩
  | .hbm, ⟨21, _⟩ => ⟨S128x512, .f32⟩
  | .hbm, ⟨22, _⟩ => ⟨S128x512, .f32⟩
  | .hbm, ⟨23, _⟩ => ⟨S4x512, .f32⟩
  | .hbm, ⟨24, _⟩ => ⟨S512x512, .f32⟩
  | .hbm, ⟨25, _⟩ => ⟨S512x16x128, .f32⟩
  | .local _ .vmem, ⟨0, _⟩ => ⟨S1x16x128, .f32⟩
  | .local _ .vmem, ⟨1, _⟩ => ⟨S1x16x128, .f32⟩
  | .local _ .vmem, ⟨2, _⟩ => ⟨S240x16, .f32⟩
  | .local _ .vmem, ⟨3, _⟩ => ⟨S240x16, .f32⟩
  | .local _ .vmem, ⟨4, _⟩ => ⟨S16x240, .f32⟩
  | .local _ .vmem, ⟨5, _⟩ => ⟨S128x512, .f32⟩
  | .local _ .vmem, ⟨6, _⟩ => ⟨S128x512, .f32⟩
  | .local _ .vmem, ⟨7, _⟩ => ⟨S512, .f32⟩
  | .local _ .vmem, ⟨8, _⟩ => ⟨S512x512, .f32⟩
  | .local _ .vmem, ⟨9, _⟩ => ⟨S512, .f32⟩
  | .local _ .vmem, ⟨10, _⟩ => ⟨S512, .f32⟩
  | .local _ .vmem, ⟨11, _⟩ => ⟨S512, .f32⟩
  | .local _ .vmem, ⟨12, _⟩ => ⟨S512x512, .f32⟩
  | .local _ .vmem, ⟨13, _⟩ => ⟨S512, .f32⟩
  | .local _ .vmem, ⟨14, _⟩ => ⟨S128x512, .f32⟩
  | .local _ .vmem, ⟨15, _⟩ => ⟨S4x512, .f32⟩
  | .local _ .vmem, ⟨16, _⟩ => ⟨S512x512, .f32⟩
  | .local _ .vmem, ⟨17, _⟩ => ⟨S512, .f32⟩
  | .local _ .vmem, ⟨18, _⟩ => ⟨S512x512, .f32⟩
  | .local _ .vmem, ⟨19, _⟩ => ⟨S512, .f32⟩
  | .local _ .vmem, ⟨20, _⟩ => ⟨S512, .f32⟩
  | .local _ .vmem, ⟨21, _⟩ => ⟨S512, .f32⟩
  | .local _ .vmem, ⟨22, _⟩ => ⟨S512x128, .f32⟩
  | .local _ .vmem, ⟨23, _⟩ => ⟨S128, .f32⟩
  | .local _ .vmem, ⟨24, _⟩ => ⟨S1x16x128, .f32⟩
  | .local _ .vmem, ⟨25, _⟩ => ⟨S1x16x128, .f32⟩
  | .local _ .smem, ⟨0, _⟩ => ⟨S512, .i32⟩
  | _, _ => ⟨S512x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_arg12 : Ref sig .tc := ⟨.hbm, 11, rfl⟩
abbrev main_arg13 : Ref sig .tc := ⟨.hbm, 12, rfl⟩
abbrev main_arg14 : Ref sig .tc := ⟨.hbm, 13, rfl⟩
abbrev main_arg15 : Ref sig .tc := ⟨.hbm, 14, rfl⟩
abbrev main_arg16 : Ref sig .tc := ⟨.hbm, 15, rfl⟩
abbrev main_arg17 : Ref sig .tc := ⟨.hbm, 16, rfl⟩
abbrev main_cst : Ref sig .tc := ⟨.hbm, 17, rfl⟩
abbrev main_cst_0 : Ref sig .tc := ⟨.hbm, 18, rfl⟩
abbrev main_cst_1 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg23_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem23_1 : DmaSem sig := 25

abbrev nD : Nat := 1
abbrev τ : Topo := Topo.v7x

variable {F : FTy → Type} [FloatOps F]

abbrev grid0 : Pipeline.Grid := ⟨1, ![512], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v74 : Index := Scalar.indexCast arg0
  ![v74.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S240x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S240x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S512x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S1x16x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

class Facts₀ : Prop where
  slices_S256x512_S128x512_0_0 : S256x512.Slices ![0, 0] S128x512
  slices_S256x512_S128x512_128_0 : S256x512.Slices ![128, 0] S128x512
  slices_S644x512_S128x512_0_0 : S644x512.Slices ![0, 0] S128x512
  slices_S644x512_S4x512_128_0 : S644x512.Slices ![128, 0] S4x512
  slices_S644x512_S512x512_132_0 : S644x512.Slices ![132, 0] S512x512
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  bitsLt_bf16_f32 : FTy.bits .bf16 < FTy.bits .f32
  inb_S240x16_S240x16_0_0 : ∀ a, (![0, 0] : Fin 2 → Nat) a + S240x16.size a ≤ S240x16.size a
  h_S240x16 : 0 < S240x16.numel
  inb_S16x240_S16x240_0_0 : ∀ a, (![0, 0] : Fin 2 → Nat) a + S16x240.size a ≤ S16x240.size a
  h_S16x240 : 0 < S16x240.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512_S512_0 : ∀ a, (![0] : Fin 1 → Nat) a + S512.size a ≤ S512.size a
  h_S512 : 0 < S512.numel
  shapeCasts_S512_S1x512 : S512.ShapeCasts S1x512
  broadcasts_S1x512_S240x512 : S1x512.Broadcasts S240x512
  inb_S512x512_S512x512_0_0 : ∀ a, (![0, 0] : Fin 2 → Nat) a + S512x512.size a ≤ S512x512.size a
  h_S512x512 : 0 < S512x512.numel
  reduces_S240x512_S240 : S240x512.Reduces [1] S240
  shapeCasts_S240_S240x1 : S240.ShapeCasts S240x1
  broadcasts_S240x1_S240x512 : S240x1.Broadcasts S240x512
  numel1_S1 : S1.numel = 1
  iota_S16x4_d0_w32 : S16x4.Iotas .tc 32 [0]
  iota_S16x4_d1_w32 : S16x4.Iotas .tc 32 [1]
  natLt_1_32 : 1 < 32
  inb_S4x512_S4x512_0_0 : ∀ a, (![0, 0] : Fin 2 → Nat) a + S4x512.size a ≤ S4x512.size a
  h_S4x512 : 0 < S4x512.numel
  shapeCasts_S4x512_S4x512 : S4x512.ShapeCasts S4x512
  shapeCasts_S512x512_S512x512 : S512x512.ShapeCasts S512x512
  broadcasts_S1x512_S16x512 : S1x512.Broadcasts S16x512
  reduces_S16x512_S16 : S16x512.Reduces [1] S16
  shapeCasts_S16_S16x1 : S16.ShapeCasts S16x1
  broadcasts_S16x1_S16x512 : S16x1.Broadcasts S16x512
  inb_S512x128_S512x128_0_0 : ∀ a, (![0, 0] : Fin 2 → Nat) a + S512x128.size a ≤ S512x128.size a
  h_S512x128 : 0 < S512x128.numel
  inb_S128_S128_0 : ∀ a, (![0] : Fin 1 → Nat) a + S128.size a ≤ S128.size a
  h_S128 : 0 < S128.numel
  shapeCasts_S128_S1x128 : S128.ShapeCasts S1x128
  broadcasts_S1x128_S16x128 : S1x128.Broadcasts S16x128
  shapeCasts_S16x128_S1x16x128 : S16x128.ShapeCasts S1x16x128
  dot_S240x16_S16x128_S240x128_1_0_0_1_n_n_wf : DotDims.WF S240x16 S16x128 S240x128 [1] [0] [0] [1] [] []
  dot_S240x128_S128x512_S240x512_1_0_0_1_n_n_wf : DotDims.WF S240x128 S128x512 S240x512 [1] [0] [0] [1] [] []
  dot_S240x512_S512x512_S240x512_1_0_0_1_n_n_wf : DotDims.WF S240x512 S512x512 S240x512 [1] [0] [0] [1] [] []
  dot_S16x240_S240x512_S16x512_1_0_0_1_n_n_wf : DotDims.WF S16x240 S240x512 S16x512 [1] [0] [0] [1] [] []
  dot_S16x128_S128x512_S16x512_1_0_0_1_n_n_wf : DotDims.WF S16x128 S128x512 S16x512 [1] [0] [0] [1] [] []
  dot_S16x4_S4x512_S16x512_1_0_0_1_n_n_wf : DotDims.WF S16x4 S4x512 S16x512 [1] [0] [0] [1] [] []
  dot_S16x512_S512x512_S16x512_1_0_0_1_n_n_wf : DotDims.WF S16x512 S512x512 S16x512 [1] [0] [0] [1] [] []
  dot_S16x512_S512x128_S16x128_1_0_0_1_n_n_wf : DotDims.WF S16x512 S512x128 S16x128 [1] [0] [0] [1] [] []
  hrank0 : 0 < grid0.rank
  k0_off1_inb : ∀ i : grid0.Coords, ∀ a, (k0_off1 i) a + S1.size a ≤ S512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128.size a ≤ S512x16x128.size a
  hwx0_0 : ∀ i : grid0.Coords, EltTy.bits .f32 = 32 ∨ (Rect.block (s := S512x16x128) S1x16x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S240x16.size a ≤ S240x16.size a
  hwx0_1 : ∀ i : grid0.Coords, EltTy.bits .f32 = 32 ∨ (Rect.block (s := S240x16) S240x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S240x16.size a ≤ S240x16.size a
  hwx0_2 : ∀ i : grid0.Coords, EltTy.bits .f32 = 32 ∨ (Rect.block (s := S240x16) S240x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x240.size a ≤ S16x240.size a
  hwx0_3 : ∀ i : grid0.Coords, EltTy.bits .f32 = 32 ∨ (Rect.block (s := S16x240) S16x240.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .f32 = 32 ∨ (Rect.block (s := S128x512) S128x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S128x512.size a
  hwx0_5 : ∀ i : grid0.Coords, EltTy.bits .f32 = 32 ∨ (Rect.block (s := S128x512) S128x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S512x512.size a
  hwx0_11 : ∀ i : grid0.Coords, EltTy.bits .f32 = 32 ∨ (Rect.block (s := S512x512) S512x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512.size a ≤ S512.size a
  hwx0_12 : ∀ i : grid0.Coords, EltTy.bits .f32 = 32 ∨ (Rect.block (s := S512) S512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x512.size a ≤ S128x512.size a
  hwx0_13 : ∀ i : grid0.Coords, EltTy.bits .f32 = 32 ∨ (Rect.block (s := S128x512) S128x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S4x512.size a ≤ S4x512.size a
  hwx0_14 : ∀ i : grid0.Coords, EltTy.bits .f32 = 32 ∨ (Rect.block (s := S4x512) S4x512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512x512.size a ≤ S512x512.size a
  hwx0_15 : ∀ i : grid0.Coords, EltTy.bits .f32 = 32 ∨ (Rect.block (s := S512x512) S512x512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512.size a ≤ S512.size a
  hwx0_16 : ∀ i : grid0.Coords, EltTy.bits .f32 = 32 ∨ (Rect.block (s := S512) S512.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512x512.size a ≤ S512x512.size a
  hwx0_17 : ∀ i : grid0.Coords, EltTy.bits .f32 = 32 ∨ (Rect.block (s := S512x512) S512x512.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S512.size a ≤ S512.size a
  hwx0_18 : ∀ i : grid0.Coords, EltTy.bits .f32 = 32 ∨ (Rect.block (s := S512) S512.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S512.size a ≤ S512.size a
  hwx0_19 : ∀ i : grid0.Coords, EltTy.bits .f32 = 32 ∨ (Rect.block (s := S512) S512.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S512.size a ≤ S512.size a
  hwx0_20 : ∀ i : grid0.Coords, EltTy.bits .f32 = 32 ∨ (Rect.block (s := S512) S512.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S512x128.size a ≤ S512x128.size a
  hwx0_21 : ∀ i : grid0.Coords, EltTy.bits .f32 = 32 ∨ (Rect.block (s := S512x128) S512x128.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S128.size a ≤ S128.size a
  hwx0_22 : ∀ i : grid0.Coords, EltTy.bits .f32 = 32 ∨ (Rect.block (s := S128) S128.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S1x16x128.size a ≤ S512x16x128.size a
  hwx0_23 : ∀ i : grid0.Coords, EltTy.bits .f32 = 32 ∨ (Rect.block (s := S512x16x128) S1x16x128.size (cc0_transform_23 i) (hinb0_23 i)).WholeWords (EltTy.packing .f32)

variable [Facts₀]

def dot_S240x16_S16x128_S240x128_1_0_0_1_n_n : DotDims S240x16 S16x128 S240x128 where
  lhsContracting := [1]
  rhsContracting := [0]
  lhsNonContracting := [0]
  rhsNonContracting := [1]
  lhsBatch := []
  rhsBatch := []
  wf := dot_S240x16_S16x128_S240x128_1_0_0_1_n_n_wf
def dot_S240x128_S128x512_S240x512_1_0_0_1_n_n : DotDims S240x128 S128x512 S240x512 where
  lhsContracting := [1]
  rhsContracting := [0]
  lhsNonContracting := [0]
  rhsNonContracting := [1]
  lhsBatch := []
  rhsBatch := []
  wf := dot_S240x128_S128x512_S240x512_1_0_0_1_n_n_wf
def dot_S240x512_S512x512_S240x512_1_0_0_1_n_n : DotDims S240x512 S512x512 S240x512 where
  lhsContracting := [1]
  rhsContracting := [0]
  lhsNonContracting := [0]
  rhsNonContracting := [1]
  lhsBatch := []
  rhsBatch := []
  wf := dot_S240x512_S512x512_S240x512_1_0_0_1_n_n_wf
def dot_S16x240_S240x512_S16x512_1_0_0_1_n_n : DotDims S16x240 S240x512 S16x512 where
  lhsContracting := [1]
  rhsContracting := [0]
  lhsNonContracting := [0]
  rhsNonContracting := [1]
  lhsBatch := []
  rhsBatch := []
  wf := dot_S16x240_S240x512_S16x512_1_0_0_1_n_n_wf
def dot_S16x128_S128x512_S16x512_1_0_0_1_n_n : DotDims S16x128 S128x512 S16x512 where
  lhsContracting := [1]
  rhsContracting := [0]
  lhsNonContracting := [0]
  rhsNonContracting := [1]
  lhsBatch := []
  rhsBatch := []
  wf := dot_S16x128_S128x512_S16x512_1_0_0_1_n_n_wf
def dot_S16x4_S4x512_S16x512_1_0_0_1_n_n : DotDims S16x4 S4x512 S16x512 where
  lhsContracting := [1]
  rhsContracting := [0]
  lhsNonContracting := [0]
  rhsNonContracting := [1]
  lhsBatch := []
  rhsBatch := []
  wf := dot_S16x4_S4x512_S16x512_1_0_0_1_n_n_wf
def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf
def dot_S16x512_S512x128_S16x128_1_0_0_1_n_n : DotDims S16x512 S512x128 S16x128 where
  lhsContracting := [1]
  rhsContracting := [0]
  lhsNonContracting := [0]
  rhsNonContracting := [1]
  lhsBatch := []
  rhsBatch := []
  wf := dot_S16x512_S512x128_S16x128_1_0_0_1_n_n_wf

abbrev spec0_0 : Pipeline.WinSpec sig grid0.rank :=
  Pipeline.WinSpec.ofSpec (Memref.whole main_arg0) S1x16x128.size reads0_0 false false 2 stage0_0 sem0_0 nbuf0_0 hstage0_0

abbrev spec0_1 : Pipeline.WinSpec sig grid0.rank :=
  Pipeline.WinSpec.ofSpec (Memref.whole main_cst) S240x16.size reads0_1 false true 1 stage0_1 sem0_1 nbuf0_1 hstage0_1

abbrev spec0_2 : Pipeline.WinSpec sig grid0.rank :=
  Pipeline.WinSpec.ofSpec (Memref.whole main_cst_0) S240x16.size reads0_2 false true 1 stage0_2 sem0_2 nbuf0_2 hstage0_2

abbrev spec0_3 : Pipeline.WinSpec sig grid0.rank :=
  Pipeline.WinSpec.ofSpec (Memref.whole main_cst_1) S16x240.size reads0_3 false true 1 stage0_3 sem0_3 nbuf0_3 hstage0_3

abbrev spec0_4 : Pipeline.WinSpec sig grid0.rank :=
  Pipeline.WinSpec.ofSpec (Memref.whole main_v0) S128x512.size reads0_4 false true 1 stage0_4 sem0_4 nbuf0_4 hstage0_4

abbrev spec0_5 : Pipeline.WinSpec sig grid0.rank :=
  Pipeline.WinSpec.ofSpec (Memref.whole main_v1) S128x512.size reads0_5 false true 1 stage0_5 sem0_5 nbuf0_5 hstage0_5

abbrev spec0_6 : Pipeline.WinSpec sig grid0.rank :=
  Pipeline.WinSpec.ofSpec (Memref.whole main_arg3) S512.size reads0_6 false true 1 stage0_6 sem0_6 nbuf0_6 hstage0_6

abbrev spec0_7 : Pipeline.WinSpec sig grid0.rank :=
  Pipeline.WinSpec.ofSpec (Memref.whole main_arg4) S512x512.size reads0_7 false true 1 stage0_7 sem0_7 nbuf0_7 hstage0_7

abbrev spec0_8 : Pipeline.WinSpec sig grid0.rank :=
  Pipeline.WinSpec.ofSpec (Memref.whole main_arg5) S512.size reads0_8 false true 1 stage0_8 sem0_8 nbuf0_8 hstage0_8

abbrev spec0_9 : Pipeline.WinSpec sig grid0.rank :=
  Pipeline.WinSpec.ofSpec (Memref.whole main_arg6) S512.size reads0_9 false true 1 stage0_9 sem0_9 nbuf0_9 hstage0_9

abbrev spec0_10 : Pipeline.WinSpec sig grid0.rank :=
  Pipeline.WinSpec.ofSpec (Memref.whole main_arg7) S512.size reads0_10 false true 1 stage0_10 sem0_10 nbuf0_10 hstage0_10

abbrev spec0_11 : Pipeline.WinSpec sig grid0.rank :=
  Pipeline.WinSpec.ofSpec (Memref.whole main_arg8) S512x512.size reads0_11 false true 1 stage0_11 sem0_11 nbuf0_11 hstage0_11

abbrev spec0_12 : Pipeline.WinSpec sig grid0.rank :=
  Pipeline.WinSpec.ofSpec (Memref.whole main_arg9) S512.size reads0_12 false true 1 stage0_12 sem0_12 nbuf0_12 hstage0_12

abbrev spec0_13 : Pipeline.WinSpec sig grid0.rank :=
  Pipeline.WinSpec.ofSpec (Memref.whole main_v2) S128x512.size reads0_13 false true 1 stage0_13 sem0_13 nbuf0_13 hstage0_13

abbrev spec0_14 : Pipeline.WinSpec sig grid0.rank :=
  Pipeline.WinSpec.ofSpec (Memref.whole main_v3) S4x512.size reads0_14 false true 1 stage0_14 sem0_14 nbuf0_14 hstage0_14

abbrev spec0_15 : Pipeline.WinSpec sig grid0.rank :=
  Pipeline.WinSpec.ofSpec (Memref.whole main_v4) S512x512.size reads0_15 false true 1 stage0_15 sem0_15 nbuf0_15 hstage0_15

abbrev spec0_16 : Pipeline.WinSpec sig grid0.rank :=
  Pipeline.WinSpec.ofSpec (Memref.whole main_arg11) S512.size reads0_16 false true 1 stage0_16 sem0_16 nbuf0_16 hstage0_16

abbrev spec0_17 : Pipeline.WinSpec sig grid0.rank :=
  Pipeline.WinSpec.ofSpec (Memref.whole main_arg12) S512x512.size reads0_17 false true 1 stage0_17 sem0_17 nbuf0_17 hstage0_17

abbrev spec0_18 : Pipeline.WinSpec sig grid0.rank :=
  Pipeline.WinSpec.ofSpec (Memref.whole main_arg13) S512.size reads0_18 false true 1 stage0_18 sem0_18 nbuf0_18 hstage0_18

abbrev spec0_19 : Pipeline.WinSpec sig grid0.rank :=
  Pipeline.WinSpec.ofSpec (Memref.whole main_arg14) S512.size reads0_19 false true 1 stage0_19 sem0_19 nbuf0_19 hstage0_19

abbrev spec0_20 : Pipeline.WinSpec sig grid0.rank :=
  Pipeline.WinSpec.ofSpec (Memref.whole main_arg15) S512.size reads0_20 false true 1 stage0_20 sem0_20 nbuf0_20 hstage0_20

abbrev spec0_21 : Pipeline.WinSpec sig grid0.rank :=
  Pipeline.WinSpec.ofSpec (Memref.whole main_arg16) S512x128.size reads0_21 false true 1 stage0_21 sem0_21 nbuf0_21 hstage0_21

abbrev spec0_22 : Pipeline.WinSpec sig grid0.rank :=
  Pipeline.WinSpec.ofSpec (Memref.whole main_arg17) S128.size reads0_22 false true 1 stage0_22 sem0_22 nbuf0_22 hstage0_22

abbrev spec0_23 : Pipeline.WinSpec sig grid0.rank :=
  Pipeline.WinSpec.ofSpec (Memref.whole main_v5) S1x16x128.size reads0_23 true false 2 stage0_23 sem0_23 nbuf0_23 hstage0_23

abbrev spec0 : Fin 24 → Pipeline.WinSpec sig grid0.rank := fun | 0 => spec0_0 | 1 => spec0_1 | 2 => spec0_2 | 3 => spec0_3 | 4 => spec0_4 | 5 => spec0_5 | 6 => spec0_6 | 7 => spec0_7 | 8 => spec0_8 | 9 => spec0_9 | 10 => spec0_10 | 11 => spec0_11 | 12 => spec0_12 | 13 => spec0_13 | 14 => spec0_14 | 15 => spec0_15 | 16 => spec0_16 | 17 => spec0_17 | 18 => spec0_18 | 19 => spec0_19 | 20 => spec0_20 | 21 => spec0_21 | 22 => spec0_22 | 23 => spec0_23 | ⟨_ + 24, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | 9 => nbuf0_9 | 10 => nbuf0_10 | 11 => nbuf0_11 | 12 => nbuf0_12 | 13 => nbuf0_13 | 14 => nbuf0_14 | 15 => nbuf0_15 | 16 => nbuf0_16 | 17 => nbuf0_17 | 18 => nbuf0_18 | 19 => nbuf0_19 | 20 => nbuf0_20 | 21 => nbuf0_21 | 22 => nbuf0_22 | 23 => nbuf0_23 | ⟨_ + 24, h⟩ => absurd h (Nat.not_lt.2 (Nat.le_add_left _ _))
abbrev ix0 (pf : pre0.Contents (Elt F)) : (w : Fin 24) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | 7 => cc0_transform_7 | 8 => cc0_transform_8 | 9 => cc0_transform_9 | 10 => cc0_transform_10 | 11 => cc0_transform_11 | 12 => cc0_transform_12 | 13 => cc0_transform_13 | 14 => cc0_transform_14 | 15 => cc0_transform_15 | 16 => cc0_transform_16 | 17 => cc0_transform_17 | 18 => cc0_transform_18 | 19 => cc0_transform_19 | 20 => cc0_transform_20 | 21 => cc0_transform_21 | 22 => cc0_transform_22 | 23 => cc0_transform_23 | ⟨_ + 24, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | 8 => hreads0_8 | 9 => hreads0_9 | 10 => hreads0_10 | 11 => hreads0_11 | 12 => hreads0_12 | 13 => hreads0_13 | 14 => hreads0_14 | 15 => hreads0_15 | 16 => hreads0_16 | 17 => hreads0_17 | 18 => hreads0_18 | 19 => hreads0_19 | 20 => hreads0_20 | 21 => hreads0_21 | 22 => hreads0_22 | 23 => hreads0_23 | ⟨_ + 24, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | 8 => hinb0_8 | 9 => hinb0_9 | 10 => hinb0_10 | 11 => hinb0_11 | 12 => hinb0_12 | 13 => hinb0_13 | 14 => hinb0_14 | 15 => hinb0_15 | 16 => hinb0_16 | 17 => hinb0_17 | 18 => hinb0_18 | 19 => hinb0_19 | 20 => hinb0_20 | 21 => hinb0_21 | 22 => hinb0_22 | 23 => hinb0_23 | ⟨_ + 24, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | 8 => hwx0_8 | 9 => hwx0_9 | 10 => hwx0_10 | 11 => hwx0_11 | 12 => hwx0_12 | 13 => hwx0_13 | 14 => hwx0_14 | 15 => hwx0_15 | 16 => hwx0_16 | 17 => hwx0_17 | 18 => hwx0_18 | 19 => hwx0_19 | 20 => hwx0_20 | 21 => hwx0_21 | 22 => hwx0_22 | 23 => hwx0_23 | ⟨_ + 24, h⟩ => absurd h (Nat.not_lt.2 (Nat.le_add_left _ _))

class Facts : Prop extends Facts₀ where
  harr0 : ∀ w, (spec0 w).arr.IsWhole

variable [Facts]
-- ==== ReferenceIdeal.lean ====
abbrev S512x16x128 : Shape := ⟨3, ![512, 16, 128]⟩
abbrev S512 : Shape := ⟨1, ![512]⟩
abbrev S256x512 : Shape := ⟨2, ![256, 512]⟩
abbrev S512x512 : Shape := ⟨2, ![512, 512]⟩
abbrev S644x512 : Shape := ⟨2, ![644, 512]⟩
abbrev S512x128 : Shape := ⟨2, ![512, 128]⟩
abbrev S128 : Shape := ⟨1, ![128]⟩
abbrev S8192x128 : Shape := ⟨2, ![8192, 128]⟩
abbrev S16 : Shape := ⟨1, ![16]⟩
abbrev S16x1 : Shape := ⟨2, ![16, 1]⟩
abbrev S15 : Shape := ⟨1, ![15]⟩
abbrev S1x15 : Shape := ⟨2, ![1, 15]⟩
abbrev S16x15 : Shape := ⟨2, ![16, 15]⟩
abbrev S240 : Shape := ⟨1, ![240]⟩
abbrev S_ : Shape := ⟨0, ![]⟩
abbrev S512x1 : Shape := ⟨2, ![512, 1]⟩
abbrev S1x240 : Shape := ⟨2, ![1, 240]⟩
abbrev S512x240 : Shape := ⟨2, ![512, 240]⟩
abbrev S122880 : Shape := ⟨1, ![122880]⟩
abbrev S122880x1 : Shape := ⟨2, ![122880, 1]⟩
abbrev S122880x128 : Shape := ⟨2, ![122880, 128]⟩
abbrev S122880x256 : Shape := ⟨2, ![122880, 256]⟩
abbrev S122880x512 : Shape := ⟨2, ![122880, 512]⟩
abbrev S1x512 : Shape := ⟨2, ![1, 512]⟩
abbrev S1x64 : Shape := ⟨2, ![1, 64]⟩
abbrev S512x64 : Shape := ⟨2, ![512, 64]⟩
abbrev S8192x4 : Shape := ⟨2, ![8192, 4]⟩
abbrev S8192x132 : Shape := ⟨2, ![8192, 132]⟩
abbrev S8192x512 : Shape := ⟨2, ![8192, 512]⟩
abbrev S8192x644 : Shape := ⟨2, ![8192, 644]⟩
abbrev S8192 : Shape := ⟨1, ![8192]⟩
abbrev S8192x1 : Shape := ⟨2, ![8192, 1]⟩
abbrev S1x128 : Shape := ⟨2, ![1, 128]⟩

abbrev nBuf : Space → Nat
  | .hbm => 174
  | .vmem => 0
  | .smem => 0
  | _ => 0

abbrev hbmTy0_0 (i : Nat) : BufTy := match i % 128 with
  | 0 => ⟨S512x16x128, .f32⟩
  | 1 => ⟨S512, .i32⟩
  | 2 => ⟨S256x512, .f32⟩
  | 3 => ⟨S512, .f32⟩
  | 4 => ⟨S512x512, .f32⟩
  | 5 => ⟨S512, .f32⟩
  | 6 => ⟨S512, .f32⟩
  | 7 => ⟨S512, .f32⟩
  | 8 => ⟨S512x512, .f32⟩
  | 9 => ⟨S512, .f32⟩
  | 10 => ⟨S644x512, .f32⟩
  | 11 => ⟨S512, .f32⟩
  | 12 => ⟨S512x512, .f32⟩
  | 13 => ⟨S512, .f32⟩
  | 14 => ⟨S512, .f32⟩
  | 15 => ⟨S512, .f32⟩
  | 16 => ⟨S512x128, .f32⟩
  | 17 => ⟨S128, .f32⟩
  | 18 => ⟨S8192x128, .f32⟩
  | 19 => ⟨S16, .i32⟩
  | 20 => ⟨S16x1, .i32⟩
  | 21 => ⟨S15, .i32⟩
  | 22 => ⟨S1x15, .i32⟩
  | 23 => ⟨S16x15, .i32⟩
  | 24 => ⟨S16x15, .i32⟩
  | 25 => ⟨S16x15, .i1⟩
  | 26 => ⟨S16x15, .i32⟩
  | 27 => ⟨S16x15, .i32⟩
  | 28 => ⟨S16x15, .i32⟩
  | 29 => ⟨S16x15, .i32⟩
  | 30 => ⟨S240, .i32⟩
  | 31 => ⟨S240, .i32⟩
  | 32 => ⟨S512, .i32⟩
  | 33 => ⟨S_, .i32⟩
  | 34 => ⟨S512, .i32⟩
  | 35 => ⟨S512, .i32⟩
  | 36 => ⟨S512x1, .i32⟩
  | 37 => ⟨S1x240, .i32⟩
  | 38 => ⟨S512x240, .i32⟩
  | 39 => ⟨S512x240, .i32⟩
  | 40 => ⟨S512x240, .i32⟩
  | 41 => ⟨S122880, .i32⟩
  | 42 => ⟨S1x240, .i32⟩
  | 43 => ⟨S512x240, .i32⟩
  | 44 => ⟨S512x240, .i32⟩
  | 45 => ⟨S512x240, .i32⟩
  | 46 => ⟨S122880, .i32⟩
  | 47 => ⟨S_, .i32⟩
  | 48 => ⟨S122880, .i32⟩
  | 49 => ⟨S122880, .i1⟩
  | 50 => ⟨S_, .i32⟩
  | 51 => ⟨S122880, .i32⟩
  | 52 => ⟨S122880, .i32⟩
  | 53 => ⟨S122880, .i32⟩
  | 54 => ⟨S122880x1, .i32⟩
  | 55 => ⟨S122880x128, .f32⟩
  | 56 => ⟨S_, .i32⟩
  | 57 => ⟨S122880, .i32⟩
  | 58 => ⟨S122880, .i1⟩
  | 59 => ⟨S_, .i32⟩
  | 60 => ⟨S122880, .i32⟩
  | 61 => ⟨S122880, .i32⟩
  | 62 => ⟨S122880, .i32⟩
  | 63 => ⟨S122880x1, .i32⟩
  | 64 => ⟨S122880x128, .f32⟩
  | 65 => ⟨S122880x256, .f32⟩
  | 66 => ⟨S122880x512, .f32⟩
  | 67 => ⟨S1x512, .f32⟩
  | 68 => ⟨S122880x512, .f32⟩
  | 69 => ⟨S122880x512, .f32⟩
  | 70 => ⟨S_, .f32⟩
  | 71 => ⟨S122880x512, .f32⟩
  | 72 => ⟨S122880x512, .f32⟩
  | 73 => ⟨S122880x512, .f32⟩
  | 74 => ⟨S1x512, .f32⟩
  | 75 => ⟨S122880x512, .f32⟩
  | 76 => ⟨S122880x512, .f32⟩
  | 77 => ⟨S_, .f32⟩
  | 78 => ⟨S122880, .f32⟩
  | 79 => ⟨S122880x1, .f32⟩
  | 80 => ⟨S_, .f32⟩
  | 81 => ⟨S122880x1, .f32⟩
  | 82 => ⟨S122880x1, .f32⟩
  | 83 => ⟨S122880x512, .f32⟩
  | 84 => ⟨S122880x512, .f32⟩
  | 85 => ⟨S122880x512, .f32⟩
  | 86 => ⟨S_, .f32⟩
  | 87 => ⟨S122880, .f32⟩
  | 88 => ⟨S122880x1, .f32⟩
  | 89 => ⟨S_, .f32⟩
  | 90 => ⟨S122880x1, .f32⟩
  | 91 => ⟨S122880x1, .f32⟩
  | 92 => ⟨S122880x512, .f32⟩
  | 93 => ⟨S122880x512, .f32⟩
  | 94 => ⟨S_, .f32⟩
  | 95 => ⟨S122880x1, .f32⟩
  | 96 => ⟨S122880x1, .f32⟩
  | 97 => ⟨S122880x1, .f32⟩
  | 98 => ⟨S122880x512, .f32⟩
  | 99 => ⟨S122880x512, .f32⟩
  | 100 => ⟨S1x512, .f32⟩
  | 101 => ⟨S122880x512, .f32⟩
  | 102 => ⟨S122880x512, .f32⟩
  | 103 => ⟨S1x512, .f32⟩
  | 104 => ⟨S122880x512, .f32⟩
  | 105 => ⟨S122880x512, .f32⟩
  | 106 => ⟨S_, .f32⟩
  | 107 => ⟨S122880x512, .f32⟩
  | 108 => ⟨S122880x512, .f32⟩
  | 109 => ⟨S122880x512, .f32⟩
  | 110 => ⟨S1x512, .f32⟩
  | 111 => ⟨S122880x512, .f32⟩
  | 112 => ⟨S122880x512, .f32⟩
  | 113 => ⟨S512x1, .i32⟩
  | 114 => ⟨S1x64, .i32⟩
  | 115 => ⟨S512x64, .i32⟩
  | 116 => ⟨S512x64, .i32⟩
  | 117 => ⟨S512x64, .i1⟩
  | 118 => ⟨S512x64, .f32⟩
  | 119 => ⟨S8192x4, .f32⟩
  | 120 => ⟨S8192x132, .f32⟩
  | 121 => ⟨S_, .f32⟩
  | 122 => ⟨S8192x512, .f32⟩
  | 123 => ⟨S122880x1, .i32⟩
  | 124 => ⟨S8192x512, .f32⟩
  | 125 => ⟨S8192x644, .f32⟩
  | 126 => ⟨S8192x512, .f32⟩
  | 127 => ⟨S1x512, .f32⟩
  | _ => ⟨S512x16x128, .f32⟩

abbrev hbmTy0_1 (i : Nat) : BufTy := match i % 128 with
  | 0 => ⟨S8192x512, .f32⟩
  | 1 => ⟨S8192x512, .f32⟩
  | 2 => ⟨S_, .f32⟩
  | 3 => ⟨S8192x512, .f32⟩
  | 4 => ⟨S8192x512, .f32⟩
  | 5 => ⟨S8192x512, .f32⟩
  | 6 => ⟨S1x512, .f32⟩
  | 7 => ⟨S8192x512, .f32⟩
  | 8 => ⟨S8192x512, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S8192x512, .f32⟩
  | 16 => ⟨S8192x512, .f32⟩
  | 17 => ⟨S8192x512, .f32⟩
  | 18 => ⟨S_, .f32⟩
  | 19 => ⟨S8192, .f32⟩
  | 20 => ⟨S8192x1, .f32⟩
  | 21 => ⟨S_, .f32⟩
  | 22 => ⟨S8192x1, .f32⟩
  | 23 => ⟨S8192x1, .f32⟩
  | 24 => ⟨S8192x512, .f32⟩
  | 25 => ⟨S8192x512, .f32⟩
  | 26 => ⟨S_, .f32⟩
  | 27 => ⟨S8192x1, .f32⟩
  | 28 => ⟨S8192x1, .f32⟩
  | 29 => ⟨S8192x1, .f32⟩
  | 30 => ⟨S8192x512, .f32⟩
  | 31 => ⟨S8192x512, .f32⟩
  | 32 => ⟨S1x512, .f32⟩
  | 33 => ⟨S8192x512, .f32⟩
  | 34 => ⟨S8192x512, .f32⟩
  | 35 => ⟨S1x512, .f32⟩
  | 36 => ⟨S8192x512, .f32⟩
  | 37 => ⟨S8192x512, .f32⟩
  | 38 => ⟨S_, .f32⟩
  | 39 => ⟨S8192x512, .f32⟩
  | 40 => ⟨S8192x512, .f32⟩
  | 41 => ⟨S8192x128, .f32⟩
  | 42 => ⟨S1x128, .f32⟩
  | 43 => ⟨S8192x128, .f32⟩
  | 44 => ⟨S8192x128, .f32⟩
  | 45 => ⟨S512x16x128, .f32⟩
  | _ => ⟨S512x16x128, .f32⟩

abbrev hbmTy (i : Nat) : BufTy := match i / 128 with
  | 0 => hbmTy0_0 i
  | 1 => hbmTy0_1 i
  | _ => ⟨S512x16x128, .f32⟩

abbrev bufTy : (tb : Table) → Fin (tcTables nBuf tb) → BufTy
  | .hbm, ⟨i, _⟩ => hbmTy i
  | _, _ => ⟨S512x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_0 : Ref sig .tc := ⟨.hbm, 47, rfl⟩
abbrev main_v28 : Ref sig .tc := ⟨.hbm, 48, rfl⟩
abbrev main_v29 : Ref sig .tc := ⟨.hbm, 49, rfl⟩
abbrev main_c_1 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_2 : Ref sig .tc := ⟨.hbm, 56, rfl⟩
abbrev main_v35 : Ref sig .tc := ⟨.hbm, 57, rfl⟩
abbrev main_v36 : Ref sig .tc := ⟨.hbm, 58, rfl⟩
abbrev main_c_3 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call0_cst : Ref sig .tc := ⟨.hbm, 70, rfl⟩
abbrev main_call0_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst : Ref sig .tc := ⟨.hbm, 77, rfl⟩
abbrev main_v52 : Ref sig .tc := ⟨.hbm, 78, rfl⟩
abbrev main_v53 : Ref sig .tc := ⟨.hbm, 79, rfl⟩
abbrev main_cst_4 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_5 : Ref sig .tc := ⟨.hbm, 86, rfl⟩
abbrev main_v59 : Ref sig .tc := ⟨.hbm, 87, rfl⟩
abbrev main_v60 : Ref sig .tc := ⟨.hbm, 88, rfl⟩
abbrev main_cst_6 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_7 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_call1_cst : Ref sig .tc := ⟨.hbm, 106, rfl⟩
abbrev main_call1_v0 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_call2_v0 : Ref sig .tc := ⟨.hbm, 113, rfl⟩
abbrev main_call2_v1 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_8 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_call3_cst : Ref sig .tc := ⟨.hbm, 130, rfl⟩
abbrev main_call3_v0 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_9 : Ref sig .tc := ⟨.hbm, 137, rfl⟩
abbrev main_v97 : Ref sig .tc := ⟨.hbm, 138, rfl⟩
abbrev main_v98 : Ref sig .tc := ⟨.hbm, 139, rfl⟩
abbrev main_cst_10 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_11 : Ref sig .tc := ⟨.hbm, 146, rfl⟩
abbrev main_v104 : Ref sig .tc := ⟨.hbm, 147, rfl⟩
abbrev main_v105 : Ref sig .tc := ⟨.hbm, 148, rfl⟩
abbrev main_cst_12 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_13 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_call4_cst : Ref sig .tc := ⟨.hbm, 166, rfl⟩
abbrev main_call4_v0 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩

abbrev nD : Nat := 1
abbrev τ : Topo := Topo.v7x

variable {F : FTy → Type} [FloatOps F]

class Facts₀ : Prop where
  shapeCasts_S512x16x128_S8192x128 : S512x16x128.ShapeCasts S8192x128
  bcast_S16_S16x1_0 : S16.BroadcastsInDim S16x1 (![0] : Fin 1 → Fin S16x1.rank)
  bcast_S15_S1x15_1 : S15.BroadcastsInDim S1x15 (![1] : Fin 1 → Fin S1x15.rank)
  bcast_S1x15_S16x15_0_1 : S1x15.BroadcastsInDim S16x15 (![0, 1] : Fin 2 → Fin S16x15.rank)
  bcast_S16x1_S16x15_0_1 : S16x1.BroadcastsInDim S16x15 (![0, 1] : Fin 2 → Fin S16x15.rank)
  natLt_1_32 : 1 < 32
  shapeCasts_S16x15_S240 : S16x15.ShapeCasts S240
  bcast_S_S512 : S_.BroadcastsInDim S512 (![] : Fin 0 → Fin S512.rank)
  bcast_S512_S512x1_0 : S512.BroadcastsInDim S512x1 (![0] : Fin 1 → Fin S512x1.rank)
  bcast_S240_S1x240_1 : S240.BroadcastsInDim S1x240 (![1] : Fin 1 → Fin S1x240.rank)
  bcast_S1x240_S512x240_0_1 : S1x240.BroadcastsInDim S512x240 (![0, 1] : Fin 2 → Fin S512x240.rank)
  bcast_S512x1_S512x240_0_1 : S512x1.BroadcastsInDim S512x240 (![0, 1] : Fin 2 → Fin S512x240.rank)
  shapeCasts_S512x240_S122880 : S512x240.ShapeCasts S122880
  bcast_S_S122880 : S_.BroadcastsInDim S122880 (![] : Fin 0 → Fin S122880.rank)
  bcast_S122880_S122880x1_0 : S122880.BroadcastsInDim S122880x1 (![0] : Fin 1 → Fin S122880x1.rank)
  concatenates_S122880x128_S122880x128_S122880x256_d1 : Shape.Concatenates [S122880x128, S122880x128] S122880x256 1
  bcast_S512_S1x512_1 : S512.BroadcastsInDim S1x512 (![1] : Fin 1 → Fin S1x512.rank)
  bcast_S1x512_S122880x512_0_1 : S1x512.BroadcastsInDim S122880x512 (![0, 1] : Fin 2 → Fin S122880x512.rank)
  bcast_S_S122880x512 : S_.BroadcastsInDim S122880x512 (![] : Fin 0 → Fin S122880x512.rank)
  reducesTo_S122880x512_S122880_d1 : S122880x512.ReducesTo [1] S122880
  h_S_ : 0 < S_.numel
  bcast_S_S122880x1 : S_.BroadcastsInDim S122880x1 (![] : Fin 0 → Fin S122880x1.rank)
  bcast_S122880x1_S122880x512_0_1 : S122880x1.BroadcastsInDim S122880x512 (![0, 1] : Fin 2 → Fin S122880x512.rank)
  bcast_S512x1_S512x64_0_1 : S512x1.BroadcastsInDim S512x64 (![0, 1] : Fin 2 → Fin S512x64.rank)
  bcast_S1x64_S512x64_0_1 : S1x64.BroadcastsInDim S512x64 (![0, 1] : Fin 2 → Fin S512x64.rank)
  shapeCasts_S512x64_S8192x4 : S512x64.ShapeCasts S8192x4
  concatenates_S8192x128_S8192x4_S8192x132_d1 : Shape.Concatenates [S8192x128, S8192x4] S8192x132 1
  bcast_S_S8192x512 : S_.BroadcastsInDim S8192x512 (![] : Fin 0 → Fin S8192x512.rank)
  concatenates_S8192x132_S8192x512_S8192x644_d1 : Shape.Concatenates [S8192x132, S8192x512] S8192x644 1
  bcast_S1x512_S8192x512_0_1 : S1x512.BroadcastsInDim S8192x512 (![0, 1] : Fin 2 → Fin S8192x512.rank)
  reducesTo_S8192x512_S8192_d1 : S8192x512.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  shapeCasts_S8192x128_S512x16x128 : S8192x128.ShapeCasts S512x16x128
  gather_S8192x128_S122880x1_S122880x128_1_0_n_n_0_1_1128_wf : GatherDims.WF S8192x128 S122880x1 S122880x128 [1] [0] [] [0] [] 1 ![1, 128]
  dot_S122880x256_S256x512_S122880x512_1_0_0_1_n_n_wf : DotDims.WF S122880x256 S256x512 S122880x512 [1] [0] [0] [1] [] []
  dot_S122880x512_S512x512_S122880x512_1_0_0_1_n_n_wf : DotDims.WF S122880x512 S512x512 S122880x512 [1] [0] [0] [1] [] []
  scatter_S8192x512_S122880x1_S122880x512_1_0_0_1_wf : ScatterDims.WF S8192x512 S122880x1 S122880x512 [1] [0] [0] 1
  dot_S8192x644_S644x512_S8192x512_1_0_0_1_n_n_wf : DotDims.WF S8192x644 S644x512 S8192x512 [1] [0] [0] [1] [] []
  dot_S8192x512_S512x512_S8192x512_1_0_0_1_n_n_wf : DotDims.WF S8192x512 S512x512 S8192x512 [1] [0] [0] [1] [] []
  dot_S8192x512_S512x128_S8192x128_1_0_0_1_n_n_wf : DotDims.WF S8192x512 S512x128 S8192x128 [1] [0] [0] [1] [] []

variable [Facts₀]

def gather_S8192x128_S122880x1_S122880x128_1_0_n_n_0_1_1128 : GatherDims S8192x128 S122880x1 S122880x128 where
  offsetDims := [1]
  collapsedSliceDims := [0]
  operandBatchingDims := []
  startIndicesBatchingDims := []
  startIndexMap := [0]
  indexVectorDim := 1
  sliceSizes := ![1, 128]
  wf := gather_S8192x128_S122880x1_S122880x128_1_0_n_n_0_1_1128_wf
def dot_S122880x256_S256x512_S122880x512_1_0_0_1_n_n : DotDims S122880x256 S256x512 S122880x512 where
  lhsContracting := [1]
  rhsContracting := [0]
  lhsNonContracting := [0]
  rhsNonContracting := [1]
  lhsBatch := []
  rhsBatch := []
  wf := dot_S122880x256_S256x512_S122880x512_1_0_0_1_n_n_wf
def dot_S122880x512_S512x512_S122880x512_1_0_0_1_n_n : DotDims S122880x512 S512x512 S122880x512 where
  lhsContracting := [1]
  rhsContracting := [0]
  lhsNonContracting := [0]
  rhsNonContracting := [1]
  lhsBatch := []
  rhsBatch := []
  wf := dot_S122880x512_S512x512_S122880x512_1_0_0_1_n_n_wf
def scatter_S8192x512_S122880x1_S122880x512_1_0_0_1 : ScatterDims S8192x512 S122880x1 S122880x512 where
  updateWindowDims := [1]
  insertedWindowDims := [0]
  scatterDimsToOperandDims := [0]
  indexVectorDim := 1
  wf := scatter_S8192x512_S122880x1_S122880x512_1_0_0_1_wf
def dot_S8192x644_S644x512_S8192x512_1_0_0_1_n_n : DotDims S8192x644 S644x512 S8192x512 where
  lhsContracting := [1]
  rhsContracting := [0]
  lhsNonContracting := [0]
  rhsNonContracting := [1]
  lhsBatch := []
  rhsBatch := []
  wf := dot_S8192x644_S644x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf

class Facts : Prop extends Facts₀ where

variable [Facts]
-- ==== Proof.Spec.lean ====
/-
  The per-graph message-passing network both programs compute, written once over plain finite index types and the
  extended reals: an edge MLP on each ordered pair (i, j), i ≠ j, of a graph's sixteen nodes, the sum of the edge
  results over the pairs with first node o, and a node MLP on (node features, action one-hot slice, that sum).
  Each MLP is affine → relu → affine → layer norm → relu → affine. Literals stay as the bit patterns both programs
  print (512 as 0x44000000, the epsilon 0x3727C5AC, zero 0x00000000); none is ever evaluated except the zero.
-/
import Idealize.ShloMosaic.PureOps.Ideal
import Idealize.ShloMosaic.PureOps.Ideal.Laws
import Idealize.ShloMosaic.Lib.ValueIdx
import Mathlib.Algebra.BigOperators.Fin

noncomputable section

namespace Cert.GnnSpec

open Idealize.ShloMosaic

/-- The three float literals of the layer norm and the relu, as both programs print them. -/
abbrev zeroF : EReal := Ideal.ofBits .f32 0x00000000#32
abbrev nF : EReal := Ideal.ofBits .f32 0x44000000#32
abbrev epsF : EReal := Ideal.ofBits .f32 0x3727C5AC#32

/-- One row through an affine layer: x · W + b. -/
def lin {K H : ℕ} (W : Fin K → Fin H → EReal) (b : Fin H → EReal) (x : Fin K → EReal) (h : Fin H) : EReal :=
  (∑ k : Fin K, x k * W k h) + b h

/-- relu of a row: the maximum with zero. -/
def relu {H : ℕ} (x : Fin H → EReal) (h : Fin H) : EReal := max (x h) zeroF

/-- The mean of a row of 512 entries: its sum divided by 512. -/
def mean (x : Fin 512 → EReal) : EReal := Ideal.div (∑ k : Fin 512, x k) nF

/-- Layer norm of a row: (x − μ) · rsqrt(var + ε) · g + β, the variance the mean of (x − μ)². -/
def lnorm (g β x : Fin 512 → EReal) (h : Fin 512) : EReal :=
  ((x h - mean x) * Ideal.rsqrt (mean (fun k => (x k - mean x) * (x k - mean x)) + epsF)) * g h + β h

/-- The three-layer perceptron on one row. -/
def mlp {K H3 : ℕ} (W1 : Fin K → Fin 512 → EReal) (b1 : Fin 512 → EReal) (W2 : Fin 512 → Fin 512 → EReal)
    (b2 g β : Fin 512 → EReal) (W3 : Fin 512 → Fin H3 → EReal) (b3 : Fin H3 → EReal) (x : Fin K → EReal) : Fin H3 → EReal :=
  lin W3 b3 (relu (lnorm g β (lin W2 b2 (relu (lin W1 b1 x)))))

/-- The weights of the two perceptrons. -/
structure Params where
  eW1 : Fin 256 → Fin 512 → EReal
  eb1 : Fin 512 → EReal
  eW2 : Fin 512 → Fin 512 → EReal
  eb2 : Fin 512 → EReal
  eg : Fin 512 → EReal
  ebeta : Fin 512 → EReal
  eW3 : Fin 512 → Fin 512 → EReal
  eb3 : Fin 512 → EReal
  nW1 : Fin 644 → Fin 512 → EReal
  nb1 : Fin 512 → EReal
  nW2 : Fin 512 → Fin 512 → EReal
  nb2 : Fin 512 → EReal
  ng : Fin 512 → EReal
  nbeta : Fin 512 → EReal
  nW3 : Fin 512 → Fin 128 → EReal
  nb3 : Fin 128 → EReal

/-- Edge e = 15·i + k of a graph goes from node i … -/
def rowL (e : Fin 240) : Fin 16 := ⟨e.val / 15, by have := e.isLt; omega⟩

/-- … to node k, or k + 1 from k = i on (the pair (i, i) is skipped). -/
def colL (e : Fin 240) : Fin 16 :=
  ⟨e.val % 15 + (if e.val / 15 ≤ e.val % 15 then 1 else 0), by have := e.isLt; split <;> omega⟩

/-- The edge perceptron's input row: the source node's features, then the target node's. -/
def edgeIn (nodes : Fin 16 → Fin 128 → EReal) (e : Fin 240) (k : Fin 256) : EReal :=
  if h : k.val < 128 then nodes (rowL e) ⟨k.val, h⟩ else nodes (colL e) ⟨k.val - 128, by have := k.isLt; omega⟩

/-- The edge perceptron's result on edge e. -/
def edgeAttr (P : Params) (nodes : Fin 16 → Fin 128 → EReal) (e : Fin 240) : Fin 512 → EReal :=
  mlp P.eW1 P.eb1 P.eW2 P.eb2 P.eg P.ebeta P.eW3 P.eb3 (edgeIn nodes e)

/-- The sum of the edge results over the edges leaving node o. -/
def agg (P : Params) (nodes : Fin 16 → Fin 128 → EReal) (o : Fin 16) (h : Fin 512) : EReal :=
  ∑ e : Fin 240, if rowL e = o then edgeAttr P nodes e h else 0

/-- The action's one-hot over 64 classes, the four of node o: class 4·o + j. -/
def actv (a : BitVec 32) (o : Fin 16) (j : Fin 4) : EReal := if a = BitVec.ofNat 32 (4 * o.val + j.val) then 1 else 0

/-- The node perceptron's input row: features (128), action slice (4), aggregated edge results (512). -/
def nodeIn (P : Params) (nodes : Fin 16 → Fin 128 → EReal) (a : BitVec 32) (o : Fin 16) (k : Fin 644) : EReal :=
  if h : k.val < 132 then
    (if h' : k.val < 128 then nodes o ⟨k.val, h'⟩ else actv a o ⟨k.val - 128, by omega⟩)
  else agg P nodes o ⟨k.val - 132, by have := k.isLt; omega⟩

/-- The network's result for node o of a graph with the given node features and action word. -/
def out (P : Params) (nodes : Fin 16 → Fin 128 → EReal) (a : BitVec 32) (o : Fin 16) : Fin 128 → EReal :=
  mlp P.nW1 P.nb1 P.nW2 P.nb2 P.ng P.nbeta P.nW3 P.nb3 (nodeIn P nodes a o)

end Cert.GnnSpec

end
-- ==== Proof.KerRun.lean ====
/-
  The kernel's result array, read off the pipeline's run. The grid has 512 points; at point t the body stores ONE block,
  [1, 16, 128], of the result: `kblock` of row t of the states (window 0's block at t), of the 22 resident arrays (each
  window's one block is its whole array) and of entry t of the action table (the scalar the body loads at its grid
  coordinate). Point t's block is rows [t] of the result array, so the 512 blocks tile it: after the run the array holds
  `kout`, index by index, and every argument array is as launched.
-/
import proofs.«421245_j18330920419718_1_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.KerRun

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]

/-- One grid point's block of the result, as a function of the point's 23 input blocks (the states' row, the two edge
    selectors and the aggregation matrix, the edge perceptron's and the node perceptron's weights) and of the point's
    action word: the body's arithmetic, its last store's payload over the payloads it is computed from. -/
def kblock (x0 : Vec F S1x16x128 .f32) (x1 : Vec F S240x16 .f32) (x2 : Vec F S240x16 .f32) (x3 : Vec F S16x240 .f32) (x4 : Vec F S128x512 .f32) (x5 : Vec F S128x512 .f32) (x6 : Vec F S512 .f32) (x7 : Vec F S512x512 .f32) (x8 : Vec F S512 .f32) (x9 : Vec F S512 .f32) (x10 : Vec F S512 .f32) (x11 : Vec F S512x512 .f32) (x12 : Vec F S512 .f32) (x13 : Vec F S128x512 .f32) (x14 : Vec F S4x512 .f32) (x15 : Vec F S512x512 .f32) (x16 : Vec F S512 .f32) (x17 : Vec F S512x512 .f32) (x18 : Vec F S512 .f32) (x19 : Vec F S512 .f32) (x20 : Vec F S512 .f32) (x21 : Vec F S512x128 .f32) (x22 : Vec F S128 .f32) (a : Elt F .i32) : FVec F S1x16x128 .f32 :=
  k0_pay1 (k0_pay8 (k0_pay2 x0) (k0_pay5 (k0_pay3 x3) (k0_pay4 x0 x1 x2 x4 x5 x6 x7 x8) x9 x10 x11 x12) k0_pay6 (k0_pay7 a) x13 x14 x15 x16 x17 x18) x19 x20
    (k0_pay9 (k0_pay2 x0) (k0_pay5 (k0_pay3 x3) (k0_pay4 x0 x1 x2 x4 x5 x6 x7 x8) x9 x10 x11 x12) k0_pay6 (k0_pay7 a) x13 x14 x15 x16 x17 x18)
    (k0_pay10 (k0_pay2 x0) (k0_pay5 (k0_pay3 x3) (k0_pay4 x0 x1 x2 x4 x5 x6 x7 x8) x9 x10 x11 x12) k0_pay6 (k0_pay7 a) x13 x14 x15 x16 x17 x18) x21 x22

/-- Offsets written as zeros are the zero offsets (ranks 1, 2, 3). -/
theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The action word the body reads from the table: the table's entry at the offset the grid coordinate gives. -/
def tableWord (c : Dev nD) (i : grid0.Coords) (xt0 : TbBuf0 (F := F) c tbM0_0) : Elt F .i32 :=
  View.readAt (Elt F) tbM0_0.view (Rect.unit (s := S512) (k0_off1 i) S1.size (k0_off1_inb i)).toLoadRect xt0
    (Shape.Idx.first (numel1_S1.symm ▸ Nat.one_pos))

/-- What the body leaves in the output's staging buffer: its one covering store's payload, every load reading a whole
    staging buffer and the one scalar load the table's entry. -/
theorem body_block (c : Dev nD) (i : grid0.Coords) (arg2 : Memref sig .tc .vmem S1x16x128 .f32) (harg2 : arg2.IsWhole) (arg3 : Memref sig .tc .vmem S240x16 .f32) (harg3 : arg3.IsWhole) (arg4 : Memref sig .tc .vmem S240x16 .f32) (harg4 : arg4.IsWhole) (arg5 : Memref sig .tc .vmem S16x240 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S512 .f32) (harg8 : arg8.IsWhole) (arg9 : Memref sig .tc .vmem S512x512 .f32) (harg9 : arg9.IsWhole) (arg10 : Memref sig .tc .vmem S512 .f32) (harg10 : arg10.IsWhole) (arg11 : Memref sig .tc .vmem S512 .f32) (harg11 : arg11.IsWhole) (arg12 : Memref sig .tc .vmem S512 .f32) (harg12 : arg12.IsWhole) (arg13 : Memref sig .tc .vmem S512x512 .f32) (harg13 : arg13.IsWhole) (arg14 : Memref sig .tc .vmem S512 .f32) (harg14 : arg14.IsWhole) (arg15 : Memref sig .tc .vmem S128x512 .f32) (harg15 : arg15.IsWhole) (arg16 : Memref sig .tc .vmem S4x512 .f32) (harg16 : arg16.IsWhole) (arg17 : Memref sig .tc .vmem S512x512 .f32) (harg17 : arg17.IsWhole) (arg18 : Memref sig .tc .vmem S512 .f32) (harg18 : arg18.IsWhole) (arg19 : Memref sig .tc .vmem S512x512 .f32) (harg19 : arg19.IsWhole) (arg20 : Memref sig .tc .vmem S512 .f32) (harg20 : arg20.IsWhole) (arg21 : Memref sig .tc .vmem S512 .f32) (harg21 : arg21.IsWhole) (arg22 : Memref sig .tc .vmem S512 .f32) (harg22 : arg22.IsWhole) (arg23 : Memref sig .tc .vmem S512x128 .f32) (harg23 : arg23.IsWhole) (arg24 : Memref sig .tc .vmem S128 .f32) (harg24 : arg24.IsWhole) (arg25 : Memref sig .tc .vmem S1x16x128 .f32) (harg25 : arg25.IsWhole)
    (x0 : Vec F S1x16x128 .f32) (x1 : Vec F S240x16 .f32) (x2 : Vec F S240x16 .f32) (x3 : Vec F S16x240 .f32) (x4 : Vec F S128x512 .f32) (x5 : Vec F S128x512 .f32) (x6 : Vec F S512 .f32) (x7 : Vec F S512x512 .f32) (x8 : Vec F S512 .f32) (x9 : Vec F S512 .f32) (x10 : Vec F S512 .f32) (x11 : Vec F S512x512 .f32) (x12 : Vec F S512 .f32) (x13 : Vec F S128x512 .f32) (x14 : Vec F S4x512 .f32) (x15 : Vec F S512x512 .f32) (x16 : Vec F S512 .f32) (x17 : Vec F S512x512 .f32) (x18 : Vec F S512 .f32) (x19 : Vec F S512 .f32) (x20 : Vec F S512 .f32) (x21 : Vec F S512x128 .f32) (x22 : Vec F S128 .f32) (xt0 : TbBuf0 (F := F) c tbM0_0) :
    out0_A_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 x22 xt0 = kblock x0 x1 x2 x3 x4 x5 x6 x7 x8 x9 x10 x11 x12 x13 x14 x15 x16 x17 x18 x19 x20 x21 x22 (tableWord c i xt0) := by
  unfold out0_A_23
  rw [View.read_writes_eq_canon _ _ _ (cover0_A_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 x22 xt0)]
  unfold kernelRun0_A
  dsimp only
  sl_unfold_run_names
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, View.ld_unit_zero (S := S1x16x128) hz3, View.ld_unit_zero (S := S240x16) hz2, View.ld_unit_zero (S := S16x240) hz2, View.ld_unit_zero (S := S128x512) hz2, View.ld_unit_zero (S := S512) hz1, View.ld_unit_zero (S := S512x512) hz2, View.ld_unit_zero (S := S4x512) hz2, View.ld_unit_zero (S := S512x128) hz2, View.ld_unit_zero (S := S128) hz1]
  rfl

/-- The table's entry the body reads at grid coordinate `i` is the table at index `i 0`. -/
theorem tableWord_eq (c : Dev nD) (i : grid0.Coords) (xt0 : TbBuf0 (F := F) c tbM0_0) :
    tableWord c i xt0 = (xt0 : S512.Idx → Elt F .i32) (ix1 (i 0 : Fin 512)) := by
  unfold tableWord
  show (xt0 : S512.Idx → Elt F .i32) _ = _
  congr 1
  funext a
  apply Fin.ext
  match a with
  | ⟨0, _⟩ =>
    show k0_off1 i 0 + 1 * 0 = (i 0).val
    rw [k0_off1_eq]
    show (i 0).val + 1 * 0 = (i 0).val
    omega

variable (m : (ℓ : Loc nD τ sig) → Buf (Elt F) ℓ) (ρ : Dev nD → PrngReg)

/-- The index maps over the grid: the grid coordinate is the point; the states' window and the result's window sit at
    block (point, 0, 0). -/
theorem block_index (a : (pcfg0 (F := F)).Adm) : ∀ t : Fin (cfg0 a).N,
    (grid0.coords t (0 : Fin 1)).val = t.val
    ∧ ((cfg0 a).win 0).index t (0 : Fin 3) = t.val ∧ ((cfg0 a).win 0).index t (1 : Fin 3) = 0 ∧ ((cfg0 a).win 0).index t (2 : Fin 3) = 0
    ∧ ((cfg0 a).win 23).index t (0 : Fin 3) = t.val ∧ ((cfg0 a).win 23).index t (1 : Fin 3) = 0 ∧ ((cfg0 a).win 23).index t (2 : Fin 3) = 0 :=
  (by decide +kernel : ∀ t : Fin grid0.N,
    (grid0.coords t (0 : Fin 1)).val = t.val
    ∧ cc0_transform_0 (grid0.coords t) (0 : Fin 3) = t.val ∧ cc0_transform_0 (grid0.coords t) (1 : Fin 3) = 0 ∧ cc0_transform_0 (grid0.coords t) (2 : Fin 3) = 0
    ∧ cc0_transform_23 (grid0.coords t) (0 : Fin 3) = t.val ∧ cc0_transform_23 (grid0.coords t) (1 : Fin 3) = 0 ∧ cc0_transform_23 (grid0.coords t) (2 : Fin 3) = 0)

/-- A point of the grid is below 512. -/
theorem point_lt (hO : Ok m) (t : Fin (cfgM m hO).N) : t.val < 512 := by
  exact lt_of_lt_of_eq t.isLt N_0

/-- The states' block at point `t` is row `t` of the states. -/
theorem states_row_apply (hO : Ok m) (c : Dev nD) (t : Fin (cfgM m hO).N) (y : S1x16x128.Idx) (k : S512x16x128.Idx)
    (hk0 : (k 0).val = t.val) (hk1 : (k 1).val = (y 1).val) (hk2 : (k 2).val = (y 2).val) :
    (iblk m hO c 0 t : Vec F S1x16x128 .f32) y = (V m c main_arg0 : Vec F S512x16x128 .f32) k := by
  obtain ⟨-, e0, e1, e2, -⟩ := block_index (adm m hO) t
  unfold iblk
  show V m c main_arg0 ((((cfgM m hO).win 0).blk t).view.emb y) = V m c main_arg0 k
  congr 1
  funext a
  apply Fin.ext
  match a with
  | ⟨0, _⟩ =>
    show ((cfgM m hO).win 0).index t (0 : Fin 3) * 1 + 1 * (y 0).val = (k 0).val
    have : (y 0).val < 1 := (y 0).isLt
    rw [e0, hk0]; omega
  | ⟨1, _⟩ =>
    show ((cfgM m hO).win 0).index t (1 : Fin 3) * 16 + 1 * (y 1).val = (k 1).val
    rw [e1, hk1]; omega
  | ⟨2, _⟩ =>
    show ((cfgM m hO).win 0).index t (2 : Fin 3) * 128 + 1 * (y 2).val = (k 2).val
    rw [e2, hk2]; omega

/-- A resident window's one block is its whole array (windows 1 to 22: their block index is zero on every axis and
    their block is the array's own shape). -/
theorem resident1 (hO : Ok m) (c : Dev nD) (t : Fin (cfgM m hO).N) : (iblk m hO c 1 t : Vec F S240x16 .f32) = V m c main_cst := by
  have hz' : (fun a => ((cfgM m hO).win 1).index t a * main_cst.ty.shape.size a) = fun _ => 0 := funext fun a => by fin_cases a <;> rfl
  exact Memref.read_access_unit_zero (Elt F) main_cst hz' (fun a => by rw [congrFun hz' a]; simp) (V m c main_cst)

theorem resident2 (hO : Ok m) (c : Dev nD) (t : Fin (cfgM m hO).N) : (iblk m hO c 2 t : Vec F S240x16 .f32) = V m c main_cst_0 := by
  have hz' : (fun a => ((cfgM m hO).win 2).index t a * main_cst_0.ty.shape.size a) = fun _ => 0 := funext fun a => by fin_cases a <;> rfl
  exact Memref.read_access_unit_zero (Elt F) main_cst_0 hz' (fun a => by rw [congrFun hz' a]; simp) (V m c main_cst_0)
theorem resident3 (hO : Ok m) (c : Dev nD) (t : Fin (cfgM m hO).N) : (iblk m hO c 3 t : Vec F S16x240 .f32) = V m c main_cst_1 := by
  have hz' : (fun a => ((cfgM m hO).win 3).index t a * main_cst_1.ty.shape.size a) = fun _ => 0 := funext fun a => by fin_cases a <;> rfl
  exact Memref.read_access_unit_zero (Elt F) main_cst_1 hz' (fun a => by rw [congrFun hz' a]; simp) (V m c main_cst_1)
theorem resident4 (hO : Ok m) (c : Dev nD) (t : Fin (cfgM m hO).N) : (iblk m hO c 4 t : Vec F S128x512 .f32) = V m c main_v0 := by
  have hz' : (fun a => ((cfgM m hO).win 4).index t a * main_v0.ty.shape.size a) = fun _ => 0 := funext fun a => by fin_cases a <;> rfl
  exact Memref.read_access_unit_zero (Elt F) main_v0 hz' (fun a => by rw [congrFun hz' a]; simp) (V m c main_v0)
theorem resident5 (hO : Ok m) (c : Dev nD) (t : Fin (cfgM m hO).N) : (iblk m hO c 5 t : Vec F S128x512 .f32) = V m c main_v1 := by
  have hz' : (fun a => ((cfgM m hO).win 5).index t a * main_v1.ty.shape.size a) = fun _ => 0 := funext fun a => by fin_cases a <;> rfl
  exact Memref.read_access_unit_zero (Elt F) main_v1 hz' (fun a => by rw [congrFun hz' a]; simp) (V m c main_v1)
theorem resident6 (hO : Ok m) (c : Dev nD) (t : Fin (cfgM m hO).N) : (iblk m hO c 6 t : Vec F S512 .f32) = V m c main_arg3 := by
  have hz' : (fun a => ((cfgM m hO).win 6).index t a * main_arg3.ty.shape.size a) = fun _ => 0 := funext fun a => by fin_cases a <;> rfl
  exact Memref.read_access_unit_zero (Elt F) main_arg3 hz' (fun a => by rw [congrFun hz' a]; simp) (V m c main_arg3)
theorem resident7 (hO : Ok m) (c : Dev nD) (t : Fin (cfgM m hO).N) : (iblk m hO c 7 t : Vec F S512x512 .f32) = V m c main_arg4 := by
  have hz' : (fun a => ((cfgM m hO).win 7).index t a * main_arg4.ty.shape.size a) = fun _ => 0 := funext fun a => by fin_cases a <;> rfl
  exact Memref.read_access_unit_zero (Elt F) main_arg4 hz' (fun a => by rw [congrFun hz' a]; simp) (V m c main_arg4)
theorem resident8 (hO : Ok m) (c : Dev nD) (t : Fin (cfgM m hO).N) : (iblk m hO c 8 t : Vec F S512 .f32) = V m c main_arg5 := by
  have hz' : (fun a => ((cfgM m hO).win 8).index t a * main_arg5.ty.shape.size a) = fun _ => 0 := funext fun a => by fin_cases a <;> rfl
  exact Memref.read_access_unit_zero (Elt F) main_arg5 hz' (fun a => by rw [congrFun hz' a]; simp) (V m c main_arg5)
theorem resident9 (hO : Ok m) (c : Dev nD) (t : Fin (cfgM m hO).N) : (iblk m hO c 9 t : Vec F S512 .f32) = V m c main_arg6 := by
  have hz' : (fun a => ((cfgM m hO).win 9).index t a * main_arg6.ty.shape.size a) = fun _ => 0 := funext fun a => by fin_cases a <;> rfl
  exact Memref.read_access_unit_zero (Elt F) main_arg6 hz' (fun a => by rw [congrFun hz' a]; simp) (V m c main_arg6)
theorem resident10 (hO : Ok m) (c : Dev nD) (t : Fin (cfgM m hO).N) : (iblk m hO c 10 t : Vec F S512 .f32) = V m c main_arg7 := by
  have hz' : (fun a => ((cfgM m hO).win 10).index t a * main_arg7.ty.shape.size a) = fun _ => 0 := funext fun a => by fin_cases a <;> rfl
  exact Memref.read_access_unit_zero (Elt F) main_arg7 hz' (fun a => by rw [congrFun hz' a]; simp) (V m c main_arg7)
theorem resident11 (hO : Ok m) (c : Dev nD) (t : Fin (cfgM m hO).N) : (iblk m hO c 11 t : Vec F S512x512 .f32) = V m c main_arg8 := by
  have hz' : (fun a => ((cfgM m hO).win 11).index t a * main_arg8.ty.shape.size a) = fun _ => 0 := funext fun a => by fin_cases a <;> rfl
  exact Memref.read_access_unit_zero (Elt F) main_arg8 hz' (fun a => by rw [congrFun hz' a]; simp) (V m c main_arg8)
theorem resident12 (hO : Ok m) (c : Dev nD) (t : Fin (cfgM m hO).N) : (iblk m hO c 12 t : Vec F S512 .f32) = V m c main_arg9 := by
  have hz' : (fun a => ((cfgM m hO).win 12).index t a * main_arg9.ty.shape.size a) = fun _ => 0 := funext fun a => by fin_cases a <;> rfl
  exact Memref.read_access_unit_zero (Elt F) main_arg9 hz' (fun a => by rw [congrFun hz' a]; simp) (V m c main_arg9)
theorem resident13 (hO : Ok m) (c : Dev nD) (t : Fin (cfgM m hO).N) : (iblk m hO c 13 t : Vec F S128x512 .f32) = V m c main_v2 := by
  have hz' : (fun a => ((cfgM m hO).win 13).index t a * main_v2.ty.shape.size a) = fun _ => 0 := funext fun a => by fin_cases a <;> rfl
  exact Memref.read_access_unit_zero (Elt F) main_v2 hz' (fun a => by rw [congrFun hz' a]; simp) (V m c main_v2)
theorem resident14 (hO : Ok m) (c : Dev nD) (t : Fin (cfgM m hO).N) : (iblk m hO c 14 t : Vec F S4x512 .f32) = V m c main_v3 := by
  have hz' : (fun a => ((cfgM m hO).win 14).index t a * main_v3.ty.shape.size a) = fun _ => 0 := funext fun a => by fin_cases a <;> rfl
  exact Memref.read_access_unit_zero (Elt F) main_v3 hz' (fun a => by rw [congrFun hz' a]; simp) (V m c main_v3)
theorem resident15 (hO : Ok m) (c : Dev nD) (t : Fin (cfgM m hO).N) : (iblk m hO c 15 t : Vec F S512x512 .f32) = V m c main_v4 := by
  have hz' : (fun a => ((cfgM m hO).win 15).index t a * main_v4.ty.shape.size a) = fun _ => 0 := funext fun a => by fin_cases a <;> rfl
  exact Memref.read_access_unit_zero (Elt F) main_v4 hz' (fun a => by rw [congrFun hz' a]; simp) (V m c main_v4)
theorem resident16 (hO : Ok m) (c : Dev nD) (t : Fin (cfgM m hO).N) : (iblk m hO c 16 t : Vec F S512 .f32) = V m c main_arg11 := by
  have hz' : (fun a => ((cfgM m hO).win 16).index t a * main_arg11.ty.shape.size a) = fun _ => 0 := funext fun a => by fin_cases a <;> rfl
  exact Memref.read_access_unit_zero (Elt F) main_arg11 hz' (fun a => by rw [congrFun hz' a]; simp) (V m c main_arg11)
theorem resident17 (hO : Ok m) (c : Dev nD) (t : Fin (cfgM m hO).N) : (iblk m hO c 17 t : Vec F S512x512 .f32) = V m c main_arg12 := by
  have hz' : (fun a => ((cfgM m hO).win 17).index t a * main_arg12.ty.shape.size a) = fun _ => 0 := funext fun a => by fin_cases a <;> rfl
  exact Memref.read_access_unit_zero (Elt F) main_arg12 hz' (fun a => by rw [congrFun hz' a]; simp) (V m c main_arg12)
theorem resident18 (hO : Ok m) (c : Dev nD) (t : Fin (cfgM m hO).N) : (iblk m hO c 18 t : Vec F S512 .f32) = V m c main_arg13 := by
  have hz' : (fun a => ((cfgM m hO).win 18).index t a * main_arg13.ty.shape.size a) = fun _ => 0 := funext fun a => by fin_cases a <;> rfl
  exact Memref.read_access_unit_zero (Elt F) main_arg13 hz' (fun a => by rw [congrFun hz' a]; simp) (V m c main_arg13)
theorem resident19 (hO : Ok m) (c : Dev nD) (t : Fin (cfgM m hO).N) : (iblk m hO c 19 t : Vec F S512 .f32) = V m c main_arg14 := by
  have hz' : (fun a => ((cfgM m hO).win 19).index t a * main_arg14.ty.shape.size a) = fun _ => 0 := funext fun a => by fin_cases a <;> rfl
  exact Memref.read_access_unit_zero (Elt F) main_arg14 hz' (fun a => by rw [congrFun hz' a]; simp) (V m c main_arg14)
theorem resident20 (hO : Ok m) (c : Dev nD) (t : Fin (cfgM m hO).N) : (iblk m hO c 20 t : Vec F S512 .f32) = V m c main_arg15 := by
  have hz' : (fun a => ((cfgM m hO).win 20).index t a * main_arg15.ty.shape.size a) = fun _ => 0 := funext fun a => by fin_cases a <;> rfl
  exact Memref.read_access_unit_zero (Elt F) main_arg15 hz' (fun a => by rw [congrFun hz' a]; simp) (V m c main_arg15)
theorem resident21 (hO : Ok m) (c : Dev nD) (t : Fin (cfgM m hO).N) : (iblk m hO c 21 t : Vec F S512x128 .f32) = V m c main_arg16 := by
  have hz' : (fun a => ((cfgM m hO).win 21).index t a * main_arg16.ty.shape.size a) = fun _ => 0 := funext fun a => by fin_cases a <;> rfl
  exact Memref.read_access_unit_zero (Elt F) main_arg16 hz' (fun a => by rw [congrFun hz' a]; simp) (V m c main_arg16)
theorem resident22 (hO : Ok m) (c : Dev nD) (t : Fin (cfgM m hO).N) : (iblk m hO c 22 t : Vec F S128 .f32) = V m c main_arg17 := by
  have hz' : (fun a => ((cfgM m hO).win 22).index t a * main_arg17.ty.shape.size a) = fun _ => 0 := funext fun a => by fin_cases a <;> rfl
  exact Memref.read_access_unit_zero (Elt F) main_arg17 hz' (fun a => by rw [congrFun hz' a]; simp) (V m c main_arg17)

/-- The result array: at index (b, o, f) the block function of row `b` of the states, the resident arrays whole, and
    the action table's entry `b`, read at (0, o, f). -/
def kout (c : Dev nD) : S512x16x128.Idx → Elt F .f32 := fun i =>
  kblock (fun y => (V m c main_arg0 : Vec F S512x16x128 .f32) (ix3 (i 0 : Fin 512) (y 1 : Fin 16) (y 2 : Fin 128)))
    (V m c main_cst) (V m c main_cst_0) (V m c main_cst_1) (V m c main_v0) (V m c main_v1) (V m c main_arg3) (V m c main_arg4) (V m c main_arg5) (V m c main_arg6) (V m c main_arg7) (V m c main_arg8) (V m c main_arg9) (V m c main_v2) (V m c main_v3) (V m c main_v4) (V m c main_arg11) (V m c main_arg12) (V m c main_arg13) (V m c main_arg14) (V m c main_arg15) (V m c main_arg16) (V m c main_arg17)
    ((V m c main_arg1 : S512.Idx → Elt F .i32) (ix1 (i 0 : Fin 512))) (ix3 (0 : Fin 1) (i 1 : Fin 16) (i 2 : Fin 128))

/-- The result array at an index given by its coordinates. -/
theorem kout_at (c : Dev nD) (k : S512x16x128.Idx) (r : Fin 512) (p : Fin 16) (q : Fin 128) (hk : k = ix3 r p q) :
    kout m c k = kblock (fun y => (V m c main_arg0 : Vec F S512x16x128 .f32) (ix3 r (y 1 : Fin 16) (y 2 : Fin 128)))
      (V m c main_cst) (V m c main_cst_0) (V m c main_cst_1) (V m c main_v0) (V m c main_v1) (V m c main_arg3) (V m c main_arg4) (V m c main_arg5) (V m c main_arg6) (V m c main_arg7) (V m c main_arg8) (V m c main_arg9) (V m c main_v2) (V m c main_v3) (V m c main_v4) (V m c main_arg11) (V m c main_arg12) (V m c main_arg13) (V m c main_arg14) (V m c main_arg15) (V m c main_arg16) (V m c main_arg17)
      ((V m c main_arg1 : S512.Idx → Elt F .i32) (ix1 r)) (ix3 (0 : Fin 1) p q) := by
  subst hk; rfl

/-- The states' block at point `t`, as a function of the block's index. -/
theorem states_row (hO : Ok m) (c : Dev nD) (t : Fin (cfgM m hO).N) :
    @Eq (Vec F S1x16x128 .f32) (iblk m hO c 0 t)
      (fun y => (V m c main_arg0 : Vec F S512x16x128 .f32) (ix3 (⟨t.val, point_lt m hO t⟩ : Fin 512) (y 1 : Fin 16) (y 2 : Fin 128))) :=
  funext fun y => states_row_apply m hO c t y _ rfl rfl rfl

/-- The word the body reads at point `t` is the action table's entry `t`. -/
theorem tableWord_at (hO : Ok m) (c : Dev nD) (t : Fin (cfgM m hO).N) :
    tableWord c (grid0.coords t) (tbl m 0) = (V m c main_arg1 : S512.Idx → Elt F .i32) (ix1 (⟨t.val, point_lt m hO t⟩ : Fin 512)) := by
  obtain ⟨g0, -⟩ := block_index (adm m hO) t
  obtain rfl : c = 0 := Subsingleton.elim _ _
  refine (tableWord_eq 0 (grid0.coords t) (tbl m 0)).trans ?_
  show (V m (0 : Dev nD) main_arg1 : S512.Idx → Elt F .i32) _ = _
  congr 1
  funext a
  match a with
  | ⟨0, _⟩ => exact Fin.ext g0

/-- What point `t` writes back is block `t` of the result array. -/
theorem flushed_eq (hO : Ok m) (c : Dev nD) (t : Fin (cfgM m hO).N) :
    (dats m hO 0 c).flushed 23 t = (((cfgM m hO).win 23).blk t).view.read (Elt F) (kout m c) := by
  show ((cfgM m hO).win 23).cut ((cfgM m hO).grid.coords t) ((dats m hO 0 c).after 23 t) = _
  rw [after0_23]
  unfold outsAt0
  rw [body_block c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (tbl m 0)]
  rw [states_row m hO c t, resident1 m hO c t, resident2 m hO c t, resident3 m hO c t, resident4 m hO c t, resident5 m hO c t, resident6 m hO c t, resident7 m hO c t, resident8 m hO c t, resident9 m hO c t, resident10 m hO c t, resident11 m hO c t, resident12 m hO c t, resident13 m hO c t, resident14 m hO c t, resident15 m hO c t, resident16 m hO c t, resident17 m hO c t, resident18 m hO c t, resident19 m hO c t, resident20 m hO c t, resident21 m hO c t, resident22 m hO c t, tableWord_at m hO c t]
  obtain ⟨-, -, -, -, e0, e1, e2⟩ := block_index (adm m hO) t
  refine funext fun (j : S1x16x128.Idx) => ?_
  have h0 : (j 0).val < 1 := (j 0).isLt
  have h1 : (j 1).val < 16 := (j 1).isLt
  have h2 : (j 2).val < 128 := (j 2).isLt
  have hk : @Eq S512x16x128.Idx ((((cfgM m hO).win 23).blk t).view.emb j) (ix3 (⟨t.val, point_lt m hO t⟩ : Fin 512) (⟨(j 1).val, h1⟩ : Fin 16) (⟨(j 2).val, h2⟩ : Fin 128)) := by
    funext a
    apply Fin.ext
    match a with
    | ⟨0, _⟩ => show ((cfgM m hO).win 23).index t (0 : Fin 3) * 1 + 1 * (j 0).val = t.val; rw [e0]; omega
    | ⟨1, _⟩ => show ((cfgM m hO).win 23).index t (1 : Fin 3) * 16 + 1 * (j 1).val = (j 1).val; rw [e1]; omega
    | ⟨2, _⟩ => show ((cfgM m hO).win 23).index t (2 : Fin 3) * 128 + 1 * (j 2).val = (j 2).val; rw [e2]; omega
  have hx : @Eq S1x16x128.Idx (((cfgM m hO).win 23).xinj ((cfgM m hO).grid.coords t) j) (ix3 (0 : Fin 1) (⟨(j 1).val, h1⟩ : Fin 16) (⟨(j 2).val, h2⟩ : Fin 128)) := by
    funext a
    apply Fin.ext
    match a with
    | ⟨0, _⟩ => show (j 0).val = 0; omega
    | ⟨1, _⟩ => rfl
    | ⟨2, _⟩ => rfl
  show kblock _ (V m c main_cst) (V m c main_cst_0) (V m c main_cst_1) (V m c main_v0) (V m c main_v1) (V m c main_arg3) (V m c main_arg4) (V m c main_arg5) (V m c main_arg6) (V m c main_arg7) (V m c main_arg8) (V m c main_arg9) (V m c main_v2) (V m c main_v3) (V m c main_v4) (V m c main_arg11) (V m c main_arg12) (V m c main_arg13) (V m c main_arg14) (V m c main_arg15) (V m c main_arg16) (V m c main_arg17) _ (((cfgM m hO).win 23).xinj ((cfgM m hO).grid.coords t) j) = kout m c ((((cfgM m hO).win 23).blk t).view.emb j)
  rw [hx, kout_at m c _ _ _ _ hk]

/-- Every index of the result array lies in the block of the point its first coordinate names, so the array ends
    holding the result function. -/
theorem final (hO : Ok m) (c : Dev nD) : (dats m hO 0 c).arrAt 23 (cfgM m hO).N = kout m c :=
  (dats m hO 0 c).arrAt_eq_of_cover 23 (kout m c) (fun t _ => flushed_eq m hO c t) fun (i : S512x16x128.Idx) => by
    have hi0 : (i 0 : Nat) < 512 := (i 0).isLt
    have hi1 : (i 1 : Nat) < 16 := (i 1).isLt
    have hi2 : (i 2 : Nat) < 128 := (i 2).isLt
    refine ⟨⟨(i 0 : Nat), lt_of_lt_of_eq hi0 N_0.symm⟩, flush0_23 (adm m hO) _, ?_⟩
    obtain ⟨-, -, -, -, e0, e1, e2⟩ := block_index (adm m hO) ⟨(i 0 : Nat), lt_of_lt_of_eq hi0 N_0.symm⟩
    show i ∈ ((View.whole main_v5).slice (((cfgM m hO).win 23).rect ⟨(i 0 : Nat), lt_of_lt_of_eq hi0 N_0.symm⟩)).set
    refine (Finset.ext_iff.mp (View.set_slice_whole main_v5 (((cfgM m hO).win 23).rect ⟨(i 0 : Nat), lt_of_lt_of_eq hi0 N_0.symm⟩)) i).mpr ?_
    refine Rect.mem_set_unit.mpr fun a => ?_
    match a with
    | ⟨0, _⟩ =>
      show ((cfgM m hO).win 23).index ⟨(i 0 : Nat), lt_of_lt_of_eq hi0 N_0.symm⟩ (0 : Fin 3) * 1 ≤ (i 0 : Nat) ∧ (i 0 : Nat) < ((cfgM m hO).win 23).index ⟨(i 0 : Nat), lt_of_lt_of_eq hi0 N_0.symm⟩ (0 : Fin 3) * 1 + 1
      rw [e0]; dsimp only; omega
    | ⟨1, _⟩ =>
      show ((cfgM m hO).win 23).index ⟨(i 0 : Nat), lt_of_lt_of_eq hi0 N_0.symm⟩ (1 : Fin 3) * 16 ≤ (i 1 : Nat) ∧ (i 1 : Nat) < ((cfgM m hO).win 23).index ⟨(i 0 : Nat), lt_of_lt_of_eq hi0 N_0.symm⟩ (1 : Fin 3) * 16 + 16
      rw [e1]; omega
    | ⟨2, _⟩ =>
      show ((cfgM m hO).win 23).index ⟨(i 0 : Nat), lt_of_lt_of_eq hi0 N_0.symm⟩ (2 : Fin 3) * 128 ≤ (i 2 : Nat) ∧ (i 2 : Nat) < ((cfgM m hO).win 23).index ⟨(i 0 : Nat), lt_of_lt_of_eq hi0 N_0.symm⟩ (2 : Fin 3) * 128 + 128
      rw [e2]; omega

/-- The tables' side condition holds of every contents: no index map reads a table. -/
theorem tables_ok : Ok m := trivial

set_option maxHeartbeats 1440000 in
/-- The run, read: the result array at the result function, every argument as launched. -/
theorem run : θ_run defs (onTc (τ := τ) (main (F := F))) ⟨m, fun _ => 0, ρ⟩ (fun r => ∀ c : Dev nD,
      r.2.mem ((c.tc : Thread nD τ).loc main_v5) = kout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  have hO : Ok m := tables_ok m
  (θ_run defs _ _).mono (fun _ h c => ⟨((h c).1 23).trans (final m hO c),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 6).trans (((dats m hO 0 c).arrAt_in 6 rfl _).trans ((A_eq m hO c 6).trans (V_main_arg3 m c))),
      ((h c).1 7).trans (((dats m hO 0 c).arrAt_in 7 rfl _).trans ((A_eq m hO c 7).trans (V_main_arg4 m c))),
      ((h c).1 8).trans (((dats m hO 0 c).arrAt_in 8 rfl _).trans ((A_eq m hO c 8).trans (V_main_arg5 m c))),
      ((h c).1 9).trans (((dats m hO 0 c).arrAt_in 9 rfl _).trans ((A_eq m hO c 9).trans (V_main_arg6 m c))),
      ((h c).1 10).trans (((dats m hO 0 c).arrAt_in 10 rfl _).trans ((A_eq m hO c 10).trans (V_main_arg7 m c))),
      ((h c).1 11).trans (((dats m hO 0 c).arrAt_in 11 rfl _).trans ((A_eq m hO c 11).trans (V_main_arg8 m c))),
      ((h c).1 12).trans (((dats m hO 0 c).arrAt_in 12 rfl _).trans ((A_eq m hO c 12).trans (V_main_arg9 m c))),
      ((h c).2 main_arg10 (by decide : main_arg10 ∈ Pipeline.restRefs sig spec0)).trans (V_main_arg10 m c),
      ((h c).1 16).trans (((dats m hO 0 c).arrAt_in 16 rfl _).trans ((A_eq m hO c 16).trans (V_main_arg11 m c))),
      ((h c).1 17).trans (((dats m hO 0 c).arrAt_in 17 rfl _).trans ((A_eq m hO c 17).trans (V_main_arg12 m c))),
      ((h c).1 18).trans (((dats m hO 0 c).arrAt_in 18 rfl _).trans ((A_eq m hO c 18).trans (V_main_arg13 m c))),
      ((h c).1 19).trans (((dats m hO 0 c).arrAt_in 19 rfl _).trans ((A_eq m hO c 19).trans (V_main_arg14 m c))),
      ((h c).1 20).trans (((dats m hO 0 c).arrAt_in 20 rfl _).trans ((A_eq m hO c 20).trans (V_main_arg15 m c))),
      ((h c).1 21).trans (((dats m hO 0 c).arrAt_in 21 rfl _).trans ((A_eq m hO c 21).trans (V_main_arg16 m c))),
      ((h c).1 22).trans (((dats m hO 0 c).arrAt_in 22 rfl _).trans ((A_eq m hO c 22).trans (V_main_arg17 m c)))⟩) (run_main m ρ hO)

end Cert.KerRun
end
-- ==== Proof.KerConsts.lean ====
/-
  What the region finds in the arrays the host operations wrote before it: three dense 0/1 matrices and five row
  blocks of two weight matrices. With edge e = 15·i + k of a graph going from node i to node k (k + 1 from k = i on):
  the first matrix [240,16] has a one at (e, o) exactly when o is e's source node, the second [240,16] exactly when
  o is e's target node, the third [16,240] is the first one's transpose. The blocks are rows 0–127 and 128–255 of the
  edge perceptron's first weight matrix [256,512], and rows 0–127, 128–131 and 132–643 of the node perceptron's
  first weight matrix [644,512].
-/
import proofs.«421245_j18330920419718_1_alg».proof.Proof.Gen.KernelIdeal.Frame.Runs
import proofs.«421245_j18330920419718_1_alg».proof.Proof.Spec
import Idealize.ShloMosaic.Lib.Pipeline.Value
import Idealize.ShloMosaic.Lib.StableHlo.Run
import Idealize.ShloMosaic.Lib.ValueIdx
import Idealize.ShloMosaic.PureOps.Ideal.Laws

set_option maxRecDepth 16384

noncomputable section

namespace Cert.KerConsts

open Cert.KernelIdeal Cert.KernelIdeal.Gen Cert.GnnSpec Idealize.ShloMosaic Idealize.ShloMosaic.TcCoe Idealize.SL.Sem Idealize.ShloMosaic.ValueIdx

/-! ## The three tables in closed form

Each table lists a matrix row-major, so position n of a [240,16] table is row n / 16, column n % 16, and position n of
the [16,240] table is row n / 240, column n % 240. Every one of the 3840 words of each table is compared with the
closed form. -/

/-- The first table: the pattern of one where the column is the row's source node (row / 15), of zero elsewhere. -/
theorem lit0_eq : ∀ n : Fin 3840, lit0 n = if n.val % 16 = n.val / 16 / 15 then 0x3F800000#32 else 0x00000000#32 := by
  decide +kernel

/-- The second table: the pattern of one where the column is the row's target node (row % 15, one more from the
    source node on), of zero elsewhere. -/
theorem lit1_eq : ∀ n : Fin 3840, lit1 n =
    if n.val % 16 = n.val / 16 % 15 + (if n.val / 16 / 15 ≤ n.val / 16 % 15 then 1 else 0) then 0x3F800000#32
    else 0x00000000#32 := by
  decide +kernel

/-- The third table: the pattern of one where the row is the column's source node (column / 15), of zero elsewhere. -/
theorem lit2_eq : ∀ n : Fin 3840, lit2 n = if n.val % 240 / 15 = n.val / 240 then 0x3F800000#32 else 0x00000000#32 := by
  decide +kernel

/-! ## The two words as extended reals -/

/-- 0x3F800000 has sign 0, exponent field 127 (the bias) and fraction 0: it denotes 2²³ · 2⁻²³ = 1. -/
theorem ofBits_one_f32 : Ideal.ofBits .f32 0x3F800000#32 = 1 := by
  simp [Ideal.ofBits, Ideal.ieee]
  rw [← EReal.coe_mul, ← EReal.coe_one]
  congr 1
  norm_num

/-- A word that is the pattern of one under a condition and of zero otherwise denotes the condition's indicator. -/
theorem ofBits_ite (p : Prop) [Decidable p] :
    Ideal.ofBits .f32 (if p then 0x3F800000#32 else 0x00000000#32) = (if p then 1 else 0 : EReal) := by
  by_cases hp : p
  · rw [if_pos hp, if_pos hp, ofBits_one_f32]
  · rw [if_neg hp, if_neg hp, Ideal.ofBits_zero_f32]

variable (m : (ℓ : Loc nD τ sig) → Buf (Elt Ideal) ℓ) (c : Dev nD)

/-! ## The constants read at an entry

A constant's array holds at index i the table's word at i's row-major position; at (e, o) of a [240,16] array that
position is 16·e + o, whose quotient by 16 is e and whose remainder is o; at (o, e) of the [16,240] array it is
240·o + e, whose quotient by 240 is o and whose remainder is e. -/

/-- The first constant: one at (e, o) exactly when o is the source node of edge e. -/
theorem V_cst (e : Fin 240) (o : Fin 16) :
    (V (F := Ideal) m c main_cst : S240x16.Idx → EReal) (ix2 e o) = (if o = rowL e then 1 else 0 : EReal) := by
  have e0 : (V (F := Ideal) m c main_cst : S240x16.Idx → EReal)
      = fun i => Ideal.ofBits .f32 (lit0 (S240x16.rowMajor i)) := by
    dsimp only [Gen.V, Gen.hostOps0]; after_results; rfl
  rw [e0]
  show Ideal.ofBits .f32 (lit0 (S240x16.rowMajor (ix2 e o))) = _
  have hw := lit0_eq (S240x16.rowMajor (ix2 e o))
  have hv : ((S240x16.rowMajor (ix2 e o) : Fin 3840)).val = e.val * 16 + o.val :=
    Shape.rowMajor_val_two (d := ![240, 16]) (ix2 e o)
  have ho := o.isLt
  have hd : (e.val * 16 + o.val) / 16 = e.val := by omega
  have hm : (e.val * 16 + o.val) % 16 = o.val := by omega
  rw [hv, hm, hd] at hw
  rw [hw, ofBits_ite]
  exact if_congr (Fin.ext_iff (a := o) (b := rowL e)).symm rfl rfl

/-- The second constant: one at (e, o) exactly when o is the target node of edge e. -/
theorem V_cst_0 (e : Fin 240) (o : Fin 16) :
    (V (F := Ideal) m c main_cst_0 : S240x16.Idx → EReal) (ix2 e o) = (if o = colL e then 1 else 0 : EReal) := by
  have e0 : (V (F := Ideal) m c main_cst_0 : S240x16.Idx → EReal)
      = fun i => Ideal.ofBits .f32 (lit1 (S240x16.rowMajor i)) := by
    dsimp only [Gen.V, Gen.hostOps0]; after_results; rfl
  rw [e0]
  show Ideal.ofBits .f32 (lit1 (S240x16.rowMajor (ix2 e o))) = _
  have hw := lit1_eq (S240x16.rowMajor (ix2 e o))
  have hv : ((S240x16.rowMajor (ix2 e o) : Fin 3840)).val = e.val * 16 + o.val :=
    Shape.rowMajor_val_two (d := ![240, 16]) (ix2 e o)
  have ho := o.isLt
  have hd : (e.val * 16 + o.val) / 16 = e.val := by omega
  have hm : (e.val * 16 + o.val) % 16 = o.val := by omega
  rw [hv, hm, hd] at hw
  rw [hw, ofBits_ite]
  exact if_congr (Fin.ext_iff (a := o) (b := colL e)).symm rfl rfl

/-- The third constant: one at (o, e) exactly when o is the source node of edge e. -/
theorem V_cst_1 (o : Fin 16) (e : Fin 240) :
    (V (F := Ideal) m c main_cst_1 : S16x240.Idx → EReal) (ix2 o e) = (if rowL e = o then 1 else 0 : EReal) := by
  have e0 : (V (F := Ideal) m c main_cst_1 : S16x240.Idx → EReal)
      = fun i => Ideal.ofBits .f32 (lit2 (S16x240.rowMajor i)) := by
    dsimp only [Gen.V, Gen.hostOps0]; after_results; rfl
  rw [e0]
  show Ideal.ofBits .f32 (lit2 (S16x240.rowMajor (ix2 o e))) = _
  have hw := lit2_eq (S16x240.rowMajor (ix2 o e))
  have hv : ((S16x240.rowMajor (ix2 o e) : Fin 3840)).val = o.val * 240 + e.val :=
    Shape.rowMajor_val_two (d := ![16, 240]) (ix2 o e)
  have he := e.isLt
  have hd : (o.val * 240 + e.val) / 240 = o.val := by omega
  have hm : (o.val * 240 + e.val) % 240 = e.val := by omega
  rw [hv, hm, hd] at hw
  rw [hw, ofBits_ite]
  exact if_congr (Fin.ext_iff (a := rowL e) (b := o)).symm rfl rfl

/-! ## The row blocks read at an entry

A block of rows starting at row r holds at (k, h) the matrix's entry (r + k, h). -/

/-- Rows 0–127 of the edge perceptron's first weight matrix: the part that multiplies the source node's features. -/
theorem V_v0 (k : Fin 128) (h : Fin 512) :
    (V (F := Ideal) m c main_v0 : S128x512.Idx → EReal) (ix2 k h)
      = m ((c : Thread nD τ).loc main_arg2) (ix2 (⟨k.val, by have := k.isLt; omega⟩ : Fin 256) h) := by
  have e : (V (F := Ideal) m c main_v0 : S128x512.Idx → EReal)
      = extractStridedSlice S128x512 ![0, 0] (m ((c : Thread nD τ).loc main_arg2) : S256x512.Idx → EReal)
          slices_S256x512_S128x512_0_0 := by
    dsimp only [Gen.V, Gen.hostOps0]; after_results
  rw [e]
  refine extractStridedSlice_apply _ _ _ _ _ (fun a => ?_)
  match a with
  | ⟨0, _⟩ => show k.val = 0 + k.val; omega
  | ⟨1, _⟩ => show h.val = 0 + h.val; omega

/-- Rows 128–255 of the edge perceptron's first weight matrix: the part that multiplies the target node's features. -/
theorem V_v1 (k : Fin 128) (h : Fin 512) :
    (V (F := Ideal) m c main_v1 : S128x512.Idx → EReal) (ix2 k h)
      = m ((c : Thread nD τ).loc main_arg2) (ix2 (⟨128 + k.val, by have := k.isLt; omega⟩ : Fin 256) h) := by
  have e : (V (F := Ideal) m c main_v1 : S128x512.Idx → EReal)
      = extractStridedSlice S128x512 ![128, 0] (m ((c : Thread nD τ).loc main_arg2) : S256x512.Idx → EReal)
          slices_S256x512_S128x512_128_0 := by
    dsimp only [Gen.V, Gen.hostOps0]; after_results
  rw [e]
  refine extractStridedSlice_apply _ _ _ _ _ (fun a => ?_)
  match a with
  | ⟨0, _⟩ => show 128 + k.val = 128 + k.val; rfl
  | ⟨1, _⟩ => show h.val = 0 + h.val; omega

/-- Rows 0–127 of the node perceptron's first weight matrix: the part that multiplies the node's features. -/
theorem V_v2 (k : Fin 128) (h : Fin 512) :
    (V (F := Ideal) m c main_v2 : S128x512.Idx → EReal) (ix2 k h)
      = m ((c : Thread nD τ).loc main_arg10) (ix2 (⟨k.val, by have := k.isLt; omega⟩ : Fin 644) h) := by
  have e : (V (F := Ideal) m c main_v2 : S128x512.Idx → EReal)
      = extractStridedSlice S128x512 ![0, 0] (m ((c : Thread nD τ).loc main_arg10) : S644x512.Idx → EReal)
          slices_S644x512_S128x512_0_0 := by
    dsimp only [Gen.V, Gen.hostOps0]; after_results
  rw [e]
  refine extractStridedSlice_apply _ _ _ _ _ (fun a => ?_)
  match a with
  | ⟨0, _⟩ => show k.val = 0 + k.val; omega
  | ⟨1, _⟩ => show h.val = 0 + h.val; omega

/-- Rows 128–131 of the node perceptron's first weight matrix: the part that multiplies the action's one-hot slice. -/
theorem V_v3 (j : Fin 4) (h : Fin 512) :
    (V (F := Ideal) m c main_v3 : S4x512.Idx → EReal) (ix2 j h)
      = m ((c : Thread nD τ).loc main_arg10) (ix2 (⟨128 + j.val, by have := j.isLt; omega⟩ : Fin 644) h) := by
  have e : (V (F := Ideal) m c main_v3 : S4x512.Idx → EReal)
      = extractStridedSlice S4x512 ![128, 0] (m ((c : Thread nD τ).loc main_arg10) : S644x512.Idx → EReal)
          slices_S644x512_S4x512_128_0 := by
    dsimp only [Gen.V, Gen.hostOps0]; after_results
  rw [e]
  refine extractStridedSlice_apply _ _ _ _ _ (fun a => ?_)
  match a with
  | ⟨0, _⟩ => show 128 + j.val = 128 + j.val; rfl
  | ⟨1, _⟩ => show h.val = 0 + h.val; omega

/-- Rows 132–643 of the node perceptron's first weight matrix: the part that multiplies the summed edge results. -/
theorem V_v4 (j : Fin 512) (h : Fin 512) :
    (V (F := Ideal) m c main_v4 : S512x512.Idx → EReal) (ix2 j h)
      = m ((c : Thread nD τ).loc main_arg10) (ix2 (⟨132 + j.val, by have := j.isLt; omega⟩ : Fin 644) h) := by
  have e : (V (F := Ideal) m c main_v4 : S512x512.Idx → EReal)
      = extractStridedSlice S512x512 ![132, 0] (m ((c : Thread nD τ).loc main_arg10) : S644x512.Idx → EReal)
          slices_S644x512_S512x512_132_0 := by
    dsimp only [Gen.V, Gen.hostOps0]; after_results
  rw [e]
  refine extractStridedSlice_apply _ _ _ _ _ (fun a => ?_)
  match a with
  | ⟨0, _⟩ => show 132 + j.val = 132 + j.val; rfl
  | ⟨1, _⟩ => show h.val = 0 + h.val; omega

end Cert.KerConsts

end
-- ==== Proof.KerEdge.lean ====
/-
  The edge part of the per-graph network, on the tiled side: the block of second-layer rows, one per ordered pair
  e = (i, j) of a graph's nodes, and from it the per-node sums of the edge results.

  A 0/1 matrix with its one at column `a e` of row e, times the node block, is the node block's row `a e`; two such
  products give the source and target features of every edge. Their products with the two 128-row halves of the first
  weight block add up to the 256-term affine layer on the joined row. Then relu, the second affine layer, the layer
  norm of each row (mean and variance as row sums over the literal 512), relu, the third affine layer; and the 0/1
  matrix with row o marking the edges that leave node o, times the block of edge results, is the sum of the edge
  results over those edges. Only laws valid on all extended reals are used: 0 · x = 0, 1 · x = x, and regrouping of
  finite sums.
-/
import proofs.«421245_j18330920419718_1_alg».proof.Proof.Gen.KernelIdeal.Skeleton
import proofs.«421245_j18330920419718_1_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

set_option maxRecDepth 16384

noncomputable section

namespace Cert.KerEdge

open Cert.KernelIdeal Cert.KernelIdeal.Gen Cert.GnnSpec Idealize.ShloMosaic Idealize.ShloMosaic.ValueIdx

/-! ## Sums on the extended reals -/

/-- A 0/1 row with its one at `a` picks the term at `a`: every other term is `0 · f o = 0`. -/
theorem sum_sel {n : ℕ} (a : Fin n) (f : Fin n → EReal) :
    ∑ o : Fin n, (if o = a then (1 : EReal) else 0) * f o = f a := by
  rw [Finset.sum_eq_single a]
  · rw [if_pos rfl, one_mul]
  · intro b _ hb; rw [if_neg hb, zero_mul]
  · intro h; exact absurd (Finset.mem_univ a) h

/-- A sum over 256 terms is the sum of its first 128 plus the sum of its last 128. -/
theorem sum_split256 (f : Fin 256 → EReal) :
    ∑ k : Fin 256, f k
      = (∑ k : Fin 128, f ⟨k.val, by have := k.isLt; omega⟩) + ∑ k : Fin 128, f ⟨128 + k.val, by have := k.isLt; omega⟩ :=
  Fin.sum_univ_add (a := 128) (b := 128) f

/-! ## Layout operations at an index: the keepdims column -/

/-- An `[a]` array cast to `[a, 1]` reads, at `(p, u)`, the operand at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A matrix product into the zero block, at an index -/

/-! ### The contraction of `dot_S240x16_S16x128_S240x128_1_0_0_1_n_n` -/

theorem lhsA_0 (i : S240x128.Idx) (q : dot_S240x16_S16x128_S240x128_1_0_0_1_n_n.contr.Idx) :
    (dot_S240x16_S16x128_S240x128_1_0_0_1_n_n.lhsIdx i q 0).val = (i 0).val := by
  unfold DotDims.lhsIdx
  rw [dif_neg (show ¬(0 : Fin S240x16.rank) ∈ dot_S240x16_S16x128_S240x128_1_0_0_1_n_n.lhsBatch by decide), dif_pos (show (0 : Fin S240x16.rank) ∈ dot_S240x16_S16x128_S240x128_1_0_0_1_n_n.lhsNonContracting by decide)]
  rfl
theorem lhsA_1 (i : S240x128.Idx) (q : dot_S240x16_S16x128_S240x128_1_0_0_1_n_n.contr.Idx) :
    (dot_S240x16_S16x128_S240x128_1_0_0_1_n_n.lhsIdx i q 1).val = (q ⟨0, by decide⟩).val :=
  dot_S240x16_S16x128_S240x128_1_0_0_1_n_n.lhsIdx_val_of_single rfl i q
theorem rhsA_0 (i : S240x128.Idx) (q : dot_S240x16_S16x128_S240x128_1_0_0_1_n_n.contr.Idx) :
    (dot_S240x16_S16x128_S240x128_1_0_0_1_n_n.rhsIdx i q 0).val = (q ⟨0, by decide⟩).val :=
  dot_S240x16_S16x128_S240x128_1_0_0_1_n_n.rhsIdx_val_of_single rfl i q
theorem rhsA_1 (i : S240x128.Idx) (q : dot_S240x16_S16x128_S240x128_1_0_0_1_n_n.contr.Idx) :
    (dot_S240x16_S16x128_S240x128_1_0_0_1_n_n.rhsIdx i q 1).val = (i 1).val := by
  unfold DotDims.rhsIdx
  rw [dif_neg (show ¬(1 : Fin S16x128.rank) ∈ dot_S240x16_S16x128_S240x128_1_0_0_1_n_n.rhsBatch by decide), dif_pos (show (1 : Fin S16x128.rank) ∈ dot_S240x16_S16x128_S240x128_1_0_0_1_n_n.rhsNonContracting by decide)]
  rfl

/-- The matrix product into the zero block, at (p, q): the sum over the contracted axis of the row of the left
    factor times the column of the right one. -/
theorem matmulA_apply {φ₁ φ₂ : FTy} (l : FVec Ideal S240x16 φ₁) (r : FVec Ideal S16x128 φ₂) (p : Fin 240) (q : Fin 128) :
    matmul dot_S240x16_S16x128_S240x128_1_0_0_1_n_n none l r (constant (F := Ideal) S240x128 .f32 0x00000000#32) (ix2 p q)
      = ∑ k : Fin 16, l (ix2 p k) * r (ix2 k q) := by
  refine (Ideal.matmul_constant_zero_apply dot_S240x16_S16x128_S240x128_1_0_0_1_n_n none l r (ix2 p q)).trans ?_
  rw [← Equiv.sum_comp (contrEquiv1 dot_S240x16_S16x128_S240x128_1_0_0_1_n_n 16 rfl rfl).symm]
  refine Finset.sum_congr rfl fun k _ => ?_
  have hk := contrEquiv1_symm_val dot_S240x16_S16x128_S240x128_1_0_0_1_n_n 16 rfl rfl k
  have el : dot_S240x16_S16x128_S240x128_1_0_0_1_n_n.lhsIdx (ix2 p q) ((contrEquiv1 dot_S240x16_S16x128_S240x128_1_0_0_1_n_n 16 rfl rfl).symm k) = ix2 p k := funext fun a => Fin.ext (by
    match a with
    | ⟨0, _⟩ => exact lhsA_0 _ _
    | ⟨1, _⟩ => exact (lhsA_1 _ _).trans hk)
  have er : dot_S240x16_S16x128_S240x128_1_0_0_1_n_n.rhsIdx (ix2 p q) ((contrEquiv1 dot_S240x16_S16x128_S240x128_1_0_0_1_n_n 16 rfl rfl).symm k) = ix2 k q := funext fun a => Fin.ext (by
    match a with
    | ⟨0, _⟩ => exact (rhsA_0 _ _).trans hk
    | ⟨1, _⟩ => exact rhsA_1 _ _)
  rw [el, er]

/-! ### The contraction of `dot_S240x128_S128x512_S240x512_1_0_0_1_n_n` -/

theorem lhsB_0 (i : S240x512.Idx) (q : dot_S240x128_S128x512_S240x512_1_0_0_1_n_n.contr.Idx) :
    (dot_S240x128_S128x512_S240x512_1_0_0_1_n_n.lhsIdx i q 0).val = (i 0).val := by
  unfold DotDims.lhsIdx
  rw [dif_neg (show ¬(0 : Fin S240x128.rank) ∈ dot_S240x128_S128x512_S240x512_1_0_0_1_n_n.lhsBatch by decide), dif_pos (show (0 : Fin S240x128.rank) ∈ dot_S240x128_S128x512_S240x512_1_0_0_1_n_n.lhsNonContracting by decide)]
  rfl
theorem lhsB_1 (i : S240x512.Idx) (q : dot_S240x128_S128x512_S240x512_1_0_0_1_n_n.contr.Idx) :
    (dot_S240x128_S128x512_S240x512_1_0_0_1_n_n.lhsIdx i q 1).val = (q ⟨0, by decide⟩).val :=
  dot_S240x128_S128x512_S240x512_1_0_0_1_n_n.lhsIdx_val_of_single rfl i q
theorem rhsB_0 (i : S240x512.Idx) (q : dot_S240x128_S128x512_S240x512_1_0_0_1_n_n.contr.Idx) :
    (dot_S240x128_S128x512_S240x512_1_0_0_1_n_n.rhsIdx i q 0).val = (q ⟨0, by decide⟩).val :=
  dot_S240x128_S128x512_S240x512_1_0_0_1_n_n.rhsIdx_val_of_single rfl i q
theorem rhsB_1 (i : S240x512.Idx) (q : dot_S240x128_S128x512_S240x512_1_0_0_1_n_n.contr.Idx) :
    (dot_S240x128_S128x512_S240x512_1_0_0_1_n_n.rhsIdx i q 1).val = (i 1).val := by
  unfold DotDims.rhsIdx
  rw [dif_neg (show ¬(1 : Fin S128x512.rank) ∈ dot_S240x128_S128x512_S240x512_1_0_0_1_n_n.rhsBatch by decide), dif_pos (show (1 : Fin S128x512.rank) ∈ dot_S240x128_S128x512_S240x512_1_0_0_1_n_n.rhsNonContracting by decide)]
  rfl

/-- The matrix product into the zero block, at (p, q): the sum over the contracted axis of the row of the left
    factor times the column of the right one. -/
theorem matmulB_apply {φ₁ φ₂ : FTy} (l : FVec Ideal S240x128 φ₁) (r : FVec Ideal S128x512 φ₂) (p : Fin 240) (q : Fin 512) :
    matmul dot_S240x128_S128x512_S240x512_1_0_0_1_n_n none l r (constant (F := Ideal) S240x512 .f32 0x00000000#32) (ix2 p q)
      = ∑ k : Fin 128, l (ix2 p k) * r (ix2 k q) := by
  refine (Ideal.matmul_constant_zero_apply dot_S240x128_S128x512_S240x512_1_0_0_1_n_n none l r (ix2 p q)).trans ?_
  rw [← Equiv.sum_comp (contrEquiv1 dot_S240x128_S128x512_S240x512_1_0_0_1_n_n 128 rfl rfl).symm]
  refine Finset.sum_congr rfl fun k _ => ?_
  have hk := contrEquiv1_symm_val dot_S240x128_S128x512_S240x512_1_0_0_1_n_n 128 rfl rfl k
  have el : dot_S240x128_S128x512_S240x512_1_0_0_1_n_n.lhsIdx (ix2 p q) ((contrEquiv1 dot_S240x128_S128x512_S240x512_1_0_0_1_n_n 128 rfl rfl).symm k) = ix2 p k := funext fun a => Fin.ext (by
    match a with
    | ⟨0, _⟩ => exact lhsB_0 _ _
    | ⟨1, _⟩ => exact (lhsB_1 _ _).trans hk)
  have er : dot_S240x128_S128x512_S240x512_1_0_0_1_n_n.rhsIdx (ix2 p q) ((contrEquiv1 dot_S240x128_S128x512_S240x512_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-! ### The contraction of `dot_S240x512_S512x512_S240x512_1_0_0_1_n_n` -/

theorem lhsC_0 (i : S240x512.Idx) (q : dot_S240x512_S512x512_S240x512_1_0_0_1_n_n.contr.Idx) :
    (dot_S240x512_S512x512_S240x512_1_0_0_1_n_n.lhsIdx i q 0).val = (i 0).val := by
  unfold DotDims.lhsIdx
  rw [dif_neg (show ¬(0 : Fin S240x512.rank) ∈ dot_S240x512_S512x512_S240x512_1_0_0_1_n_n.lhsBatch by decide), dif_pos (show (0 : Fin S240x512.rank) ∈ dot_S240x512_S512x512_S240x512_1_0_0_1_n_n.lhsNonContracting by decide)]
  rfl
theorem lhsC_1 (i : S240x512.Idx) (q : dot_S240x512_S512x512_S240x512_1_0_0_1_n_n.contr.Idx) :
    (dot_S240x512_S512x512_S240x512_1_0_0_1_n_n.lhsIdx i q 1).val = (q ⟨0, by decide⟩).val :=
  dot_S240x512_S512x512_S240x512_1_0_0_1_n_n.lhsIdx_val_of_single rfl i q
theorem rhsC_0 (i : S240x512.Idx) (q : dot_S240x512_S512x512_S240x512_1_0_0_1_n_n.contr.Idx) :
    (dot_S240x512_S512x512_S240x512_1_0_0_1_n_n.rhsIdx i q 0).val = (q ⟨0, by decide⟩).val :=
  dot_S240x512_S512x512_S240x512_1_0_0_1_n_n.rhsIdx_val_of_single rfl i q
theorem rhsC_1 (i : S240x512.Idx) (q : dot_S240x512_S512x512_S240x512_1_0_0_1_n_n.contr.Idx) :
    (dot_S240x512_S512x512_S240x512_1_0_0_1_n_n.rhsIdx i q 1).val = (i 1).val := by
  unfold DotDims.rhsIdx
  rw [dif_neg (show ¬(1 : Fin S512x512.rank) ∈ dot_S240x512_S512x512_S240x512_1_0_0_1_n_n.rhsBatch by decide), dif_pos (show (1 : Fin S512x512.rank) ∈ dot_S240x512_S512x512_S240x512_1_0_0_1_n_n.rhsNonContracting by decide)]
  rfl

/-- The matrix product into the zero block, at (p, q): the sum over the contracted axis of the row of the left
    factor times the column of the right one. -/
theorem matmulC_apply {φ₁ φ₂ : FTy} (l : FVec Ideal S240x512 φ₁) (r : FVec Ideal S512x512 φ₂) (p : Fin 240) (q : Fin 512) :
    matmul dot_S240x512_S512x512_S240x512_1_0_0_1_n_n none l r (constant (F := Ideal) S240x512 .f32 0x00000000#32) (ix2 p q)
      = ∑ k : Fin 512, l (ix2 p k) * r (ix2 k q) := by
  refine (Ideal.matmul_constant_zero_apply dot_S240x512_S512x512_S240x512_1_0_0_1_n_n none l r (ix2 p q)).trans ?_
  rw [← Equiv.sum_comp (contrEquiv1 dot_S240x512_S512x512_S240x512_1_0_0_1_n_n 512 rfl rfl).symm]
  refine Finset.sum_congr rfl fun k _ => ?_
  have hk := contrEquiv1_symm_val dot_S240x512_S512x512_S240x512_1_0_0_1_n_n 512 rfl rfl k
  have el : dot_S240x512_S512x512_S240x512_1_0_0_1_n_n.lhsIdx (ix2 p q) ((contrEquiv1 dot_S240x512_S512x512_S240x512_1_0_0_1_n_n 512 rfl rfl).symm k) = ix2 p k := funext fun a => Fin.ext (by
    match a with
    | ⟨0, _⟩ => exact lhsC_0 _ _
    | ⟨1, _⟩ => exact (lhsC_1 _ _).trans hk)
  have er : dot_S240x512_S512x512_S240x512_1_0_0_1_n_n.rhsIdx (ix2 p q) ((contrEquiv1 dot_S240x512_S512x512_S240x512_1_0_0_1_n_n 512 rfl rfl).symm k) = ix2 k q := funext fun a => Fin.ext (by
    match a with
    | ⟨0, _⟩ => exact (rhsC_0 _ _).trans hk
    | ⟨1, _⟩ => exact rhsC_1 _ _)
  rw [el, er]

/-! ### The contraction of `dot_S16x240_S240x512_S16x512_1_0_0_1_n_n` -/

theorem lhsD_0 (i : S16x512.Idx) (q : dot_S16x240_S240x512_S16x512_1_0_0_1_n_n.contr.Idx) :
    (dot_S16x240_S240x512_S16x512_1_0_0_1_n_n.lhsIdx i q 0).val = (i 0).val := by
  unfold DotDims.lhsIdx
  rw [dif_neg (show ¬(0 : Fin S16x240.rank) ∈ dot_S16x240_S240x512_S16x512_1_0_0_1_n_n.lhsBatch by decide), dif_pos (show (0 : Fin S16x240.rank) ∈ dot_S16x240_S240x512_S16x512_1_0_0_1_n_n.lhsNonContracting by decide)]
  rfl
theorem lhsD_1 (i : S16x512.Idx) (q : dot_S16x240_S240x512_S16x512_1_0_0_1_n_n.contr.Idx) :
    (dot_S16x240_S240x512_S16x512_1_0_0_1_n_n.lhsIdx i q 1).val = (q ⟨0, by decide⟩).val :=
  dot_S16x240_S240x512_S16x512_1_0_0_1_n_n.lhsIdx_val_of_single rfl i q
theorem rhsD_0 (i : S16x512.Idx) (q : dot_S16x240_S240x512_S16x512_1_0_0_1_n_n.contr.Idx) :
    (dot_S16x240_S240x512_S16x512_1_0_0_1_n_n.rhsIdx i q 0).val = (q ⟨0, by decide⟩).val :=
  dot_S16x240_S240x512_S16x512_1_0_0_1_n_n.rhsIdx_val_of_single rfl i q
theorem rhsD_1 (i : S16x512.Idx) (q : dot_S16x240_S240x512_S16x512_1_0_0_1_n_n.contr.Idx) :
    (dot_S16x240_S240x512_S16x512_1_0_0_1_n_n.rhsIdx i q 1).val = (i 1).val := by
  unfold DotDims.rhsIdx
  rw [dif_neg (show ¬(1 : Fin S240x512.rank) ∈ dot_S16x240_S240x512_S16x512_1_0_0_1_n_n.rhsBatch by decide), dif_pos (show (1 : Fin S240x512.rank) ∈ dot_S16x240_S240x512_S16x512_1_0_0_1_n_n.rhsNonContracting by decide)]
  rfl

/-- The matrix product into the zero block, at (p, q): the sum over the contracted axis of the row of the left
    factor times the column of the right one. -/
theorem matmulD_apply {φ₁ φ₂ : FTy} (l : FVec Ideal S16x240 φ₁) (r : FVec Ideal S240x512 φ₂) (p : Fin 16) (q : Fin 512) :
    matmul dot_S16x240_S240x512_S16x512_1_0_0_1_n_n none l r (constant (F := Ideal) S16x512 .f32 0x00000000#32) (ix2 p q)
      = ∑ k : Fin 240, l (ix2 p k) * r (ix2 k q) := by
  refine (Ideal.matmul_constant_zero_apply dot_S16x240_S240x512_S16x512_1_0_0_1_n_n none l r (ix2 p q)).trans ?_
  rw [← Equiv.sum_comp (contrEquiv1 dot_S16x240_S240x512_S16x512_1_0_0_1_n_n 240 rfl rfl).symm]
  refine Finset.sum_congr rfl fun k _ => ?_
  have hk := contrEquiv1_symm_val dot_S16x240_S240x512_S16x512_1_0_0_1_n_n 240 rfl rfl k
  have el : dot_S16x240_S240x512_S16x512_1_0_0_1_n_n.lhsIdx (ix2 p q) ((contrEquiv1 dot_S16x240_S240x512_S16x512_1_0_0_1_n_n 240 rfl rfl).symm k) = ix2 p k := funext fun a => Fin.ext (by
    match a with
    | ⟨0, _⟩ => exact lhsD_0 _ _
    | ⟨1, _⟩ => exact (lhsD_1 _ _).trans hk)
  have er : dot_S16x240_S240x512_S16x512_1_0_0_1_n_n.rhsIdx (ix2 p q) ((contrEquiv1 dot_S16x240_S240x512_S16x512_1_0_0_1_n_n 240 rfl rfl).symm k) = ix2 k q := funext fun a => Fin.ext (by
    match a with
    | ⟨0, _⟩ => exact (rhsD_0 _ _).trans hk
    | ⟨1, _⟩ => exact rhsD_1 _ _)
  rw [el, er]

/-! ## The stages of the edge perceptron's first two layers -/

/-- The node block with its unit axis dropped, at (o, k). -/
theorem pay2_apply (x0 : Vec Ideal S1x16x128 .f32) (o : Fin 16) (k : Fin 128) :
    k0_pay2 (F := Ideal) x0 (ix2 o k) = x0 (ix3 (0 : Fin 1) o k) := by
  unfold k0_pay2
  exact shapeCast_1ab_ab_apply x0 _ o k

/-- A 0/1 selection matrix (row e has its one at `a e`) times a block is the block's row `a e`. -/
theorem sel_apply {φ₁ φ₂ : FTy} (l : FVec Ideal S240x16 φ₁) (r : FVec Ideal S16x128 φ₂) (a : Fin 240 → Fin 16)
    (N : Fin 16 → Fin 128 → EReal) (hl : ∀ e o, l (ix2 e o) = if o = a e then 1 else 0) (hr : ∀ o k, r (ix2 o k) = N o k)
    (e : Fin 240) (k : Fin 128) :
    matmul dot_S240x16_S16x128_S240x128_1_0_0_1_n_n none l r (constant (F := Ideal) S240x128 .f32 0x00000000#32) (ix2 e k) = N (a e) k := by
  refine (matmulA_apply l r e k).trans ?_
  refine (Finset.sum_congr rfl fun o _ => ?_).trans (sum_sel (a e) fun o => N o k)
  rw [hl e o, hr o k]

/-- One half of the first layer: a 128-feature row times one 128-row half of the first weight block. -/
theorem halfB_apply {φ₁ φ₂ : FTy} (l : FVec Ideal S240x128 φ₁) (w : FVec Ideal S128x512 φ₂)
    (X : Fin 240 → Fin 128 → EReal) (W : Fin 128 → Fin 512 → EReal)
    (hl : ∀ e k, l (ix2 e k) = X e k) (hw : ∀ k h, w (ix2 k h) = W k h) (e : Fin 240) (h : Fin 512) :
    matmul dot_S240x128_S128x512_S240x512_1_0_0_1_n_n none l w (constant (F := Ideal) S240x512 .f32 0x00000000#32) (ix2 e h)
      = ∑ k : Fin 128, X e k * W k h := by
  refine (matmulB_apply l w e h).trans (Finset.sum_congr rfl fun k _ => ?_)
  rw [hl e k, hw k h]

/-- The source half plus the target half of the first layer's product is the 256-term product on the joined row. -/
theorem edgeIn_sum (nodes : Fin 16 → Fin 128 → EReal) (W : Fin 256 → Fin 512 → EReal) (e : Fin 240) (h : Fin 512) :
    (∑ k : Fin 128, nodes (rowL e) k * W ⟨k.val, by have := k.isLt; omega⟩ h)
        + (∑ k : Fin 128, nodes (colL e) k * W ⟨128 + k.val, by have := k.isLt; omega⟩ h)
      = ∑ k : Fin 256, edgeIn nodes e k * W k h := by
  rw [sum_split256]
  refine congrArg₂ (· + ·) (Finset.sum_congr rfl fun k _ => ?_) (Finset.sum_congr rfl fun k _ => ?_)
  · -- a position below 128 reads the source node's row
    have hk : edgeIn nodes e ⟨k.val, by have := k.isLt; omega⟩ = nodes (rowL e) k := by
      unfold edgeIn
      rw [dif_pos (show (⟨k.val, by have := k.isLt; omega⟩ : Fin 256).val < 128 from k.isLt)]
    rw [hk]
  · -- a position 128 + k reads the target node's row at k
    have hk : edgeIn nodes e ⟨128 + k.val, by have := k.isLt; omega⟩ = nodes (colL e) k := by
      unfold edgeIn
      rw [dif_neg (show ¬ (⟨128 + k.val, by have := k.isLt; omega⟩ : Fin 256).val < 128 from Nat.not_lt.2 (Nat.le_add_right 128 k.val))]
      exact congrArg (nodes (colL e)) (Fin.ext (Nat.add_sub_cancel_left 128 k.val))
    rw [hk]

/-- A bias row `[512]`, cast to `[1, 512]` and broadcast down the 240 rows, at (e, h). -/
theorem bias_apply (bv : Vec Ideal S512 .f32) (e : Fin 240) (h : Fin 512) :
    broadcastTo S240x512 (shapeCast S1x512 bv shapeCasts_S512_S1x512) broadcasts_S1x512_S240x512 (ix2 e h) = bv (ix1 h) :=
  (broadcastTo_1b_ab_apply _ _ e h).trans (shapeCast_a_1a_apply bv _ 0 h)

/-- An affine layer on 512-entry rows: the product with the weight block plus the broadcast bias. -/
theorem affineC_apply {φ₁ φ₂ : FTy} (l : FVec Ideal S240x512 φ₁) (w : FVec Ideal S512x512 φ₂) (bv : Vec Ideal S512 .f32)
    (X : Fin 240 → Fin 512 → EReal) (W : Fin 512 → Fin 512 → EReal) (b : Fin 512 → EReal)
    (hl : ∀ e k, l (ix2 e k) = X e k) (hw : ∀ k h, w (ix2 k h) = W k h) (hb : ∀ h, bv (ix1 h) = b h)
    (e : Fin 240) (h : Fin 512) :
    addf (matmul dot_S240x512_S512x512_S240x512_1_0_0_1_n_n none l w (constant (F := Ideal) S240x512 .f32 0x00000000#32))
        (broadcastTo S240x512 (shapeCast S1x512 bv shapeCasts_S512_S1x512) broadcasts_S1x512_S240x512) (ix2 e h)
      = lin W b (X e) h := by
  show matmul dot_S240x512_S512x512_S240x512_1_0_0_1_n_n none l w (constant (F := Ideal) S240x512 .f32 0x00000000#32) (ix2 e h)
      + broadcastTo S240x512 (shapeCast S1x512 bv shapeCasts_S512_S1x512) broadcasts_S1x512_S240x512 (ix2 e h) = _
  rw [matmulC_apply, bias_apply, hb h]
  unfold lin
  congr 1
  refine Finset.sum_congr rfl fun k _ => ?_
  rw [hl e k, hw k h]

/-- The first two layers, at (e, h): the second affine layer on the relu of the first, on edge e's joined row. -/
theorem pay4_apply (P : Params) (nodes : Fin 16 → Fin 128 → EReal)
    (x0 : Vec Ideal S1x16x128 .f32) (x1 x2 : Vec Ideal S240x16 .f32)
    (x4 x5 : Vec Ideal S128x512 .f32) (x6 : Vec Ideal S512 .f32) (x7 : Vec Ideal S512x512 .f32) (x8 : Vec Ideal S512 .f32)
    (hn : ∀ (o : Fin 16) (k : Fin 128), x0 (ix3 (0 : Fin 1) o k) = nodes o k)
    (h1 : ∀ (e : Fin 240) (o : Fin 16), x1 (ix2 e o) = if o = rowL e then 1 else 0)
    (h2 : ∀ (e : Fin 240) (o : Fin 16), x2 (ix2 e o) = if o = colL e then 1 else 0)
    (hW1a : ∀ (k : Fin 128) (h : Fin 512), x4 (ix2 k h) = P.eW1 ⟨k.val, by have := k.isLt; omega⟩ h)
    (hW1b : ∀ (k : Fin 128) (h : Fin 512), x5 (ix2 k h) = P.eW1 ⟨128 + k.val, by have := k.isLt; omega⟩ h)
    (hb1 : ∀ h : Fin 512, x6 (ix1 h) = P.eb1 h) (hW2 : ∀ k h : Fin 512, x7 (ix2 k h) = P.eW2 k h)
    (hb2 : ∀ h : Fin 512, x8 (ix1 h) = P.eb2 h) (e : Fin 240) (h : Fin 512) :
    k0_pay4 (F := Ideal) x0 x1 x2 x4 x5 x6 x7 x8 (ix2 e h)
      = lin P.eW2 P.eb2 (relu (lin P.eW1 P.eb1 (edgeIn nodes e))) h := by
  have hv2 : ∀ (o : Fin 16) (k : Fin 128), k0_pay2 (F := Ideal) x0 (ix2 o k) = nodes o k :=
    fun o k => (pay2_apply x0 o k).trans (hn o k)
  unfold k0_pay4
  refine affineC_apply _ _ x8 (fun e => relu (lin P.eW1 P.eb1 (edgeIn nodes e))) P.eW2 P.eb2
    (fun e k => ?_) (fun k h => hW2 k h) hb2 e h
  -- the relu of the first layer at (e, k): the maximum with the zero literal
  show max (_ + _ + broadcastTo S240x512 (shapeCast S1x512 x6 shapeCasts_S512_S1x512) broadcasts_S1x512_S240x512 (ix2 e k))
      (Ideal.ofBits .f32 0x00000000#32) = _
  rw [bias_apply, hb1 k]
  unfold relu lin
  congr 2
  rw [← edgeIn_sum nodes P.eW1 e k]
  congr 1
  · exact halfB_apply (φ₁ := .bf16) (φ₂ := .bf16) _ _ (fun e k => nodes (rowL e) k) (fun k h => P.eW1 ⟨k.val, by have := k.isLt; omega⟩ h)
      (fun e k => sel_apply (φ₁ := .bf16) (φ₂ := .bf16) _ _ rowL nodes h1 hv2 e k) (fun k h => (congrFun (shapeCast_self x4 _) _).trans (hW1a k h)) e k
  · exact halfB_apply (φ₁ := .bf16) (φ₂ := .bf16) _ _ (fun e k => nodes (colL e) k) (fun k h => P.eW1 ⟨128 + k.val, by have := k.isLt; omega⟩ h)
      (fun e k => sel_apply (φ₁ := .bf16) (φ₂ := .bf16) _ _ colL nodes h2 hv2 e k) (fun k h => (congrFun (shapeCast_self x5 _) _).trans (hW1b k h)) e k

/-! ## Layer norm of each row, the third layer, and the sum over the edges leaving a node -/

/-- The sum of each row of a 240 × 512 block, at e. -/
theorem rowsum_apply (v : FVec Ideal S240x512 .f32) (e : Fin 240) :
    multiReduction (F := Ideal) .add [1] S240 v 0x00000000#32 reduces_S240x512_S240 (.inl rfl) rfl (ix1 e)
      = ∑ k : Fin 512, v (ix2 e k) :=
  (Ideal.multiReduction_add_single v 0x00000000#32 reduces_S240x512_S240 (.inl rfl) rfl (ix1 e)).trans
    (Finset.sum_congr rfl fun k _ => congrArg v (funext fun a => Fin.ext (by
      match a with
      | ⟨0, _⟩ => rfl
      | ⟨1, _⟩ => rfl)))

/-- The mean of each row, kept as a column: the row sum over the literal 512. -/
def rowMean (v : FVec Ideal S240x512 .f32) : FVec Ideal S240x1 .f32 :=
  divf (shapeCast S240x1 (multiReduction (F := Ideal) .add [1] S240 v 0x00000000#32 reduces_S240x512_S240 (.inl rfl) rfl)
      shapeCasts_S240_S240x1)
    (broadcast S240x1 (Scalar.ofBits (F := Ideal) .f32 0x44000000#32))

/-- Each row minus its mean. -/
def centred (v : FVec Ideal S240x512 .f32) : FVec Ideal S240x512 .f32 :=
  subf v (broadcastTo S240x512 (rowMean v) broadcasts_S240x1_S240x512)

/-- (x − μ) · rsqrt(var + ε) · g + β on each row, the variance the row mean of the squared centred block. -/
def lnormVec (v : FVec Ideal S240x512 .f32) (gv βv : Vec Ideal S512 .f32) : FVec Ideal S240x512 .f32 :=
  addf (mulf (mulf (centred v)
        (broadcastTo S240x512
          (rsqrt (addf (rowMean (mulf (centred v) (centred v)))
            (broadcast S240x1 (Scalar.ofBits (F := Ideal) .f32 0x3727C5AC#32))))
          broadcasts_S240x1_S240x512))
      (broadcastTo S240x512 (shapeCast S1x512 gv shapeCasts_S512_S1x512) broadcasts_S1x512_S240x512))
    (broadcastTo S240x512 (shapeCast S1x512 βv shapeCasts_S512_S1x512) broadcasts_S1x512_S240x512)

/-- The mean column at (e, u) is the mean of row e. -/
theorem rowMean_apply (v : FVec Ideal S240x512 .f32) (Y : Fin 240 → Fin 512 → EReal)
    (hv : ∀ e k, v (ix2 e k) = Y e k) (e : Fin 240) (u : Fin 1) : rowMean v (ix2 e u) = mean (Y e) := by
  show Ideal.div (shapeCast S240x1 (multiReduction (F := Ideal) .add [1] S240 v 0x00000000#32 reduces_S240x512_S240 (.inl rfl) rfl)
      shapeCasts_S240_S240x1 (ix2 e u)) nF = Ideal.div (∑ k : Fin 512, Y e k) nF
  exact congrArg (fun s => Ideal.div s nF)
    ((shapeCast_a_a1_apply _ _ e u).trans ((rowsum_apply v e).trans (Finset.sum_congr rfl fun k _ => hv e k)))

/-- The centred block at (e, h): the entry minus its row's mean. -/
theorem centred_apply (v : FVec Ideal S240x512 .f32) (Y : Fin 240 → Fin 512 → EReal)
    (hv : ∀ e k, v (ix2 e k) = Y e k) (e : Fin 240) (h : Fin 512) : centred v (ix2 e h) = Y e h - mean (Y e) := by
  show v (ix2 e h) - broadcastTo S240x512 (rowMean v) broadcasts_S240x1_S240x512 (ix2 e h) = _
  rw [broadcastTo_a1_ab_apply, rowMean_apply v Y hv, hv]

/-- The variance of row e: the mean of the squared centred row. -/
theorem rowVar_apply (v : FVec Ideal S240x512 .f32) (Y : Fin 240 → Fin 512 → EReal)
    (hv : ∀ e k, v (ix2 e k) = Y e k) (e : Fin 240) (u : Fin 1) :
    rowMean (mulf (centred v) (centred v)) (ix2 e u)
      = mean (fun k => (Y e k - mean (Y e)) * (Y e k - mean (Y e))) :=
  rowMean_apply _ (fun e k => (Y e k - mean (Y e)) * (Y e k - mean (Y e))) (fun e k => by
    show centred v (ix2 e k) * centred v (ix2 e k) = _
    rw [centred_apply v Y hv]) e u

/-- The layer norm block at (e, h) is the layer norm of row e at h. -/
theorem lnormVec_apply (v : FVec Ideal S240x512 .f32) (gv βv : Vec Ideal S512 .f32) (Y : Fin 240 → Fin 512 → EReal)
    (g β : Fin 512 → EReal) (hv : ∀ e k, v (ix2 e k) = Y e k) (hg : ∀ h, gv (ix1 h) = g h) (hβ : ∀ h, βv (ix1 h) = β h)
    (e : Fin 240) (h : Fin 512) : lnormVec v gv βv (ix2 e h) = lnorm g β (Y e) h := by
  show centred v (ix2 e h)
        * broadcastTo S240x512
            (rsqrt (addf (rowMean (mulf (centred v) (centred v)))
              (broadcast S240x1 (Scalar.ofBits (F := Ideal) .f32 0x3727C5AC#32))))
            broadcasts_S240x1_S240x512 (ix2 e h)
        * broadcastTo S240x512 (shapeCast S1x512 gv shapeCasts_S512_S1x512) broadcasts_S1x512_S240x512 (ix2 e h)
      + broadcastTo S240x512 (shapeCast S1x512 βv shapeCasts_S512_S1x512) broadcasts_S1x512_S240x512 (ix2 e h) = _
  rw [bias_apply, bias_apply, hg, hβ, centred_apply v Y hv, broadcastTo_a1_ab_apply]
  show (Y e h - mean (Y e)) * Ideal.rsqrt (rowMean (mulf (centred v) (centred v)) (ix2 e (0 : Fin 1)) + epsF) * g h + β h = _
  rw [rowVar_apply v Y hv]
  rfl

/-- The edge results summed with 0/1 weights: row o of the weight block times the block of per-edge results, each the
    third affine layer on the relu of the layer norm of that edge's second-layer row. -/
theorem pay5_apply (v8 : FVec Ideal S16x240 .bf16) (v35 : FVec Ideal S240x512 .f32) (x9 x10 : Vec Ideal S512 .f32)
    (x11 : Vec Ideal S512x512 .f32) (x12 : Vec Ideal S512 .f32)
    (A : Fin 16 → Fin 240 → EReal) (Y : Fin 240 → Fin 512 → EReal) (g β : Fin 512 → EReal)
    (W3 : Fin 512 → Fin 512 → EReal) (b3 : Fin 512 → EReal)
    (h8 : ∀ o e, v8 (ix2 o e) = A o e) (h35 : ∀ e k, v35 (ix2 e k) = Y e k)
    (hg : ∀ h, x9 (ix1 h) = g h) (hβ : ∀ h, x10 (ix1 h) = β h)
    (hW3 : ∀ k h, x11 (ix2 k h) = W3 k h) (hb3 : ∀ h, x12 (ix1 h) = b3 h) (o : Fin 16) (h : Fin 512) :
    k0_pay5 (F := Ideal) v8 v35 x9 x10 x11 x12 (ix2 o h)
      = ∑ e : Fin 240, A o e * lin W3 b3 (relu (lnorm g β (Y e))) h := by
  unfold k0_pay5
  refine (matmulD_apply (φ₁ := .bf16) (φ₂ := .bf16) _ _ o h).trans (Finset.sum_congr rfl fun e _ => ?_)
  refine congrArg₂ (· * ·) (h8 o e) ?_
  refine affineC_apply (φ₁ := .bf16) (φ₂ := .bf16) _ _ x12 (fun e => relu (lnorm g β (Y e))) W3 b3
    (fun e k => ?_) (fun k h => hW3 k h) hb3 e h
  show max (lnormVec v35 x9 x10 (ix2 e k)) zeroF = _
  rw [lnormVec_apply v35 x9 x10 Y g β h35 hg hβ]
  rfl

/-! ## The kernel's edge part is the specification's aggregate -/

theorem edge_agg (P : Params) (nodes : Fin 16 → Fin 128 → EReal)
    (x0 : Vec Ideal S1x16x128 .f32) (x1 x2 : Vec Ideal S240x16 .f32) (x3 : Vec Ideal S16x240 .f32)
    (x4 x5 : Vec Ideal S128x512 .f32) (x6 : Vec Ideal S512 .f32) (x7 : Vec Ideal S512x512 .f32) (x8 x9 x10 : Vec Ideal S512 .f32)
    (x11 : Vec Ideal S512x512 .f32) (x12 : Vec Ideal S512 .f32)
    (hn : ∀ (o : Fin 16) (k : Fin 128), x0 (ix3 (0 : Fin 1) o k) = nodes o k)
    (h1 : ∀ (e : Fin 240) (o : Fin 16), x1 (ix2 e o) = if o = rowL e then 1 else 0)
    (h2 : ∀ (e : Fin 240) (o : Fin 16), x2 (ix2 e o) = if o = colL e then 1 else 0)
    (h3 : ∀ (o : Fin 16) (e : Fin 240), x3 (ix2 o e) = if rowL e = o then 1 else 0)
    (hW1a : ∀ (k : Fin 128) (h : Fin 512), x4 (ix2 k h) = P.eW1 ⟨k.val, by have := k.isLt; omega⟩ h)
    (hW1b : ∀ (k : Fin 128) (h : Fin 512), x5 (ix2 k h) = P.eW1 ⟨128 + k.val, by have := k.isLt; omega⟩ h)
    (hb1 : ∀ h : Fin 512, x6 (ix1 h) = P.eb1 h) (hW2 : ∀ k h : Fin 512, x7 (ix2 k h) = P.eW2 k h)
    (hb2 : ∀ h : Fin 512, x8 (ix1 h) = P.eb2 h) (hg : ∀ h : Fin 512, x9 (ix1 h) = P.eg h) (hbeta : ∀ h : Fin 512, x10 (ix1 h) = P.ebeta h)
    (hW3 : ∀ k h : Fin 512, x11 (ix2 k h) = P.eW3 k h) (hb3 : ∀ h : Fin 512, x12 (ix1 h) = P.eb3 h)
    (o : Fin 16) (h : Fin 512) :
    k0_pay5 (F := Ideal) (k0_pay3 x3) (k0_pay4 x0 x1 x2 x4 x5 x6 x7 x8) x9 x10 x11 x12 (ix2 o h) = agg P nodes o h := by
  refine (pay5_apply (k0_pay3 x3) (k0_pay4 x0 x1 x2 x4 x5 x6 x7 x8) x9 x10 x11 x12
    (fun o e => if rowL e = o then 1 else 0)
    (fun e => lin P.eW2 P.eb2 (relu (lin P.eW1 P.eb1 (edgeIn nodes e)))) P.eg P.ebeta P.eW3 P.eb3
    (fun o e => h3 o e)
    (fun e k => pay4_apply P nodes x0 x1 x2 x4 x5 x6 x7 x8 hn h1 h2 hW1a hW1b hb1 hW2 hb2 e k)
    hg hbeta hW3 hb3 o h).trans ?_
  unfold agg
  refine Finset.sum_congr rfl fun e _ => ?_
  -- a weight 1 keeps the edge's result, a weight 0 drops it
  by_cases hc : rowL e = o
  · rw [if_pos hc, if_pos hc, one_mul]; rfl
  · rw [if_neg hc, if_neg hc, zero_mul]

end Cert.KerEdge

end
-- ==== Proof.KerNode.lean ====
/-
  The node part of the kernel at the extended reals. Per graph the kernel holds the sixteen nodes' features, the
  aggregated edge results and the action word; it forms the node perceptron's first affine layer as three products over
  the bands of its 644 inputs (features, the action's one-hot slice, aggregated edge results), then relu, the second
  affine layer, the layer norm over the 512 lanes (mean, centred row, variance, reciprocal square root, scale and
  shift), relu, and the last affine layer into 128 lanes. Each stage is read at explicit coordinates and identified
  with the corresponding stage of the specification's three-layer perceptron on the row
  (features, one-hot slice, aggregate). Only laws valid on all extended reals are used: the sums are re-indexed and
  split into bands, never distributed over.
-/
import proofs.«421245_j18330920419718_1_alg».proof.Proof.Gen.KernelIdeal.Skeleton
import proofs.«421245_j18330920419718_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate
import Mathlib.Algebra.BigOperators.Fin

noncomputable section

namespace Cert.KerNode

open Cert.KernelIdeal Cert.KernelIdeal.Gen Cert.GnnSpec Idealize.ShloMosaic Idealize.ShloMosaic.ValueIdx

/-! ## The four products into a zero accumulator, read at an index

Each has one contracted axis: the left operand's second, the right operand's first. At output index (p, q) and
contraction coordinate k the operands are read at (p, k) and (k, q), so the product's entry is the sum over k. -/

/-! The product [16,128] × [128,512] into a zero accumulator, read at (p, q): the sum over the 128 contracted coordinates. -/

theorem lhs_feat_0 (i : S16x512.Idx) (c : dot_S16x128_S128x512_S16x512_1_0_0_1_n_n.contr.Idx) :
    (dot_S16x128_S128x512_S16x512_1_0_0_1_n_n.lhsIdx i c 0).val = (i 0).val := by
  unfold DotDims.lhsIdx
  rw [dif_neg (show ¬(0 : Fin S16x128.rank) ∈ dot_S16x128_S128x512_S16x512_1_0_0_1_n_n.lhsBatch by decide), dif_pos (show (0 : Fin S16x128.rank) ∈ dot_S16x128_S128x512_S16x512_1_0_0_1_n_n.lhsNonContracting by decide)]
  rfl
theorem lhs_feat_1 (i : S16x512.Idx) (c : dot_S16x128_S128x512_S16x512_1_0_0_1_n_n.contr.Idx) :
    (dot_S16x128_S128x512_S16x512_1_0_0_1_n_n.lhsIdx i c 1).val = (c ⟨0, by decide⟩).val :=
  dot_S16x128_S128x512_S16x512_1_0_0_1_n_n.lhsIdx_val_of_single rfl i c
theorem rhs_feat_0 (i : S16x512.Idx) (c : dot_S16x128_S128x512_S16x512_1_0_0_1_n_n.contr.Idx) :
    (dot_S16x128_S128x512_S16x512_1_0_0_1_n_n.rhsIdx i c 0).val = (c ⟨0, by decide⟩).val :=
  dot_S16x128_S128x512_S16x512_1_0_0_1_n_n.rhsIdx_val_of_single rfl i c
theorem rhs_feat_1 (i : S16x512.Idx) (c : dot_S16x128_S128x512_S16x512_1_0_0_1_n_n.contr.Idx) :
    (dot_S16x128_S128x512_S16x512_1_0_0_1_n_n.rhsIdx i c 1).val = (i 1).val := by
  unfold DotDims.rhsIdx
  rw [dif_neg (show ¬(1 : Fin S128x512.rank) ∈ dot_S16x128_S128x512_S16x512_1_0_0_1_n_n.rhsBatch by decide), dif_pos (show (1 : Fin S128x512.rank) ∈ dot_S16x128_S128x512_S16x512_1_0_0_1_n_n.rhsNonContracting by decide)]
  rfl
theorem matmul_feat (l : FVec Ideal S16x128 .bf16) (r : FVec Ideal S128x512 .bf16) (p : Fin 16) (q : Fin 512) :
    matmul dot_S16x128_S128x512_S16x512_1_0_0_1_n_n none l r (constant (F := Ideal) S16x512 .f32 0x00000000#32) (ix2 p q)
      = ∑ k : Fin 128, l (ix2 p k) * r (ix2 k q) := by
  simp only [matmul]
  rw [Ideal.matmul_constant_zero_apply, ← Equiv.sum_comp (contrEquiv1 dot_S16x128_S128x512_S16x512_1_0_0_1_n_n 128 rfl rfl).symm]
  refine Finset.sum_congr rfl fun k _ => ?_
  have hk := contrEquiv1_symm_val dot_S16x128_S128x512_S16x512_1_0_0_1_n_n 128 rfl rfl k
  have el : dot_S16x128_S128x512_S16x512_1_0_0_1_n_n.lhsIdx (ix2 p q) ((contrEquiv1 dot_S16x128_S128x512_S16x512_1_0_0_1_n_n 128 rfl rfl).symm k) = ix2 p k := funext fun a => Fin.ext (by
    match a with
    | ⟨0, _⟩ => exact lhs_feat_0 _ _
    | ⟨1, _⟩ => exact (lhs_feat_1 _ _).trans hk)
  have er : dot_S16x128_S128x512_S16x512_1_0_0_1_n_n.rhsIdx (ix2 p q) ((contrEquiv1 dot_S16x128_S128x512_S16x512_1_0_0_1_n_n 128 rfl rfl).symm k) = ix2 k q := funext fun a => Fin.ext (by
    match a with
    | ⟨0, _⟩ => exact (rhs_feat_0 _ _).trans hk
    | ⟨1, _⟩ => exact rhs_feat_1 _ _)
  rw [el, er]

/-! The product [16,4] × [4,512] into a zero accumulator, read at (p, q): the sum over the 4 contracted coordinates. -/

theorem lhs_act_0 (i : S16x512.Idx) (c : dot_S16x4_S4x512_S16x512_1_0_0_1_n_n.contr.Idx) :
    (dot_S16x4_S4x512_S16x512_1_0_0_1_n_n.lhsIdx i c 0).val = (i 0).val := by
  unfold DotDims.lhsIdx
  rw [dif_neg (show ¬(0 : Fin S16x4.rank) ∈ dot_S16x4_S4x512_S16x512_1_0_0_1_n_n.lhsBatch by decide), dif_pos (show (0 : Fin S16x4.rank) ∈ dot_S16x4_S4x512_S16x512_1_0_0_1_n_n.lhsNonContracting by decide)]
  rfl
theorem lhs_act_1 (i : S16x512.Idx) (c : dot_S16x4_S4x512_S16x512_1_0_0_1_n_n.contr.Idx) :
    (dot_S16x4_S4x512_S16x512_1_0_0_1_n_n.lhsIdx i c 1).val = (c ⟨0, by decide⟩).val :=
  dot_S16x4_S4x512_S16x512_1_0_0_1_n_n.lhsIdx_val_of_single rfl i c
theorem rhs_act_0 (i : S16x512.Idx) (c : dot_S16x4_S4x512_S16x512_1_0_0_1_n_n.contr.Idx) :
    (dot_S16x4_S4x512_S16x512_1_0_0_1_n_n.rhsIdx i c 0).val = (c ⟨0, by decide⟩).val :=
  dot_S16x4_S4x512_S16x512_1_0_0_1_n_n.rhsIdx_val_of_single rfl i c
theorem rhs_act_1 (i : S16x512.Idx) (c : dot_S16x4_S4x512_S16x512_1_0_0_1_n_n.contr.Idx) :
    (dot_S16x4_S4x512_S16x512_1_0_0_1_n_n.rhsIdx i c 1).val = (i 1).val := by
  unfold DotDims.rhsIdx
  rw [dif_neg (show ¬(1 : Fin S4x512.rank) ∈ dot_S16x4_S4x512_S16x512_1_0_0_1_n_n.rhsBatch by decide), dif_pos (show (1 : Fin S4x512.rank) ∈ dot_S16x4_S4x512_S16x512_1_0_0_1_n_n.rhsNonContracting by decide)]
  rfl
theorem matmul_act (l : FVec Ideal S16x4 .bf16) (r : FVec Ideal S4x512 .bf16) (p : Fin 16) (q : Fin 512) :
    matmul dot_S16x4_S4x512_S16x512_1_0_0_1_n_n none l r (constant (F := Ideal) S16x512 .f32 0x00000000#32) (ix2 p q)
      = ∑ k : Fin 4, l (ix2 p k) * r (ix2 k q) := by
  simp only [matmul]
  rw [Ideal.matmul_constant_zero_apply, ← Equiv.sum_comp (contrEquiv1 dot_S16x4_S4x512_S16x512_1_0_0_1_n_n 4 rfl rfl).symm]
  refine Finset.sum_congr rfl fun k _ => ?_
  have hk := contrEquiv1_symm_val dot_S16x4_S4x512_S16x512_1_0_0_1_n_n 4 rfl rfl k
  have el : dot_S16x4_S4x512_S16x512_1_0_0_1_n_n.lhsIdx (ix2 p q) ((contrEquiv1 dot_S16x4_S4x512_S16x512_1_0_0_1_n_n 4 rfl rfl).symm k) = ix2 p k := funext fun a => Fin.ext (by
    match a with
    | ⟨0, _⟩ => exact lhs_act_0 _ _
    | ⟨1, _⟩ => exact (lhs_act_1 _ _).trans hk)
  have er : dot_S16x4_S4x512_S16x512_1_0_0_1_n_n.rhsIdx (ix2 p q) ((contrEquiv1 dot_S16x4_S4x512_S16x512_1_0_0_1_n_n 4 rfl rfl).symm k) = ix2 k q := funext fun a => Fin.ext (by
    match a with
    | ⟨0, _⟩ => exact (rhs_act_0 _ _).trans hk
    | ⟨1, _⟩ => exact rhs_act_1 _ _)
  rw [el, er]

/-! The product [16,512] × [512,512] into a zero accumulator, read at (p, q): the sum over the 512 contracted coordinates. -/

theorem lhs_hid_0 (i : S16x512.Idx) (c : dot_S16x512_S512x512_S16x512_1_0_0_1_n_n.contr.Idx) :
    (dot_S16x512_S512x512_S16x512_1_0_0_1_n_n.lhsIdx i c 0).val = (i 0).val := by
  unfold DotDims.lhsIdx
  rw [dif_neg (show ¬(0 : Fin S16x512.rank) ∈ dot_S16x512_S512x512_S16x512_1_0_0_1_n_n.lhsBatch by decide), dif_pos (show (0 : Fin S16x512.rank) ∈ dot_S16x512_S512x512_S16x512_1_0_0_1_n_n.lhsNonContracting by decide)]
  rfl
theorem lhs_hid_1 (i : S16x512.Idx) (c : dot_S16x512_S512x512_S16x512_1_0_0_1_n_n.contr.Idx) :
    (dot_S16x512_S512x512_S16x512_1_0_0_1_n_n.lhsIdx i c 1).val = (c ⟨0, by decide⟩).val :=
  dot_S16x512_S512x512_S16x512_1_0_0_1_n_n.lhsIdx_val_of_single rfl i c
theorem rhs_hid_0 (i : S16x512.Idx) (c : dot_S16x512_S512x512_S16x512_1_0_0_1_n_n.contr.Idx) :
    (dot_S16x512_S512x512_S16x512_1_0_0_1_n_n.rhsIdx i c 0).val = (c ⟨0, by decide⟩).val :=
  dot_S16x512_S512x512_S16x512_1_0_0_1_n_n.rhsIdx_val_of_single rfl i c
theorem rhs_hid_1 (i : S16x512.Idx) (c : dot_S16x512_S512x512_S16x512_1_0_0_1_n_n.contr.Idx) :
    (dot_S16x512_S512x512_S16x512_1_0_0_1_n_n.rhsIdx i c 1).val = (i 1).val := by
  unfold DotDims.rhsIdx
  rw [dif_neg (show ¬(1 : Fin S512x512.rank) ∈ dot_S16x512_S512x512_S16x512_1_0_0_1_n_n.rhsBatch by decide), dif_pos (show (1 : Fin S512x512.rank) ∈ dot_S16x512_S512x512_S16x512_1_0_0_1_n_n.rhsNonContracting by decide)]
  rfl
theorem matmul_hid (l : FVec Ideal S16x512 .bf16) (r : FVec Ideal S512x512 .bf16) (p : Fin 16) (q : Fin 512) :
    matmul dot_S16x512_S512x512_S16x512_1_0_0_1_n_n none l r (constant (F := Ideal) S16x512 .f32 0x00000000#32) (ix2 p q)
      = ∑ k : Fin 512, l (ix2 p k) * r (ix2 k q) := by
  simp only [matmul]
  rw [Ideal.matmul_constant_zero_apply, ← Equiv.sum_comp (contrEquiv1 dot_S16x512_S512x512_S16x512_1_0_0_1_n_n 512 rfl rfl).symm]
  refine Finset.sum_congr rfl fun k _ => ?_
  have hk := contrEquiv1_symm_val dot_S16x512_S512x512_S16x512_1_0_0_1_n_n 512 rfl rfl k
  have el : dot_S16x512_S512x512_S16x512_1_0_0_1_n_n.lhsIdx (ix2 p q) ((contrEquiv1 dot_S16x512_S512x512_S16x512_1_0_0_1_n_n 512 rfl rfl).symm k) = ix2 p k := funext fun a => Fin.ext (by
    match a with
    | ⟨0, _⟩ => exact lhs_hid_0 _ _
    | ⟨1, _⟩ => exact (lhs_hid_1 _ _).trans hk)
  have er : dot_S16x512_S512x512_S16x512_1_0_0_1_n_n.rhsIdx (ix2 p q) ((contrEquiv1 dot_S16x512_S512x512_S16x512_1_0_0_1_n_n 512 rfl rfl).symm k) = ix2 k q := funext fun a => Fin.ext (by
    match a with
    | ⟨0, _⟩ => exact (rhs_hid_0 _ _).trans hk
    | ⟨1, _⟩ => exact rhs_hid_1 _ _)
  rw [el, er]

/-! The product [16,512] × [512,128] into a zero accumulator, read at (p, q): the sum over the 512 contracted coordinates. -/

theorem lhs_outp_0 (i : S16x128.Idx) (c : dot_S16x512_S512x128_S16x128_1_0_0_1_n_n.contr.Idx) :
    (dot_S16x512_S512x128_S16x128_1_0_0_1_n_n.lhsIdx i c 0).val = (i 0).val := by
  unfold DotDims.lhsIdx
  rw [dif_neg (show ¬(0 : Fin S16x512.rank) ∈ dot_S16x512_S512x128_S16x128_1_0_0_1_n_n.lhsBatch by decide), dif_pos (show (0 : Fin S16x512.rank) ∈ dot_S16x512_S512x128_S16x128_1_0_0_1_n_n.lhsNonContracting by decide)]
  rfl
theorem lhs_outp_1 (i : S16x128.Idx) (c : dot_S16x512_S512x128_S16x128_1_0_0_1_n_n.contr.Idx) :
    (dot_S16x512_S512x128_S16x128_1_0_0_1_n_n.lhsIdx i c 1).val = (c ⟨0, by decide⟩).val :=
  dot_S16x512_S512x128_S16x128_1_0_0_1_n_n.lhsIdx_val_of_single rfl i c
theorem rhs_outp_0 (i : S16x128.Idx) (c : dot_S16x512_S512x128_S16x128_1_0_0_1_n_n.contr.Idx) :
    (dot_S16x512_S512x128_S16x128_1_0_0_1_n_n.rhsIdx i c 0).val = (c ⟨0, by decide⟩).val :=
  dot_S16x512_S512x128_S16x128_1_0_0_1_n_n.rhsIdx_val_of_single rfl i c
theorem rhs_outp_1 (i : S16x128.Idx) (c : dot_S16x512_S512x128_S16x128_1_0_0_1_n_n.contr.Idx) :
    (dot_S16x512_S512x128_S16x128_1_0_0_1_n_n.rhsIdx i c 1).val = (i 1).val := by
  unfold DotDims.rhsIdx
  rw [dif_neg (show ¬(1 : Fin S512x128.rank) ∈ dot_S16x512_S512x128_S16x128_1_0_0_1_n_n.rhsBatch by decide), dif_pos (show (1 : Fin S512x128.rank) ∈ dot_S16x512_S512x128_S16x128_1_0_0_1_n_n.rhsNonContracting by decide)]
  rfl
theorem matmul_outp (l : FVec Ideal S16x512 .bf16) (r : FVec Ideal S512x128 .bf16) (p : Fin 16) (q : Fin 128) :
    matmul dot_S16x512_S512x128_S16x128_1_0_0_1_n_n none l r (constant (F := Ideal) S16x128 .f32 0x00000000#32) (ix2 p q)
      = ∑ k : Fin 512, l (ix2 p k) * r (ix2 k q) := by
  simp only [matmul]
  rw [Ideal.matmul_constant_zero_apply, ← Equiv.sum_comp (contrEquiv1 dot_S16x512_S512x128_S16x128_1_0_0_1_n_n 512 rfl rfl).symm]
  refine Finset.sum_congr rfl fun k _ => ?_
  have hk := contrEquiv1_symm_val dot_S16x512_S512x128_S16x128_1_0_0_1_n_n 512 rfl rfl k
  have el : dot_S16x512_S512x128_S16x128_1_0_0_1_n_n.lhsIdx (ix2 p q) ((contrEquiv1 dot_S16x512_S512x128_S16x128_1_0_0_1_n_n 512 rfl rfl).symm k) = ix2 p k := funext fun a => Fin.ext (by
    match a with
    | ⟨0, _⟩ => exact lhs_outp_0 _ _
    | ⟨1, _⟩ => exact (lhs_outp_1 _ _).trans hk)
  have er : dot_S16x512_S512x128_S16x128_1_0_0_1_n_n.rhsIdx (ix2 p q) ((contrEquiv1 dot_S16x512_S512x128_S16x128_1_0_0_1_n_n 512 rfl rfl).symm k) = ix2 k q := funext fun a => Fin.ext (by
    match a with
    | ⟨0, _⟩ => exact (rhs_outp_0 _ _).trans hk
    | ⟨1, _⟩ => exact rhs_outp_1 _ _)
  rw [el, er]

/-! ## Layout operations and the lane sum, read at coordinates -/

/-- A vector [b] viewed [1, b] and repeated over a rows reads, at (p, c), the vector at c. -/
theorem row_bcast {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- A column [a, 1] repeated over b lanes reads, at (p, c), the column at p. -/
theorem col_bcast {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] viewed as a column [a, 1] reads, at (p, 0), the vector at p. -/
theorem cast_col {α : Type} {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- The sum over the lanes of a [a, b] block, read at row p: the sum of that row's b entries. -/
theorem row_sum {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => ?_
  refine congrArg src (funext fun c => Fin.ext ?_)
  rw [Shape.Reduces.lift_val]
  match c with
  | ⟨0, _⟩ => rfl
  | ⟨1, _⟩ => rfl

/-! ## The action's one-hot slice -/

/-- The word 4·o + j from the two lane counters: small numbers, so no wrap-around. -/
theorem word_4o_j (o : Fin 16) (j : Fin 4) :
    IntOp.addi (IntOp.muli (BitVec.ofNat 32 o.val) 4#32) (BitVec.ofNat 32 j.val) = BitVec.ofNat 32 (4 * o.val + j.val) := by
  revert o j; decide

/-- The lane-counter block reads, at (o, j), the word 4·o + j. -/
theorem pay6_apply (o : Fin 16) (j : Fin 4) : k0_pay6 (ix2 o j) = BitVec.ofNat 32 (4 * o.val + j.val) := by
  unfold k0_pay6
  show IntOp.addi (IntOp.muli (iota .tc S16x4 32 [0] iota_S16x4_d0_w32 (ix2 o j)) 4#32)
      (iota .tc S16x4 32 [1] iota_S16x4_d1_w32 (ix2 o j)) = _
  rw [iota_single_apply, iota_single_apply]
  exact word_4o_j o j

/-- The set bit, widened and converted, is the real 1 … -/
theorem sitofp_bit_one : (FloatOps.sitofp (F := Ideal) .f32 ((1#1 : BitVec 1).setWidth 32) : EReal) = 1 := by
  show ((((1#1 : BitVec 1).setWidth 32).toInt : ℝ) : EReal) = 1
  have h : ((1#1 : BitVec 1).setWidth 32).toInt = 1 := by decide
  rw [h]; simp

/-- … and the clear bit the real 0. -/
theorem sitofp_bit_zero : (FloatOps.sitofp (F := Ideal) .f32 ((0#1 : BitVec 1).setWidth 32) : EReal) = 0 := by
  show ((((0#1 : BitVec 1).setWidth 32).toInt : ℝ) : EReal) = 0
  have h : ((0#1 : BitVec 1).setWidth 32).toInt = 0 := by decide
  rw [h]; simp

/-- The compare of the lane counters with the action word, widened and converted, is the action's one-hot slice. -/
theorem onehot_apply (a : BitVec 32) (o : Fin 16) (j : Fin 4) :
    (sitofp (F := Ideal) .f32 (extui 32 (cmpi .eq k0_pay6 (k0_pay7 (F := Ideal) a)) natLt_1_32) : FVec Ideal S16x4 .f32) (ix2 o j)
      = actv a o j := by
  show FloatOps.sitofp (F := Ideal) .f32 ((IntOp.cmpi .eq (k0_pay6 (ix2 o j)) a).setWidth 32) = _
  rw [pay6_apply]
  unfold actv
  by_cases h : a = BitVec.ofNat 32 (4 * o.val + j.val)
  · rw [if_pos h, StableHlo.Predicate.cmpi_eq_iff.mpr h.symm]; exact sitofp_bit_one
  · rw [if_neg h, eq_zero_of_ne_one (fun hc => h (StableHlo.Predicate.cmpi_eq_iff.mp hc).symm)]; exact sitofp_bit_zero

/-! ## The node perceptron's first two layers -/

/-- A sum over 644 indices split into the bands [0, 128), [128, 132), [132, 644). -/
theorem sum_bands (f : Fin 644 → EReal) :
    ∑ k : Fin 644, f k
      = ((∑ k : Fin 128, f ⟨k.val, by have := k.isLt; omega⟩) + ∑ j : Fin 4, f ⟨128 + j.val, by have := j.isLt; omega⟩)
        + ∑ j : Fin 512, f ⟨132 + j.val, by have := j.isLt; omega⟩ := by
  have e1 : ∑ k : Fin 644, f k = ∑ i : Fin 132, f (Fin.castAdd 512 i) + ∑ i : Fin 512, f (Fin.natAdd 132 i) :=
    Fin.sum_univ_add (a := 132) (b := 512) f
  have e2 : ∑ i : Fin 132, f (Fin.castAdd 512 i)
      = ∑ i : Fin 128, f (Fin.castAdd 512 (Fin.castAdd 4 i)) + ∑ i : Fin 4, f (Fin.castAdd 512 (Fin.natAdd 128 i)) :=
    Fin.sum_univ_add (a := 128) (b := 4) (fun i => f (Fin.castAdd 512 i))
  rw [e1, e2]
  rfl

/-- The input row of the node perceptron on its first band: the node's features. -/
theorem nodeIn_feat (P : Params) (nodes : Fin 16 → Fin 128 → EReal) (a : BitVec 32) (o : Fin 16) (k : Fin 128) :
    nodeIn P nodes a o ⟨k.val, by have := k.isLt; omega⟩ = nodes o k := by
  have hk := k.isLt
  unfold nodeIn
  rw [dif_pos (show k.val < 132 by omega), dif_pos (show k.val < 128 by omega)]

/-- On its second band: the action's one-hot slice. -/
theorem nodeIn_act (P : Params) (nodes : Fin 16 → Fin 128 → EReal) (a : BitVec 32) (o : Fin 16) (j : Fin 4) :
    nodeIn P nodes a o ⟨128 + j.val, by have := j.isLt; omega⟩ = actv a o j := by
  have hj := j.isLt
  unfold nodeIn
  rw [dif_pos (show 128 + j.val < 132 by omega), dif_neg (show ¬ 128 + j.val < 128 by omega)]
  exact congrArg (actv a o) (Fin.ext (by show 128 + j.val - 128 = j.val; omega))

/-- On its third band: the aggregated edge results. -/
theorem nodeIn_agg (P : Params) (nodes : Fin 16 → Fin 128 → EReal) (a : BitVec 32) (o : Fin 16) (j : Fin 512) :
    nodeIn P nodes a o ⟨132 + j.val, by have := j.isLt; omega⟩ = agg P nodes o j := by
  have hj := j.isLt
  unfold nodeIn
  rw [dif_neg (show ¬ 132 + j.val < 132 by omega)]
  exact congrArg (agg P nodes o) (Fin.ext (by show 132 + j.val - 132 = j.val; omega))

/-- The node block viewed [16, 128] reads, at (o, k), the block at (0, o, k). -/
theorem pay2_apply (x0 : Vec Ideal S1x16x128 .f32) (o : Fin 16) (k : Fin 128) :
    k0_pay2 (F := Ideal) x0 (ix2 o k) = x0 (ix3 (0 : Fin 1) o k) := by
  unfold k0_pay2
  rw [truncf_apply, shapeCast_1ab_ab_apply]

/-- The second layer's result at (o, h): the three products over the bands and the bias are the first affine layer on the
    whole input row, then the maximum with zero, the product with the second weights and its bias. -/
theorem pay8_apply (P : Params) (nodes : Fin 16 → Fin 128 → EReal) (a : BitVec 32)
    (x0 : Vec Ideal S1x16x128 .f32) (v73 : FVec Ideal S16x512 .f32)
    (x13 : Vec Ideal S128x512 .f32) (x14 : Vec Ideal S4x512 .f32) (x15 : Vec Ideal S512x512 .f32) (x16 : Vec Ideal S512 .f32)
    (x17 : Vec Ideal S512x512 .f32) (x18 : Vec Ideal S512 .f32)
    (hn : ∀ (o : Fin 16) (k : Fin 128), x0 (ix3 (0 : Fin 1) o k) = nodes o k)
    (hagg : ∀ (o : Fin 16) (h : Fin 512), v73 (ix2 o h) = agg P nodes o h)
    (hWa : ∀ (k : Fin 128) (h : Fin 512), x13 (ix2 k h) = P.nW1 ⟨k.val, by have := k.isLt; omega⟩ h)
    (hWb : ∀ (j : Fin 4) (h : Fin 512), x14 (ix2 j h) = P.nW1 ⟨128 + j.val, by have := j.isLt; omega⟩ h)
    (hWc : ∀ (j : Fin 512) (h : Fin 512), x15 (ix2 j h) = P.nW1 ⟨132 + j.val, by have := j.isLt; omega⟩ h)
    (hb1 : ∀ h : Fin 512, x16 (ix1 h) = P.nb1 h) (hW2 : ∀ k h : Fin 512, x17 (ix2 k h) = P.nW2 k h)
    (hb2 : ∀ h : Fin 512, x18 (ix1 h) = P.nb2 h)
    (o : Fin 16) (h : Fin 512) :
    k0_pay8 (F := Ideal) (k0_pay2 x0) v73 k0_pay6 (k0_pay7 (F := Ideal) a) x13 x14 x15 x16 x17 x18 (ix2 o h)
      = lin P.nW2 P.nb2 (relu (lin P.nW1 P.nb1 (nodeIn P nodes a o))) h := by
  unfold k0_pay8
  rw [addf_apply, matmul_hid, row_bcast, hb2]
  show _ = (∑ k : Fin 512, relu (lin P.nW1 P.nb1 (nodeIn P nodes a o)) k * P.nW2 k h) + P.nb2 h
  refine congrArg (· + P.nb2 h) (Finset.sum_congr rfl fun k _ => ?_)
  rw [truncf_apply, truncf_apply, hW2, maximumf_apply, broadcast_apply, addf_apply, addf_apply, addf_apply,
    matmul_feat, matmul_act, matmul_hid, row_bcast, hb1]
  show max _ zeroF * _ = max (lin P.nW1 P.nb1 (nodeIn P nodes a o) k) zeroF * _
  refine congrArg (fun t => max t zeroF * P.nW2 k h) ?_
  show _ = (∑ i : Fin 644, nodeIn P nodes a o i * P.nW1 i k) + P.nb1 k
  rw [sum_bands]
  refine congrArg (· + P.nb1 k) (congrArg₂ (· + ·) (congrArg₂ (· + ·) ?_ ?_) ?_)
  · refine Finset.sum_congr rfl fun i _ => ?_
    rw [pay2_apply, truncf_apply, shapeCast_self, hn, hWa, nodeIn_feat]
  · refine Finset.sum_congr rfl fun j _ => ?_
    rw [truncf_apply, onehot_apply, truncf_apply, shapeCast_self, hWb, nodeIn_act]
  · refine Finset.sum_congr rfl fun j _ => ?_
    rw [truncf_apply, truncf_apply, shapeCast_self, hagg, hWc, nodeIn_agg]

/-! ## The layer norm and the last layer -/

/-- The reciprocal square root at an index is the extended reals'. -/
theorem rsqrt_apply {s : Shape} {φ : FTy} (x : FVec Ideal s φ) (i : s.Idx) : rsqrt x i = Ideal.rsqrt (x i) := rfl

/-- The row mean: the lane sum of the second layer's row o, divided by 512. -/
theorem pay9_apply (v2 : FVec Ideal S16x128 .bf16) (v73 : FVec Ideal S16x512 .f32) (v80 v81 : IVec S16x4 32)
    (v85 : Vec Ideal S128x512 .f32) (v88 : Vec Ideal S4x512 .f32) (v91 : Vec Ideal S512x512 .f32) (v101 : Vec Ideal S512 .f32)
    (v107 : Vec Ideal S512x512 .f32) (v111 : Vec Ideal S512 .f32) (o : Fin 16) (u : Fin 1) :
    k0_pay9 (F := Ideal) v2 v73 v80 v81 v85 v88 v91 v101 v107 v111 (ix2 o u)
      = Ideal.div (∑ k : Fin 512, k0_pay8 (F := Ideal) v2 v73 v80 v81 v85 v88 v91 v101 v107 v111 (ix2 o k)) nF := by
  unfold k0_pay9
  rw [divf_apply, cast_col, row_sum, broadcast_apply]
  rfl

/-- The centred row: the second layer's row minus its mean. -/
theorem pay10_apply (v2 : FVec Ideal S16x128 .bf16) (v73 : FVec Ideal S16x512 .f32) (v80 v81 : IVec S16x4 32)
    (v85 : Vec Ideal S128x512 .f32) (v88 : Vec Ideal S4x512 .f32) (v91 : Vec Ideal S512x512 .f32) (v101 : Vec Ideal S512 .f32)
    (v107 : Vec Ideal S512x512 .f32) (v111 : Vec Ideal S512 .f32) (o : Fin 16) (h : Fin 512) :
    k0_pay10 (F := Ideal) v2 v73 v80 v81 v85 v88 v91 v101 v107 v111 (ix2 o h)
      = k0_pay8 (F := Ideal) v2 v73 v80 v81 v85 v88 v91 v101 v107 v111 (ix2 o h)
        - k0_pay9 (F := Ideal) v2 v73 v80 v81 v85 v88 v91 v101 v107 v111 (ix2 o (0 : Fin 1)) := by
  unfold k0_pay10
  rw [subf_apply, col_bcast]

/-- The stored block at (0, o, k): the variance of row o from the centred row, the normalised row scaled and shifted, the
    maximum with zero, the product with the last weights and its bias. -/
theorem pay1_apply (v114 : FVec Ideal S16x512 .f32) (v115 v116 : Vec Ideal S512 .f32) (v120 : FVec Ideal S16x1 .f32)
    (v122 : FVec Ideal S16x512 .f32) (v143 : Vec Ideal S512x128 .f32) (v147 : Vec Ideal S128 .f32) (o : Fin 16) (k : Fin 128) :
    k0_pay1 (F := Ideal) v114 v115 v116 v120 v122 v143 v147 (ix3 (0 : Fin 1) o k)
      = (∑ h : Fin 512,
          max ((((v114 (ix2 o h) - v120 (ix2 o (0 : Fin 1)))
              * Ideal.rsqrt (Ideal.div (∑ j : Fin 512, v122 (ix2 o j) * v122 (ix2 o j)) nF + epsF)) * v115 (ix1 h))
                + v116 (ix1 h)) zeroF
            * v143 (ix2 h k))
        + v147 (ix1 k) := by
  unfold k0_pay1
  rw [shapeCast_ab_1ab_apply, addf_apply, matmul_outp, row_bcast]
  refine congrArg (· + v147 (ix1 k)) (Finset.sum_congr rfl fun h _ => ?_)
  rw [truncf_apply, truncf_apply, maximumf_apply, broadcast_apply, addf_apply, row_bcast, mulf_apply, row_bcast, mulf_apply,
    subf_apply, col_bcast, col_bcast, rsqrt_apply, addf_apply, divf_apply, cast_col, row_sum, broadcast_apply, broadcast_apply]
  rfl

/-! ## The node part of the kernel computes the network's result -/

/-- Given the node block, the aggregated edge block and the node perceptron's weights as the specification's, the block the
    kernel stores reads, at (0, o, k), the network's result for node o at lane k. -/
theorem node_out (P : Params) (nodes : Fin 16 → Fin 128 → EReal) (a : BitVec 32)
    (x0 : Vec Ideal S1x16x128 .f32) (v73 : FVec Ideal S16x512 .f32)
    (x13 : Vec Ideal S128x512 .f32) (x14 : Vec Ideal S4x512 .f32) (x15 : Vec Ideal S512x512 .f32) (x16 : Vec Ideal S512 .f32)
    (x17 : Vec Ideal S512x512 .f32) (x18 x19 x20 : Vec Ideal S512 .f32) (x21 : Vec Ideal S512x128 .f32) (x22 : Vec Ideal S128 .f32)
    (hn : ∀ (o : Fin 16) (k : Fin 128), x0 (ix3 (0 : Fin 1) o k) = nodes o k)
    (hagg : ∀ (o : Fin 16) (h : Fin 512), v73 (ix2 o h) = agg P nodes o h)
    (hWa : ∀ (k : Fin 128) (h : Fin 512), x13 (ix2 k h) = P.nW1 ⟨k.val, by have := k.isLt; omega⟩ h)
    (hWb : ∀ (j : Fin 4) (h : Fin 512), x14 (ix2 j h) = P.nW1 ⟨128 + j.val, by have := j.isLt; omega⟩ h)
    (hWc : ∀ (j : Fin 512) (h : Fin 512), x15 (ix2 j h) = P.nW1 ⟨132 + j.val, by have := j.isLt; omega⟩ h)
    (hb1 : ∀ h : Fin 512, x16 (ix1 h) = P.nb1 h) (hW2 : ∀ k h : Fin 512, x17 (ix2 k h) = P.nW2 k h) (hb2 : ∀ h : Fin 512, x18 (ix1 h) = P.nb2 h)
    (hg : ∀ h : Fin 512, x19 (ix1 h) = P.ng h) (hbeta : ∀ h : Fin 512, x20 (ix1 h) = P.nbeta h)
    (hW3 : ∀ (k : Fin 512) (j : Fin 128), x21 (ix2 k j) = P.nW3 k j) (hb3 : ∀ j : Fin 128, x22 (ix1 j) = P.nb3 j)
    (o : Fin 16) (k : Fin 128) :
    k0_pay1 (F := Ideal) (k0_pay8 (k0_pay2 x0) v73 k0_pay6 (k0_pay7 (F := Ideal) a) x13 x14 x15 x16 x17 x18) x19 x20
      (k0_pay9 (k0_pay2 x0) v73 k0_pay6 (k0_pay7 (F := Ideal) a) x13 x14 x15 x16 x17 x18)
      (k0_pay10 (k0_pay2 x0) v73 k0_pay6 (k0_pay7 (F := Ideal) a) x13 x14 x15 x16 x17 x18) x21 x22 (ix3 (0 : Fin 1) o k)
    = out P nodes a o k := by
  have h8 := pay8_apply P nodes a x0 v73 x13 x14 x15 x16 x17 x18 hn hagg hWa hWb hWc hb1 hW2 hb2 o
  rw [pay1_apply, pay9_apply, hb3]
  simp only [pay10_apply, pay9_apply, h8, hg, hbeta, hW3]
  rfl

end Cert.KerNode

end
-- ==== Proof.RefEdgeIn.lean ====
/-
  The reference's edge index tables and its two gathers. Edge E = 240·b + e of the 122,880 edges belongs to graph
  b and is that graph's ordered pair e = 15·i + k: it leaves node i and enters node k + [k ≥ i] (the pair (i, i) is
  skipped). The reference builds the global node numbers 16·b + i and 16·b + (k + [k ≥ i]) from iotas by integer
  broadcasts, a compare, adds, reshapes and a multiplication by 16; all words stay below 8192, so the wrap of negative
  indices is never taken and the gathers' clamp is the identity. Each gather then reads whole rows of the states
  flattened to 8192 × 128, and the join along the feature axis puts the source node's row before the target node's:
  a row of the result is the edge perceptron's input row of the shared specification.
-/
import proofs.«421245_j18330920419718_1_alg».proof.Proof.Gen.ReferenceIdeal.Read
import proofs.«421245_j18330920419718_1_alg».proof.Proof.Spec
import Idealize.ShloMosaic.Lib.ValueIdx
import Idealize.ShloMosaic.Lib.StableHlo.Predicate
import Idealize.ShloMosaic.Lib.Pipeline.Value

noncomputable section

namespace Cert.RefEdgeIn

open Cert.ReferenceIdeal Cert.ReferenceIdeal.Gen Cert.ReferenceIdeal.Read Cert.GnnSpec Idealize.ShloMosaic Idealize.ShloMosaic.ValueIdx
open Idealize.ShloMosaic.StableHlo.Predicate (sge_iff_toNat slt_iff_toNat toInt_ofNat_small)

/-! ## Small words: below 2³¹ a word adds, multiplies and compares as its value -/

/-- Word addition of two values is the word of their sum. -/
theorem addi_ofNat (a b : Nat) : IntOp.addi (BitVec.ofNat 32 a) (BitVec.ofNat 32 b) = BitVec.ofNat 32 (a + b) :=
  (BitVec.ofNat_add a b).symm

/-- Word multiplication of two values is the word of their product. -/
theorem muli_ofNat (a b : Nat) : IntOp.muli (BitVec.ofNat 32 a) (BitVec.ofNat 32 b) = BitVec.ofNat 32 (a * b) :=
  (BitVec.ofNat_mul a b).symm

/-- A value below 2³¹ is its word's value. -/
theorem toNat_ofNat_small (a : Nat) (ha : a < 2 ^ 31) : (BitVec.ofNat 32 a).toNat = a := by
  rw [BitVec.toNat_ofNat]; exact Nat.mod_eq_of_lt (by omega)

/-- The signed compare k ≥ i of two small words, widened to 32 bits, is the word of [i ≤ k]. -/
theorem sge_word (k i : Nat) (hk : k < 2 ^ 31) (hi : i < 2 ^ 31) :
    (IntOp.cmpi .sge (BitVec.ofNat 32 k) (BitVec.ofNat 32 i)).setWidth 32 = BitVec.ofNat 32 (if i ≤ k then 1 else 0) := by
  have h := sge_iff_toNat (a := BitVec.ofNat 32 k) (b := BitVec.ofNat 32 i)
    (by rw [toNat_ofNat_small k hk]; exact hk) (by rw [toNat_ofNat_small i hi]; exact hi)
  rw [toNat_ofNat_small k hk, toNat_ofNat_small i hi] at h
  by_cases hik : i ≤ k
  · rw [h.mpr hik, if_pos hik]; rfl
  · rw [eq_zero_of_ne_one (fun hc => hik (h.mp hc)), if_neg hik]; rfl

/-- A small word is not below zero. -/
theorem slt_zero_word (n : Nat) (hn : n < 2 ^ 31) : IntOp.cmpi .slt (BitVec.ofNat 32 n) 0#32 = 0#1 := by
  apply eq_zero_of_ne_one
  intro hc
  have h := (slt_iff_toNat (a := BitVec.ofNat 32 n) (b := 0#32)
    (by rw [toNat_ofNat_small n hn]; exact hn) (by decide)).mp hc
  exact absurd h (Nat.not_lt_zero _)

/-- A small word read signed, then as a natural number, is its value. -/
theorem toInt_toNat_word (n : Nat) (hn : n < 2 ^ 31) : (BitVec.ofNat 32 n).toInt.toNat = n := by
  rw [toInt_ofNat_small n hn]; exact Int.toNat_natCast n

/-! ## A gather of whole rows, read at an element -/

section Rows
variable {α : Type}

/-- The dimension numbers of a gather of whole rows: operand [N, C], start indices the column [n, 1], result [n, C];
    the row axis is collapsed and start-indexed, the feature axis is the one offset axis, slices are 1 × C. -/
abbrev rowDims (N n C : Nat) (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- Such a gather at (p, k) reads the operand at (r, k), r the start index of row p read signed — when that is
    already a row number, where the clamp into [0, N − 1] does nothing. -/
theorem gather_rows_apply {N n C w : Nat}
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (k : Fin C)
    (r : Fin N) (hr : (idx (ix2 p (0 : Fin 1))).toInt.toNat = r.val) :
    Host.gather (rowDims N n C wf) x idx (ix2 p k) = x (ix2 r k) := by
  unfold Host.gather
  congr 1
  funext a
  refine Fin.ext ?_
  match a with
  | ⟨0, _⟩ =>
    show (rowDims N n C wf).start (ix2 p k) idx 0 + (rowDims N n C wf).batchCoord (ix2 p k) 0
      + (rowDims N n C wf).offCoord (ix2 p k) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N n C wf).startIndexMap from List.mem_singleton.mpr rfl)]
    have hsi : (rowDims N n C wf).siIdx (ix2 p k) ⟨List.idxOf (0 : Fin 2) (rowDims N n C wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi, hr]
    show min r.val (N - 1) = r.val
    have := r.isLt
    omega
  | ⟨1, _⟩ =>
    show (rowDims N n C wf).start (ix2 p k) idx 1 + (rowDims N n C wf).batchCoord (ix2 p k) 1
      + (rowDims N n C wf).offCoord (ix2 p k) 1 = k.val
    rw [GatherDims.batchCoord_eq_zero _ _ _ List.not_mem_nil]
    unfold GatherDims.start
    rw [dif_neg (show (1 : Fin 2) ∉ (rowDims N n C wf).startIndexMap from
      fun h => absurd (show (1 : Fin 2) = 0 from List.mem_singleton.mp h) (by decide))]
    simp only [Nat.add_zero, Nat.zero_add]
    unfold GatherDims.offCoord
    rw [dif_pos (show (1 : Fin 2) ∈ (rowDims N n C wf).sKept from
      (GatherDims.mem_sKept _ _).mpr ⟨fun h => absurd (show (1 : Fin 2) = 0 from List.mem_singleton.mp h) (by decide), List.not_mem_nil⟩)]
    rfl

end Rows

/-! ## Two arrays joined along the second axis, read at an element -/

section Join
variable {α : Type}

/-- Left of the first extent the join reads the first array at the same place … -/
theorem join_left {n c₁ c₂ c : Nat} (x₁ : (⟨2, ![n, c₁]⟩ : Shape).Idx → α) (x₂ : (⟨2, ![n, c₂]⟩ : Shape).Idx → α)
    (h : Shape.Concatenates [(⟨2, ![n, c₁]⟩ : Shape), ⟨2, ![n, c₂]⟩] ⟨2, ![n, c]⟩ 1)
    (p : Fin n) (k : Fin c) (hk : k.val < c₁) :
    concatenate ⟨2, ![n, c]⟩ 1 [⟨⟨2, ![n, c₁]⟩, x₁⟩, ⟨⟨2, ![n, c₂]⟩, x₂⟩] h (ix2 p k) = x₁ (ix2 p ⟨k.val, hk⟩) :=
  concatenate_pair_apply_left 1 x₁ x₂ h (ix2 p k) rfl (ix2 p ⟨k.val, hk⟩)
    (fun b => match b with | ⟨0, _⟩ => rfl | ⟨1, _⟩ => rfl)

/-- … and from it on the second array, the first extent less. -/
theorem join_right {n c₁ c₂ c : Nat} (x₁ : (⟨2, ![n, c₁]⟩ : Shape).Idx → α) (x₂ : (⟨2, ![n, c₂]⟩ : Shape).Idx → α)
    (h : Shape.Concatenates [(⟨2, ![n, c₁]⟩ : Shape), ⟨2, ![n, c₂]⟩] ⟨2, ![n, c]⟩ 1)
    (p : Fin n) (k : Fin c) (hk : c₁ ≤ k.val) (hk' : k.val - c₁ < c₂) :
    concatenate ⟨2, ![n, c]⟩ 1 [⟨⟨2, ![n, c₁]⟩, x₁⟩, ⟨⟨2, ![n, c₂]⟩, x₂⟩] h (ix2 p k) = x₂ (ix2 p ⟨k.val - c₁, hk'⟩) :=
  concatenate_pair_apply_right 1 x₁ x₂ h (ix2 p k) rfl rfl (ix2 p ⟨k.val - c₁, hk'⟩)
    (fun b => match b with | ⟨0, _⟩ => fun _ => rfl | ⟨1, _⟩ => fun hb => absurd rfl hb)
    (by show k.val - c₁ + c₁ = k.val; omega)

end Join

/-! ## The integer stages: node numbers within a graph -/

/-- %2, %6, %11: the source position i runs along the first axis of the 16 × 15 table. -/
theorem v2_at (j : S16x1.Idx) : val_main_v2 (F := Ideal) j = BitVec.ofNat 32 (j 0).val :=
  (val_main_v2_apply j).trans (val_main_v1_apply _)
theorem v6_at (j : S16x15.Idx) : val_main_v6 (F := Ideal) j = BitVec.ofNat 32 (j 0).val :=
  (val_main_v6_apply j).trans (v2_at _)
theorem v11_at (j : S16x15.Idx) : val_main_v11 (F := Ideal) j = BitVec.ofNat 32 (j 0).val :=
  (val_main_v11_apply j).trans (v2_at _)

/-- %4, %5, %9: the position k runs along its second axis. -/
theorem v4_at (j : S1x15.Idx) : val_main_v4 (F := Ideal) j = BitVec.ofNat 32 (j 1).val :=
  (val_main_v4_apply j).trans (val_main_v3_apply _)
theorem v5_at (j : S16x15.Idx) : val_main_v5 (F := Ideal) j = BitVec.ofNat 32 (j 1).val :=
  (val_main_v5_apply j).trans (v4_at _)
theorem v9_at (j : S16x15.Idx) : val_main_v9 (F := Ideal) j = BitVec.ofNat 32 (j 1).val :=
  (val_main_v9_apply j).trans (v4_at _)

/-- %8: the step [k ≥ i], as a word. -/
theorem v8_at (j : S16x15.Idx) :
    val_main_v8 (F := Ideal) j = BitVec.ofNat 32 (if (j 0).val ≤ (j 1).val then 1 else 0) := by
  have h0 : (j 0).val < 16 := (j 0).isLt
  have h1 : (j 1).val < 15 := (j 1).isLt
  rw [val_main_v8_apply, val_main_v7_apply, v5_at, v6_at]
  exact sge_word _ _ (by omega) (by omega)

/-- %10: the target k + [k ≥ i]: the diagonal is skipped. -/
theorem v10_at (j : S16x15.Idx) :
    val_main_v10 (F := Ideal) j = BitVec.ofNat 32 ((j 1).val + if (j 0).val ≤ (j 1).val then 1 else 0) := by
  rw [val_main_v10_apply, v9_at, v8_at]
  exact addi_ofNat _ _

/-- %12: edge e = 15·i + k of a graph leaves node i = e / 15 … -/
theorem v12_at (j : S240.Idx) : val_main_v12 (F := Ideal) j = BitVec.ofNat 32 ((j 0).val / 15) :=
  (val_main_v12_apply j).trans (v11_at _)
/-- %13: … for node k + [k ≥ i], k = e % 15. -/
theorem v13_at (j : S240.Idx) :
    val_main_v13 (F := Ideal) j = BitVec.ofNat 32 ((j 0).val % 15 + if (j 0).val / 15 ≤ (j 0).val % 15 then 1 else 0) :=
  (val_main_v13_apply j).trans (v10_at _)

/-! ## The integer stages: global node numbers -/

/-- %16, %17, %20, %25: graph b's first node is 16·b. -/
theorem v16_at (j : S512.Idx) : val_main_v16 (F := Ideal) j = BitVec.ofNat 32 ((j 0).val * 16) := by
  rw [val_main_v16_apply, val_main_v14_apply, val_main_v15_apply, val_main_c_apply]
  exact muli_ofNat _ 16
theorem v17_at (j : S512x1.Idx) : val_main_v17 (F := Ideal) j = BitVec.ofNat 32 ((j 0).val * 16) :=
  (val_main_v17_apply j).trans (v16_at _)
theorem v20_at (j : S512x240.Idx) : val_main_v20 (F := Ideal) j = BitVec.ofNat 32 ((j 0).val * 16) :=
  (val_main_v20_apply j).trans (v17_at _)
theorem v25_at (j : S512x240.Idx) : val_main_v25 (F := Ideal) j = BitVec.ofNat 32 ((j 0).val * 16) :=
  (val_main_v25_apply j).trans (v17_at _)

/-- %19, %24: the per-graph tables repeated for every graph. -/
theorem v19_at (j : S512x240.Idx) : val_main_v19 (F := Ideal) j = BitVec.ofNat 32 ((j 1).val / 15) :=
  ((val_main_v19_apply j).trans (val_main_v18_apply _)).trans (v12_at _)
theorem v24_at (j : S512x240.Idx) :
    val_main_v24 (F := Ideal) j = BitVec.ofNat 32 ((j 1).val % 15 + if (j 1).val / 15 ≤ (j 1).val % 15 then 1 else 0) :=
  ((val_main_v24_apply j).trans (val_main_v23_apply _)).trans (v13_at _)

/-- %21, %26: local node number plus the graph's first node. -/
theorem v21_at (j : S512x240.Idx) :
    val_main_v21 (F := Ideal) j = BitVec.ofNat 32 ((j 1).val / 15 + (j 0).val * 16) := by
  rw [val_main_v21_apply, v19_at, v20_at]
  exact addi_ofNat _ _
theorem v26_at (j : S512x240.Idx) :
    val_main_v26 (F := Ideal) j
      = BitVec.ofNat 32 (((j 1).val % 15 + if (j 1).val / 15 ≤ (j 1).val % 15 then 1 else 0) + (j 0).val * 16) := by
  rw [val_main_v26_apply, v24_at, v25_at]
  exact addi_ofNat _ _

/-- %22, %27: flattened, edge E = 240·b + e has graph b = E / 240 and local edge e = E % 240. -/
theorem v22_at (j : S122880.Idx) :
    val_main_v22 (F := Ideal) j = BitVec.ofNat 32 ((j 0).val % 240 / 15 + (j 0).val / 240 * 16) :=
  (val_main_v22_apply j).trans (v21_at _)
theorem v27_at (j : S122880.Idx) :
    val_main_v27 (F := Ideal) j
      = BitVec.ofNat 32 (((j 0).val % 240 % 15 + if (j 0).val % 240 / 15 ≤ (j 0).val % 240 % 15 then 1 else 0)
          + (j 0).val / 240 * 16) :=
  (val_main_v27_apply j).trans (v26_at _)

/-- %22 at edge 240·b + e: the source's global node number 16·b + rowL e. -/
theorem row_at (b : Fin 512) (e : Fin 240) (j : S122880.Idx) (hj : (j 0).val = 240 * b.val + e.val) :
    val_main_v22 (F := Ideal) j = BitVec.ofNat 32 (16 * b.val + (rowL e).val) := by
  rw [v22_at, hj]
  congr 1
  show (240 * b.val + e.val) % 240 / 15 + (240 * b.val + e.val) / 240 * 16 = 16 * b.val + e.val / 15
  have := e.isLt
  omega

/-- %27 at edge 240·b + e: the target's global node number 16·b + colL e. -/
theorem col_at (b : Fin 512) (e : Fin 240) (j : S122880.Idx) (hj : (j 0).val = 240 * b.val + e.val) :
    val_main_v27 (F := Ideal) j = BitVec.ofNat 32 (16 * b.val + (colL e).val) := by
  have he := e.isLt
  have h1 : (240 * b.val + e.val) % 240 = e.val := by omega
  have h2 : (240 * b.val + e.val) / 240 = b.val := by omega
  rw [v27_at, hj, h1, h2]
  congr 1
  show (e.val % 15 + if e.val / 15 ≤ e.val % 15 then 1 else 0) + b.val * 16
    = 16 * b.val + (e.val % 15 + if e.val / 15 ≤ e.val % 15 then 1 else 0)
  rw [Nat.mul_comm b.val 16, Nat.add_comm]

theorem row_word (b : Fin 512) (e : Fin 240) :
    val_main_v22 (F := Ideal) (ix1 (⟨240 * b.val + e.val, by have := b.isLt; have := e.isLt; omega⟩ : Fin 122880))
      = BitVec.ofNat 32 (16 * b.val + (rowL e).val) :=
  row_at b e _ rfl

theorem col_word (b : Fin 512) (e : Fin 240) :
    val_main_v27 (F := Ideal) (ix1 (⟨240 * b.val + e.val, by have := b.isLt; have := e.isLt; omega⟩ : Fin 122880))
      = BitVec.ofNat 32 (16 * b.val + (colL e).val) :=
  col_at b e _ rfl

/-! ## The wrap of negative indices is never taken -/

/-- A small word is not below zero, so the select keeps it. -/
theorem select_keep (n : Nat) (hn : n < 2 ^ 31) (w : BitVec 32) :
    Scalar.select (IntOp.cmpi .slt (BitVec.ofNat 32 n) 0#32) w (BitVec.ofNat 32 n) = BitVec.ofNat 32 n := by
  rw [slt_zero_word n hn, ValueIdx.select_zero]

/-- %33: the column of source node numbers. -/
theorem v33_at (b : Fin 512) (e : Fin 240) (i : S122880x1.Idx) (hi : (i 0).val = 240 * b.val + e.val) :
    val_main_v33 (F := Ideal) i = BitVec.ofNat 32 (16 * b.val + (rowL e).val) := by
  have hb := b.isLt
  have hr := (rowL e).isLt
  rw [val_main_v33_apply, val_main_v32_apply, val_main_v29_apply, val_main_v28_apply, val_main_c_0_apply,
    row_at b e (idx_main_v33 i) hi]
  exact select_keep _ (by omega) _

/-- %40: the column of target node numbers. -/
theorem v40_at (b : Fin 512) (e : Fin 240) (i : S122880x1.Idx) (hi : (i 0).val = 240 * b.val + e.val) :
    val_main_v40 (F := Ideal) i = BitVec.ofNat 32 (16 * b.val + (colL e).val) := by
  have hb := b.isLt
  have hc := (colL e).isLt
  rw [val_main_v40_apply, val_main_v39_apply, val_main_v36_apply, val_main_v35_apply, val_main_c_2_apply,
    col_at b e (idx_main_v40 i) hi]
  exact select_keep _ (by omega) _

/-! ## The two gathers and their join -/

/-- %0: row 16·b + i of the flattened states is node i of graph b. -/
theorem v0_at (x0 : (⟨S512x16x128, .f32⟩ : BufTy).Contents (Elt Ideal)) (b : Fin 512) (i : Fin 16) (k : Fin 128)
    (r : Fin 8192) (hr : r.val = 16 * b.val + i.val) :
    val_main_v0 (F := Ideal) x0 (ix2 r k) = x0 (ix3 b i k) := by
  have hi := i.isLt
  have hk := k.isLt
  rw [val_main_v0_apply]
  refine congrArg x0 (funext fun a => ?_)
  match a with
  | ⟨0, _⟩ => exact Fin.ext (by show (r.val * 128 + k.val) / 2048 = b.val; omega)
  | ⟨1, _⟩ => exact Fin.ext (by show (r.val * 128 + k.val) / 128 % 16 = i.val; omega)
  | ⟨2, _⟩ => exact Fin.ext (by show (r.val * 128 + k.val) % 128 = k.val; omega)

/-- %34: row E of the first gather is the source node's row. -/
theorem v34_at (x0 : (⟨S512x16x128, .f32⟩ : BufTy).Contents (Elt Ideal)) (b : Fin 512) (e : Fin 240)
    (E : Fin 122880) (hE : E.val = 240 * b.val + e.val) (k : Fin 128) :
    val_main_v34 (F := Ideal) x0 (ix2 E k) = x0 (ix3 b (rowL e) k) := by
  have hb := b.isLt
  have hr := (rowL e).isLt
  unfold val_main_v34
  exact (gather_rows_apply (N := 8192) (n := 122880) (C := 128)
      gather_S8192x128_S122880x1_S122880x128_1_0_n_n_0_1_1128_wf (val_main_v0 (F := Ideal) x0) (val_main_v33 (F := Ideal))
      E k ⟨16 * b.val + (rowL e).val, by omega⟩
      (by rw [v33_at b e _ hE]; exact toInt_toNat_word _ (by omega))).trans
    (v0_at x0 b (rowL e) k _ rfl)

/-- %41: row E of the second gather is the target node's row. -/
theorem v41_at (x0 : (⟨S512x16x128, .f32⟩ : BufTy).Contents (Elt Ideal)) (b : Fin 512) (e : Fin 240)
    (E : Fin 122880) (hE : E.val = 240 * b.val + e.val) (k : Fin 128) :
    val_main_v41 (F := Ideal) x0 (ix2 E k) = x0 (ix3 b (colL e) k) := by
  have hb := b.isLt
  have hc := (colL e).isLt
  unfold val_main_v41
  exact (gather_rows_apply (N := 8192) (n := 122880) (C := 128)
      gather_S8192x128_S122880x1_S122880x128_1_0_n_n_0_1_1128_wf (val_main_v0 (F := Ideal) x0) (val_main_v40 (F := Ideal))
      E k ⟨16 * b.val + (colL e).val, by omega⟩
      (by rw [v40_at b e _ hE]; exact toInt_toNat_word _ (by omega))).trans
    (v0_at x0 b (colL e) k _ rfl)

/-- %42: a row of the joined array is the edge perceptron's input row. -/
theorem edge_at (x0 : (⟨S512x16x128, .f32⟩ : BufTy).Contents (Elt Ideal)) (b : Fin 512) (e : Fin 240)
    (E : Fin 122880) (hE : E.val = 240 * b.val + e.val) (k : Fin 256) :
    val_main_v42 (F := Ideal) x0 (ix2 E k) = edgeIn (fun o k => x0 (ix3 b o k)) e k := by
  have hk256 := k.isLt
  unfold val_main_v42 edgeIn
  by_cases hk : k.val < 128
  · rw [dif_pos hk]
    exact (join_left (val_main_v34 (F := Ideal) x0) (val_main_v41 (F := Ideal) x0)
      concatenates_S122880x128_S122880x128_S122880x256_d1 E k hk).trans (v34_at x0 b e E hE ⟨k.val, hk⟩)
  · rw [dif_neg hk]
    exact (join_right (val_main_v34 (F := Ideal) x0) (val_main_v41 (F := Ideal) x0)
      concatenates_S122880x128_S122880x128_S122880x256_d1 E k (by omega) (by omega)).trans
      (v41_at x0 b e E hE ⟨k.val - 128, by omega⟩)

theorem edge_in (x0 : (⟨S512x16x128, .f32⟩ : BufTy).Contents (Elt Ideal)) (b : Fin 512) (e : Fin 240) (k : Fin 256) :
    val_main_v42 (F := Ideal) x0 (ix2 (⟨240 * b.val + e.val, by have := b.isLt; have := e.isLt; omega⟩ : Fin 122880) k)
      = edgeIn (fun o k => x0 (ix3 b o k)) e k :=
  edge_at x0 b e _ rfl k

end Cert.RefEdgeIn

end
-- ==== Proof.RefEdgeMlp.lean ====
/-
  The reference's edge perceptron, one row at a time. Stages %43 … %80 of the reference carry row E of the
  122,880 × 256 edge input (%42) through affine → relu → affine → layer norm → relu → affine. Read at the entry (E, h),
  every stage is the corresponding function of the specification applied to the row before it, so row E of %80 is the
  specification's `mlp` of row E of %42. Only laws valid on all extended reals are used: 0 + x = x for the initial
  value of the two row sums, and nothing else beyond unfolding.
-/
import proofs.«421245_j18330920419718_1_alg».proof.Proof.Gen.ReferenceIdeal.Read
import proofs.«421245_j18330920419718_1_alg».proof.Proof.Spec
import Idealize.ShloMosaic.Lib.ValueIdx
import Idealize.ShloMosaic.PureOps.Ideal
import Idealize.ShloMosaic.PureOps.Ideal.Laws
import Mathlib.Algebra.BigOperators.Fin

noncomputable section

namespace Cert.RefEdgeMlp

open Cert.ReferenceIdeal Cert.ReferenceIdeal.Gen Cert.ReferenceIdeal.Read Cert.GnnSpec Idealize.ShloMosaic Idealize.ShloMosaic.ValueIdx

/-! ## Index equations: the stages' index functions at the entry (E, h) -/

/-- The first product's left factor sits in row E, column k of the edge input. -/
theorem lidx43 (E : Fin 122880) (h : Fin 512) (k : Fin 256) : lidx_main_v43 (ix2 E h) k = ix2 E k :=
  funext fun a => by match a with | ⟨0, _⟩ => rfl | ⟨1, _⟩ => rfl
/-- … and its right factor in row k, column h of the first weight matrix. -/
theorem ridx43 (E : Fin 122880) (h : Fin 512) (k : Fin 256) : ridx_main_v43 (ix2 E h) k = ix2 k h :=
  funext fun a => by match a with | ⟨0, _⟩ => rfl | ⟨1, _⟩ => rfl
/-- The second product's factors: row E, column k of the layer before; row k, column h of the weights. -/
theorem lidx48 (E : Fin 122880) (h k : Fin 512) : lidx_main_v48 (ix2 E h) k = ix2 E k :=
  funext fun a => by match a with | ⟨0, _⟩ => rfl | ⟨1, _⟩ => rfl
theorem ridx48 (E : Fin 122880) (h k : Fin 512) : ridx_main_v48 (ix2 E h) k = ix2 k h :=
  funext fun a => by match a with | ⟨0, _⟩ => rfl | ⟨1, _⟩ => rfl
/-- The third product's factors. -/
theorem lidx77 (E : Fin 122880) (h k : Fin 512) : lidx_main_v77 (ix2 E h) k = ix2 E k :=
  funext fun a => by match a with | ⟨0, _⟩ => rfl | ⟨1, _⟩ => rfl
theorem ridx77 (E : Fin 122880) (h k : Fin 512) : ridx_main_v77 (ix2 E h) k = ix2 k h :=
  funext fun a => by match a with | ⟨0, _⟩ => rfl | ⟨1, _⟩ => rfl
/-- The two row sums run over the entries (E, k) of row E. -/
theorem idx52 (E : Fin 122880) (k : Fin 512) : idx_main_v52 (ix1 E) k = ix2 E k :=
  funext fun a => by match a with | ⟨0, _⟩ => rfl | ⟨1, _⟩ => rfl
theorem idx59 (E : Fin 122880) (k : Fin 512) : idx_main_v59 (ix1 E) k = ix2 E k :=
  funext fun a => by match a with | ⟨0, _⟩ => rfl | ⟨1, _⟩ => rfl
/-- A row sum kept as a one-entry column is read at its row. -/
theorem idx53 (E : Fin 122880) : idx_main_v53 (ix2 E (0 : Fin 1)) = ix1 E :=
  funext fun a => by match a with | ⟨0, _⟩ => rfl
theorem idx60 (E : Fin 122880) : idx_main_v60 (ix2 E (0 : Fin 1)) = ix1 E :=
  funext fun a => by match a with | ⟨0, _⟩ => rfl
/-- A one-entry column spread along a row is read at its one entry. -/
theorem idx56 (E : Fin 122880) (h : Fin 512) : idx_main_v56 (ix2 E h) = ix2 E (0 : Fin 1) :=
  funext fun a => by match a with | ⟨0, _⟩ => rfl | ⟨1, _⟩ => rfl
theorem idx63 (E : Fin 122880) (h : Fin 512) : idx_main_v63 (ix2 E h) = ix2 E (0 : Fin 1) :=
  funext fun a => by match a with | ⟨0, _⟩ => rfl | ⟨1, _⟩ => rfl
theorem idx68 (E : Fin 122880) (h : Fin 512) : idx_main_v68 (ix2 E h) = ix2 E (0 : Fin 1) :=
  funext fun a => by match a with | ⟨0, _⟩ => rfl | ⟨1, _⟩ => rfl

/-! ## The per-column vectors (biases, scale, shift) spread over the rows, and the literals -/

section Rows

variable {x0 : (⟨S512x16x128, .f32⟩ : BufTy).Contents (Elt Ideal)} {x2 : (⟨S256x512, .f32⟩ : BufTy).Contents (Elt Ideal)}
  {x3 : (⟨S512, .f32⟩ : BufTy).Contents (Elt Ideal)} {x4 : (⟨S512x512, .f32⟩ : BufTy).Contents (Elt Ideal)}
  {x5 x6 x7 : (⟨S512, .f32⟩ : BufTy).Contents (Elt Ideal)} {x8 : (⟨S512x512, .f32⟩ : BufTy).Contents (Elt Ideal)}
  {x9 : (⟨S512, .f32⟩ : BufTy).Contents (Elt Ideal)} {E : Fin 122880}

/-- The first bias, spread over the rows, is b₁ h at (E, h). -/
theorem bias1_at (x3 : (⟨S512, .f32⟩ : BufTy).Contents (Elt Ideal)) (E : Fin 122880) (h : Fin 512) :
    val_main_v45 (F := Ideal) x3 (ix2 E h) = x3 (ix1 h) := by
  rw [val_main_v45_apply, val_main_v44_apply]
  exact congrArg x3 (funext fun a => by match a with | ⟨0, _⟩ => rfl)
/-- The second bias. -/
theorem bias2_at (x5 : (⟨S512, .f32⟩ : BufTy).Contents (Elt Ideal)) (E : Fin 122880) (h : Fin 512) :
    val_main_v50 (F := Ideal) x5 (ix2 E h) = x5 (ix1 h) := by
  rw [val_main_v50_apply, val_main_v49_apply]
  exact congrArg x5 (funext fun a => by match a with | ⟨0, _⟩ => rfl)
/-- The layer norm's scale. -/
theorem scale_at (x6 : (⟨S512, .f32⟩ : BufTy).Contents (Elt Ideal)) (E : Fin 122880) (h : Fin 512) :
    val_main_v71 (F := Ideal) x6 (ix2 E h) = x6 (ix1 h) := by
  rw [val_main_v71_apply, val_main_v70_apply]
  exact congrArg x6 (funext fun a => by match a with | ⟨0, _⟩ => rfl)
/-- The layer norm's shift. -/
theorem shift_at (x7 : (⟨S512, .f32⟩ : BufTy).Contents (Elt Ideal)) (E : Fin 122880) (h : Fin 512) :
    val_main_v74 (F := Ideal) x7 (ix2 E h) = x7 (ix1 h) := by
  rw [val_main_v74_apply, val_main_v73_apply]
  exact congrArg x7 (funext fun a => by match a with | ⟨0, _⟩ => rfl)
/-- The third bias. -/
theorem bias3_at (x9 : (⟨S512, .f32⟩ : BufTy).Contents (Elt Ideal)) (E : Fin 122880) (h : Fin 512) :
    val_main_v79 (F := Ideal) x9 (ix2 E h) = x9 (ix1 h) := by
  rw [val_main_v79_apply, val_main_v78_apply]
  exact congrArg x9 (funext fun a => by match a with | ⟨0, _⟩ => rfl)

/-- The first relu's zero, spread over the whole array. -/
theorem zero1_at (E : Fin 122880) (h : Fin 512) : val_main_call0_v0 (F := Ideal) (ix2 E h) = zeroF :=
  (val_main_call0_v0_apply _).trans (val_main_call0_cst_apply _)
/-- The second relu's zero. -/
theorem zero2_at (E : Fin 122880) (h : Fin 512) : val_main_call1_v0 (F := Ideal) (ix2 E h) = zeroF :=
  (val_main_call1_v0_apply _).trans (val_main_call1_cst_apply _)
/-- The two divisors 512 and the epsilon, as one-entry columns. -/
theorem n1_at (E : Fin 122880) : val_main_v54 (F := Ideal) (ix2 E (0 : Fin 1)) = nF :=
  (val_main_v54_apply _).trans (val_main_cst_4_apply _)
theorem n2_at (E : Fin 122880) : val_main_v61 (F := Ideal) (ix2 E (0 : Fin 1)) = nF :=
  (val_main_v61_apply _).trans (val_main_cst_6_apply _)
theorem eps_at (E : Fin 122880) : val_main_v65 (F := Ideal) (ix2 E (0 : Fin 1)) = epsF :=
  (val_main_v65_apply _).trans (val_main_cst_7_apply _)

/-! ## The stages, each as a function of the row before it -/

/-- %46: the first affine layer of row E of the edge input. -/
theorem lin1_at (x0 : (⟨S512x16x128, .f32⟩ : BufTy).Contents (Elt Ideal)) (x2 : (⟨S256x512, .f32⟩ : BufTy).Contents (Elt Ideal))
    (x3 : (⟨S512, .f32⟩ : BufTy).Contents (Elt Ideal)) (E : Fin 122880) (h : Fin 512) :
    val_main_v46 (F := Ideal) x0 x2 x3 (ix2 E h)
      = lin (fun k h => x2 (ix2 k h)) (fun h => x3 (ix1 h)) (fun k => val_main_v42 (F := Ideal) x0 (ix2 E k)) h := by
  unfold lin
  rw [val_main_v46_apply, val_main_v43_apply, bias1_at, Ideal.addf_def]
  refine congrArg (· + x3 (ix1 h)) (Finset.sum_congr rfl fun k _ => ?_)
  rw [lidx43, ridx43]

/-- %47: relu of the row before. -/
theorem relu1_at (R : Fin 512 → EReal) (hR : ∀ q, val_main_v46 (F := Ideal) x0 x2 x3 (ix2 E q) = R q) (h : Fin 512) :
    val_main_v47 (F := Ideal) x0 x2 x3 (ix2 E h) = relu R h := by
  unfold relu
  rw [val_main_v47_apply, hR, zero1_at, Ideal.maximumf_def]

/-- %51: the second affine layer of the row before. -/
theorem lin2_at (x4 : (⟨S512x512, .f32⟩ : BufTy).Contents (Elt Ideal)) (x5 : (⟨S512, .f32⟩ : BufTy).Contents (Elt Ideal))
    (R : Fin 512 → EReal) (hR : ∀ q, val_main_v47 (F := Ideal) x0 x2 x3 (ix2 E q) = R q) (h : Fin 512) :
    val_main_v51 (F := Ideal) x0 x2 x3 x4 x5 (ix2 E h) = lin (fun k h => x4 (ix2 k h)) (fun h => x5 (ix1 h)) R h := by
  unfold lin
  rw [val_main_v51_apply, val_main_v48_apply, bias2_at, Ideal.addf_def]
  refine congrArg (· + x5 (ix1 h)) (Finset.sum_congr rfl fun k _ => ?_)
  rw [lidx48, ridx48, hR]

/-- %52: the sum of row E; the initial value is the zero word, and 0 + x = x. -/
theorem sum1_at (R : Fin 512 → EReal) (hR : ∀ q, val_main_v51 (F := Ideal) x0 x2 x3 x4 x5 (ix2 E q) = R q) :
    val_main_v52 (F := Ideal) x0 x2 x3 x4 x5 (ix1 E) = ∑ k : Fin 512, R k := by
  rw [val_main_v52_apply, val_main_cst_apply, Ideal.ofBits_def, Ideal.ofBits_zero_f32, zero_add]
  refine Finset.sum_congr rfl fun k _ => ?_
  rw [idx52, hR]

/-- %55: the mean of row E, kept as a one-entry column. -/
theorem mean_at (R : Fin 512 → EReal) (hR : ∀ q, val_main_v51 (F := Ideal) x0 x2 x3 x4 x5 (ix2 E q) = R q) :
    val_main_v55 (F := Ideal) x0 x2 x3 x4 x5 (ix2 E (0 : Fin 1)) = mean R := by
  unfold mean
  rw [val_main_v55_apply, val_main_v53_apply, idx53, sum1_at R hR, n1_at, Ideal.hostDivf_def]

/-- %57: the row minus its mean. -/
theorem center1_at (R : Fin 512 → EReal) (hR : ∀ q, val_main_v51 (F := Ideal) x0 x2 x3 x4 x5 (ix2 E q) = R q) (h : Fin 512) :
    val_main_v57 (F := Ideal) x0 x2 x3 x4 x5 (ix2 E h) = R h - mean R := by
  rw [val_main_v57_apply, hR, val_main_v56_apply, idx56, mean_at R hR, Ideal.subf_def]

/-- %58: its square. -/
theorem sq_at (R : Fin 512 → EReal) (hR : ∀ q, val_main_v51 (F := Ideal) x0 x2 x3 x4 x5 (ix2 E q) = R q) (h : Fin 512) :
    val_main_v58 (F := Ideal) x0 x2 x3 x4 x5 (ix2 E h) = (R h - mean R) * (R h - mean R) := by
  rw [val_main_v58_apply, center1_at R hR, Ideal.mulf_def]

/-- %59: the sum of the squares of row E, again with 0 + x = x. -/
theorem sum2_at (S : Fin 512 → EReal) (hS : ∀ q, val_main_v58 (F := Ideal) x0 x2 x3 x4 x5 (ix2 E q) = S q) :
    val_main_v59 (F := Ideal) x0 x2 x3 x4 x5 (ix1 E) = ∑ k : Fin 512, S k := by
  rw [val_main_v59_apply, val_main_cst_5_apply, Ideal.ofBits_def, Ideal.ofBits_zero_f32, zero_add]
  refine Finset.sum_congr rfl fun k _ => ?_
  rw [idx59, hS]

/-- %62: the variance of row E, the mean of the squares. -/
theorem var_at (R : Fin 512 → EReal) (hR : ∀ q, val_main_v51 (F := Ideal) x0 x2 x3 x4 x5 (ix2 E q) = R q) :
    val_main_v62 (F := Ideal) x0 x2 x3 x4 x5 (ix2 E (0 : Fin 1)) = mean (fun k => (R k - mean R) * (R k - mean R)) := by
  rw [val_main_v62_apply, val_main_v60_apply, idx60, sum2_at (fun k => (R k - mean R) * (R k - mean R)) (sq_at R hR), n2_at,
    Ideal.hostDivf_def]
  rfl

/-- %67: the reciprocal square root of variance plus epsilon. -/
theorem rstd_at (R : Fin 512 → EReal) (hR : ∀ q, val_main_v51 (F := Ideal) x0 x2 x3 x4 x5 (ix2 E q) = R q) :
    val_main_v67 (F := Ideal) x0 x2 x3 x4 x5 (ix2 E (0 : Fin 1))
      = Ideal.rsqrt (mean (fun k => (R k - mean R) * (R k - mean R)) + epsF) := by
  rw [val_main_v67_apply, val_main_v66_apply, var_at R hR, eps_at, Ideal.addf_def, Ideal.hostUnary_rsqrt_def]

/-- %64: the row minus its mean, once more. -/
theorem center2_at (R : Fin 512 → EReal) (hR : ∀ q, val_main_v51 (F := Ideal) x0 x2 x3 x4 x5 (ix2 E q) = R q) (h : Fin 512) :
    val_main_v64 (F := Ideal) x0 x2 x3 x4 x5 (ix2 E h) = R h - mean R := by
  rw [val_main_v64_apply, hR, val_main_v63_apply, idx63, mean_at R hR, Ideal.subf_def]

/-- %75: the layer norm of the row before, (x − μ) · rsqrt(var + ε) · g + β. -/
theorem lnorm_at (x6 x7 : (⟨S512, .f32⟩ : BufTy).Contents (Elt Ideal))
    (R : Fin 512 → EReal) (hR : ∀ q, val_main_v51 (F := Ideal) x0 x2 x3 x4 x5 (ix2 E q) = R q) (h : Fin 512) :
    val_main_v75 (F := Ideal) x0 x2 x3 x4 x5 x6 x7 (ix2 E h) = lnorm (fun h => x6 (ix1 h)) (fun h => x7 (ix1 h)) R h := by
  unfold lnorm
  rw [val_main_v75_apply, val_main_v72_apply, val_main_v69_apply, center2_at R hR, val_main_v68_apply, idx68, rstd_at R hR,
    scale_at, shift_at, Ideal.mulf_def, Ideal.mulf_def, Ideal.addf_def]

/-- %76: relu of the row before. -/
theorem relu2_at (R : Fin 512 → EReal) (hR : ∀ q, val_main_v75 (F := Ideal) x0 x2 x3 x4 x5 x6 x7 (ix2 E q) = R q) (h : Fin 512) :
    val_main_v76 (F := Ideal) x0 x2 x3 x4 x5 x6 x7 (ix2 E h) = relu R h := by
  unfold relu
  rw [val_main_v76_apply, hR, zero2_at, Ideal.maximumf_def]

/-- %80: the third affine layer of the row before. -/
theorem lin3_at (x8 : (⟨S512x512, .f32⟩ : BufTy).Contents (Elt Ideal)) (x9 : (⟨S512, .f32⟩ : BufTy).Contents (Elt Ideal))
    (R : Fin 512 → EReal) (hR : ∀ q, val_main_v76 (F := Ideal) x0 x2 x3 x4 x5 x6 x7 (ix2 E q) = R q) (h : Fin 512) :
    val_main_v80 (F := Ideal) x0 x2 x3 x4 x5 x6 x7 x8 x9 (ix2 E h) = lin (fun k h => x8 (ix2 k h)) (fun h => x9 (ix1 h)) R h := by
  unfold lin
  rw [val_main_v80_apply, val_main_v77_apply, bias3_at, Ideal.addf_def]
  refine congrArg (· + x9 (ix1 h)) (Finset.sum_congr rfl fun k _ => ?_)
  rw [lidx77, ridx77, hR]

end Rows

/-! ## The edge perceptron -/

/-- Row E of %80 is the specification's three-layer perceptron of row E of %42, with the reference's weight arrays read
    entry by entry. -/
theorem edge_mlp (x0 : (⟨S512x16x128, .f32⟩ : BufTy).Contents (Elt Ideal)) (x2 : (⟨S256x512, .f32⟩ : BufTy).Contents (Elt Ideal))
    (x3 : (⟨S512, .f32⟩ : BufTy).Contents (Elt Ideal)) (x4 : (⟨S512x512, .f32⟩ : BufTy).Contents (Elt Ideal))
    (x5 x6 x7 : (⟨S512, .f32⟩ : BufTy).Contents (Elt Ideal)) (x8 : (⟨S512x512, .f32⟩ : BufTy).Contents (Elt Ideal))
    (x9 : (⟨S512, .f32⟩ : BufTy).Contents (Elt Ideal)) (E : Fin 122880) (h : Fin 512) :
    val_main_v80 (F := Ideal) x0 x2 x3 x4 x5 x6 x7 x8 x9 (ix2 E h)
      = mlp (fun k h => x2 (ix2 k h)) (fun h => x3 (ix1 h)) (fun k h => x4 (ix2 k h)) (fun h => x5 (ix1 h)) (fun h => x6 (ix1 h))
          (fun h => x7 (ix1 h)) (fun k h => x8 (ix2 k h)) (fun h => x9 (ix1 h)) (fun k => val_main_v42 (F := Ideal) x0 (ix2 E k)) h := by
  unfold mlp
  exact lin3_at x8 x9 _ (relu2_at _ (lnorm_at x6 x7 _ (lin2_at x4 x5 _ (relu1_at _ (lin1_at x0 x2 x3 E))))) h

end Cert.RefEdgeMlp

end
-- ==== Proof.RefNodeMlp.lean ====
/-
  The reference's node perceptron read at one element. Stages %88 … %125 of @main take row r of %87 (a node's input row:
  its features, its action slice, its aggregated edge results; 644 entries) through
  affine → relu → affine → layer norm → relu → affine on each of the 8,192 rows, and the final reshape %126 sends row
  16·b + o to the place (b, o). Every stage is read at the coordinates (r, q) and named by the specification's
  `lin`, `relu`, `mean`, `lnorm`; the result row is the specification's `mlp` of row r of %87.
  The only law of the extended reals used is 0 + x = x, for the initial value of the two row sums of the layer norm.
-/
import proofs.«421245_j18330920419718_1_alg».proof.Proof.Gen.ReferenceIdeal.Read
import proofs.«421245_j18330920419718_1_alg».proof.Proof.Spec
import Idealize.ShloMosaic.Lib.ValueIdx
import Idealize.ShloMosaic.PureOps.Ideal
import Idealize.ShloMosaic.PureOps.Ideal.Laws
import Mathlib.Algebra.BigOperators.Fin

noncomputable section

namespace Cert.RefNodeMlp

open Cert.ReferenceIdeal Cert.ReferenceIdeal.Gen Cert.ReferenceIdeal.Read Cert.GnnSpec Idealize.ShloMosaic Idealize.ShloMosaic.ValueIdx

/-! ## The stages' index maps at coordinates

A product of matrices reads its left factor at (r, j) and its right factor at (j, h); a bias row broadcast over the
8,192 rows is read at h; a row sum reads (r, k); a column [8192, 1] broadcast over 512 entries is read at (r, 0);
the reshape [8192, 128] → [512, 16, 128] reads row 16·b + o. -/

theorem lidx88_at (r : Fin 8192) (h : Fin 512) (j : Fin 644) : lidx_main_v88 (ix2 r h) j = ix2 r j :=
  funext fun a => Fin.ext (by match a with | ⟨0, _⟩ => rfl | ⟨1, _⟩ => rfl)
theorem ridx88_at (r : Fin 8192) (h : Fin 512) (j : Fin 644) : ridx_main_v88 (ix2 r h) j = ix2 j h :=
  funext fun a => Fin.ext (by match a with | ⟨0, _⟩ => rfl | ⟨1, _⟩ => rfl)
theorem bias90_at (r : Fin 8192) (h : Fin 512) : idx_main_v89 (idx_main_v90 (ix2 r h)) = ix1 h :=
  funext fun a => Fin.ext (by match a with | ⟨0, _⟩ => rfl)
theorem lidx93_at (r : Fin 8192) (h : Fin 512) (k : Fin 512) : lidx_main_v93 (ix2 r h) k = ix2 r k :=
  funext fun a => Fin.ext (by match a with | ⟨0, _⟩ => rfl | ⟨1, _⟩ => rfl)
theorem ridx93_at (r : Fin 8192) (h : Fin 512) (k : Fin 512) : ridx_main_v93 (ix2 r h) k = ix2 k h :=
  funext fun a => Fin.ext (by match a with | ⟨0, _⟩ => rfl | ⟨1, _⟩ => rfl)
theorem bias95_at (r : Fin 8192) (h : Fin 512) : idx_main_v94 (idx_main_v95 (ix2 r h)) = ix1 h :=
  funext fun a => Fin.ext (by match a with | ⟨0, _⟩ => rfl)
theorem idx97_at (r : Fin 8192) (k : Fin 512) : idx_main_v97 (ix1 r) k = ix2 r k :=
  funext fun a => Fin.ext (by match a with | ⟨0, _⟩ => rfl | ⟨1, _⟩ => rfl)
theorem idx98_at (r : Fin 8192) : idx_main_v98 (ix2 r (0 : Fin 1)) = ix1 r :=
  funext fun a => Fin.ext (by match a with | ⟨0, _⟩ => rfl)
theorem idx101_at (r : Fin 8192) (h : Fin 512) : idx_main_v101 (ix2 r h) = ix2 r (0 : Fin 1) :=
  funext fun a => Fin.ext (by match a with | ⟨0, _⟩ => rfl | ⟨1, _⟩ => rfl)
theorem idx104_at (r : Fin 8192) (k : Fin 512) : idx_main_v104 (ix1 r) k = ix2 r k :=
  funext fun a => Fin.ext (by match a with | ⟨0, _⟩ => rfl | ⟨1, _⟩ => rfl)
theorem idx105_at (r : Fin 8192) : idx_main_v105 (ix2 r (0 : Fin 1)) = ix1 r :=
  funext fun a => Fin.ext (by match a with | ⟨0, _⟩ => rfl)
theorem idx108_at (r : Fin 8192) (h : Fin 512) : idx_main_v108 (ix2 r h) = ix2 r (0 : Fin 1) :=
  funext fun a => Fin.ext (by match a with | ⟨0, _⟩ => rfl | ⟨1, _⟩ => rfl)
theorem idx113_at (r : Fin 8192) (h : Fin 512) : idx_main_v113 (ix2 r h) = ix2 r (0 : Fin 1) :=
  funext fun a => Fin.ext (by match a with | ⟨0, _⟩ => rfl | ⟨1, _⟩ => rfl)
theorem bias116_at (r : Fin 8192) (h : Fin 512) : idx_main_v115 (idx_main_v116 (ix2 r h)) = ix1 h :=
  funext fun a => Fin.ext (by match a with | ⟨0, _⟩ => rfl)
theorem bias119_at (r : Fin 8192) (h : Fin 512) : idx_main_v118 (idx_main_v119 (ix2 r h)) = ix1 h :=
  funext fun a => Fin.ext (by match a with | ⟨0, _⟩ => rfl)
theorem lidx122_at (r : Fin 8192) (q : Fin 128) (k : Fin 512) : lidx_main_v122 (ix2 r q) k = ix2 r k :=
  funext fun a => Fin.ext (by match a with | ⟨0, _⟩ => rfl | ⟨1, _⟩ => rfl)
theorem ridx122_at (r : Fin 8192) (q : Fin 128) (k : Fin 512) : ridx_main_v122 (ix2 r q) k = ix2 k q :=
  funext fun a => Fin.ext (by match a with | ⟨0, _⟩ => rfl | ⟨1, _⟩ => rfl)
theorem bias124_at (r : Fin 8192) (q : Fin 128) : idx_main_v123 (idx_main_v124 (ix2 r q)) = ix1 q :=
  funext fun a => Fin.ext (by match a with | ⟨0, _⟩ => rfl)

/-- The reshape reads the place (b, o, k) of the result at row 16·b + o, entry k: ((16·b + o)·128 + k) / 128 = 16·b + o
    and ((16·b + o)·128 + k) % 128 = k, since k < 128. -/
theorem idx126_at (b : Fin 512) (o : Fin 16) (k : Fin 128) :
    idx_main_v126 (ix3 b o k) = ix2 (⟨16 * b.val + o.val, by have := b.isLt; have := o.isLt; omega⟩ : Fin 8192) k :=
  funext fun a => Fin.ext (by
    match a with
    | ⟨0, _⟩ =>
      show ((b.val * 16 + o.val) * 128 + k.val) / 128 = 16 * b.val + o.val
      have := k.isLt; omega
    | ⟨1, _⟩ =>
      show ((b.val * 16 + o.val) * 128 + k.val) % 128 = k.val
      have := k.isLt; omega)

section Stages

variable (x0 : (⟨S512x16x128, .f32⟩ : BufTy).Contents (Elt Ideal)) (x1 : (⟨S512, .i32⟩ : BufTy).Contents (Elt Ideal))
  (x2 : (⟨S256x512, .f32⟩ : BufTy).Contents (Elt Ideal)) (x3 : (⟨S512, .f32⟩ : BufTy).Contents (Elt Ideal))
  (x4 : (⟨S512x512, .f32⟩ : BufTy).Contents (Elt Ideal)) (x5 x6 x7 : (⟨S512, .f32⟩ : BufTy).Contents (Elt Ideal))
  (x8 : (⟨S512x512, .f32⟩ : BufTy).Contents (Elt Ideal)) (x9 : (⟨S512, .f32⟩ : BufTy).Contents (Elt Ideal))
  (x10 : (⟨S644x512, .f32⟩ : BufTy).Contents (Elt Ideal)) (x11 : (⟨S512, .f32⟩ : BufTy).Contents (Elt Ideal))
  (x12 : (⟨S512x512, .f32⟩ : BufTy).Contents (Elt Ideal)) (x13 x14 x15 : (⟨S512, .f32⟩ : BufTy).Contents (Elt Ideal))
  (x16 : (⟨S512x128, .f32⟩ : BufTy).Contents (Elt Ideal)) (x17 : (⟨S128, .f32⟩ : BufTy).Contents (Elt Ideal))

/-! ## First affine layer and relu -/

/-- %88 at (r, h): the sum over the 644 entries j of row r of %87 times the weight at (j, h). -/
theorem v88_at (r : Fin 8192) (h : Fin 512) :
    val_main_v88 (F := Ideal) x0 x1 x2 x3 x4 x5 x6 x7 x8 x9 x10 (ix2 r h)
      = ∑ j : Fin 644, val_main_v87 (F := Ideal) x0 x1 x2 x3 x4 x5 x6 x7 x8 x9 (ix2 r j) * x10 (ix2 j h) := by
  rw [val_main_v88_apply]
  exact Finset.sum_congr rfl fun j _ => by rw [lidx88_at, ridx88_at]

/-- %91 at (r, h): the first affine layer applied to row r of %87. -/
theorem v91_row (r : Fin 8192) (h : Fin 512) :
    val_main_v91 (F := Ideal) x0 x1 x2 x3 x4 x5 x6 x7 x8 x9 x10 x11 (ix2 r h)
      = lin (fun k h => x10 (ix2 k h)) (fun h => x11 (ix1 h))
          (fun j => val_main_v87 (F := Ideal) x0 x1 x2 x3 x4 x5 x6 x7 x8 x9 (ix2 r j)) h := by
  rw [val_main_v91_apply, val_main_v90_apply, val_main_v89_apply, bias90_at, v88_at]
  rfl

/-- %92 at (r, h): the maximum with zero of the row R that %91 is on row r. -/
theorem v92_row (r : Fin 8192) (R : Fin 512 → EReal)
    (hR : ∀ q, val_main_v91 (F := Ideal) x0 x1 x2 x3 x4 x5 x6 x7 x8 x9 x10 x11 (ix2 r q) = R q) (h : Fin 512) :
    val_main_v92 (F := Ideal) x0 x1 x2 x3 x4 x5 x6 x7 x8 x9 x10 x11 (ix2 r h) = relu R h := by
  rw [val_main_v92_apply, val_main_call3_v0_apply, hR]
  rfl

/-! ## Second affine layer -/

/-- %93 at (r, h): the sum over k of %92 at (r, k) times the weight at (k, h). -/
theorem v93_at (r : Fin 8192) (h : Fin 512) :
    val_main_v93 (F := Ideal) x0 x1 x2 x3 x4 x5 x6 x7 x8 x9 x10 x11 x12 (ix2 r h)
      = ∑ k : Fin 512, val_main_v92 (F := Ideal) x0 x1 x2 x3 x4 x5 x6 x7 x8 x9 x10 x11 (ix2 r k) * x12 (ix2 k h) := by
  rw [val_main_v93_apply]
  exact Finset.sum_congr rfl fun k _ => by rw [lidx93_at, ridx93_at]

/-- %96 at (r, h): the second affine layer applied to the row R that %92 is on row r. -/
theorem v96_row (r : Fin 8192) (R : Fin 512 → EReal)
    (hR : ∀ q, val_main_v92 (F := Ideal) x0 x1 x2 x3 x4 x5 x6 x7 x8 x9 x10 x11 (ix2 r q) = R q) (h : Fin 512) :
    val_main_v96 (F := Ideal) x0 x1 x2 x3 x4 x5 x6 x7 x8 x9 x10 x11 x12 x13 (ix2 r h)
      = lin (fun k h => x12 (ix2 k h)) (fun h => x13 (ix1 h)) R h := by
  rw [val_main_v96_apply, val_main_v95_apply, val_main_v94_apply, bias95_at, v93_at]
  simp only [hR]
  rfl

/-! ## Layer norm of the row R that %96 is on row r -/

section LayerNorm

variable (r : Fin 8192) (R : Fin 512 → EReal)
  (hR : ∀ q, val_main_v96 (F := Ideal) x0 x1 x2 x3 x4 x5 x6 x7 x8 x9 x10 x11 x12 x13 (ix2 r q) = R q)
include hR

/-- %97 at r: the sum of the row (the initial value of the sum is zero, and 0 + x = x). -/
theorem v97_row : val_main_v97 (F := Ideal) x0 x1 x2 x3 x4 x5 x6 x7 x8 x9 x10 x11 x12 x13 (ix1 r) = ∑ k : Fin 512, R k := by
  rw [val_main_v97_apply, val_main_cst_9_apply, Ideal.ofBits_def, Ideal.ofBits_zero_f32, zero_add]
  exact Finset.sum_congr rfl fun k _ => by rw [idx97_at, hR]

/-- %100 at (r, 0): the mean of the row, its sum divided by the literal 512. -/
theorem v100_row : val_main_v100 (F := Ideal) x0 x1 x2 x3 x4 x5 x6 x7 x8 x9 x10 x11 x12 x13 (ix2 r (0 : Fin 1)) = mean R := by
  rw [val_main_v100_apply, val_main_v99_apply, val_main_cst_10_apply, val_main_v98_apply, idx98_at,
    v97_row x0 x1 x2 x3 x4 x5 x6 x7 x8 x9 x10 x11 x12 x13 r R hR]
  rfl

/-- %102 at (r, h): the entry minus the mean. -/
theorem v102_row (h : Fin 512) : val_main_v102 (F := Ideal) x0 x1 x2 x3 x4 x5 x6 x7 x8 x9 x10 x11 x12 x13 (ix2 r h) = R h - mean R := by
  rw [val_main_v102_apply, Ideal.subf_def, val_main_v101_apply, idx101_at, v100_row x0 x1 x2 x3 x4 x5 x6 x7 x8 x9 x10 x11 x12 x13 r R hR, hR]

/-- %103 at (r, h): the square of the entry minus the mean. -/
theorem v103_row (h : Fin 512) :
    val_main_v103 (F := Ideal) x0 x1 x2 x3 x4 x5 x6 x7 x8 x9 x10 x11 x12 x13 (ix2 r h) = (R h - mean R) * (R h - mean R) := by
  rw [val_main_v103_apply, Ideal.mulf_def, v102_row x0 x1 x2 x3 x4 x5 x6 x7 x8 x9 x10 x11 x12 x13 r R hR]

/-- %104 at r: the sum of the squares (again 0 + x = x for the initial value). -/
theorem v104_row :
    val_main_v104 (F := Ideal) x0 x1 x2 x3 x4 x5 x6 x7 x8 x9 x10 x11 x12 x13 (ix1 r) = ∑ k : Fin 512, (R k - mean R) * (R k - mean R) := by
  rw [val_main_v104_apply, val_main_cst_11_apply, Ideal.ofBits_def, Ideal.ofBits_zero_f32, zero_add]
  exact Finset.sum_congr rfl fun k _ => by rw [idx104_at, v103_row x0 x1 x2 x3 x4 x5 x6 x7 x8 x9 x10 x11 x12 x13 r R hR]

/-- %107 at (r, 0): the variance, the mean of the squares. -/
theorem v107_row :
    val_main_v107 (F := Ideal) x0 x1 x2 x3 x4 x5 x6 x7 x8 x9 x10 x11 x12 x13 (ix2 r (0 : Fin 1)) = mean (fun k => (R k - mean R) * (R k - mean R)) := by
  rw [val_main_v107_apply, val_main_v106_apply, val_main_cst_12_apply, val_main_v105_apply, idx105_at,
    v104_row x0 x1 x2 x3 x4 x5 x6 x7 x8 x9 x10 x11 x12 x13 r R hR]
  rfl

/-- %109 at (r, h): the entry minus the mean, once more (the mean broadcast a second time). -/
theorem v109_row (h : Fin 512) : val_main_v109 (F := Ideal) x0 x1 x2 x3 x4 x5 x6 x7 x8 x9 x10 x11 x12 x13 (ix2 r h) = R h - mean R := by
  rw [val_main_v109_apply, Ideal.subf_def, val_main_v108_apply, idx108_at, v100_row x0 x1 x2 x3 x4 x5 x6 x7 x8 x9 x10 x11 x12 x13 r R hR, hR]

/-- %112 at (r, 0): the reciprocal square root of the variance plus the literal epsilon. -/
theorem v112_row :
    val_main_v112 (F := Ideal) x0 x1 x2 x3 x4 x5 x6 x7 x8 x9 x10 x11 x12 x13 (ix2 r (0 : Fin 1))
      = Ideal.rsqrt (mean (fun k => (R k - mean R) * (R k - mean R)) + epsF) := by
  rw [val_main_v112_apply, val_main_v111_apply, val_main_v110_apply, val_main_cst_13_apply,
    v107_row x0 x1 x2 x3 x4 x5 x6 x7 x8 x9 x10 x11 x12 x13 r R hR]
  rfl

/-- %120 at (r, h): the layer norm of the row with gain %arg14 and offset %arg15. -/
theorem v120_row (h : Fin 512) :
    val_main_v120 (F := Ideal) x0 x1 x2 x3 x4 x5 x6 x7 x8 x9 x10 x11 x12 x13 x14 x15 (ix2 r h)
      = lnorm (fun h => x14 (ix1 h)) (fun h => x15 (ix1 h)) R h := by
  rw [val_main_v120_apply, val_main_v119_apply, val_main_v118_apply, bias119_at,
    val_main_v117_apply, val_main_v116_apply, val_main_v115_apply, bias116_at,
    val_main_v114_apply, val_main_v113_apply, idx113_at, v112_row x0 x1 x2 x3 x4 x5 x6 x7 x8 x9 x10 x11 x12 x13 r R hR, v109_row x0 x1 x2 x3 x4 x5 x6 x7 x8 x9 x10 x11 x12 x13 r R hR]
  rfl

end LayerNorm

/-! ## Relu and the third affine layer (512 → 128) -/

/-- %121 at (r, h): the maximum with zero of the row R that %120 is on row r. -/
theorem v121_row (r : Fin 8192) (R : Fin 512 → EReal)
    (hR : ∀ q, val_main_v120 (F := Ideal) x0 x1 x2 x3 x4 x5 x6 x7 x8 x9 x10 x11 x12 x13 x14 x15 (ix2 r q) = R q) (h : Fin 512) :
    val_main_v121 (F := Ideal) x0 x1 x2 x3 x4 x5 x6 x7 x8 x9 x10 x11 x12 x13 x14 x15 (ix2 r h) = relu R h := by
  rw [val_main_v121_apply, val_main_call4_v0_apply, hR]
  rfl

/-- %122 at (r, q): the sum over k of %121 at (r, k) times the weight at (k, q). -/
theorem v122_at (r : Fin 8192) (q : Fin 128) :
    val_main_v122 (F := Ideal) x0 x1 x2 x3 x4 x5 x6 x7 x8 x9 x10 x11 x12 x13 x14 x15 x16 (ix2 r q)
      = ∑ k : Fin 512, val_main_v121 (F := Ideal) x0 x1 x2 x3 x4 x5 x6 x7 x8 x9 x10 x11 x12 x13 x14 x15 (ix2 r k) * x16 (ix2 k q) := by
  rw [val_main_v122_apply]
  exact Finset.sum_congr rfl fun k _ => by rw [lidx122_at, ridx122_at]

/-- %125 at (r, q): the third affine layer applied to the row R that %121 is on row r. -/
theorem v125_row (r : Fin 8192) (R : Fin 512 → EReal)
    (hR : ∀ k, val_main_v121 (F := Ideal) x0 x1 x2 x3 x4 x5 x6 x7 x8 x9 x10 x11 x12 x13 x14 x15 (ix2 r k) = R k) (q : Fin 128) :
    val_main_v125 (F := Ideal) x0 x1 x2 x3 x4 x5 x6 x7 x8 x9 x10 x11 x12 x13 x14 x15 x16 x17 (ix2 r q)
      = lin (fun k j => x16 (ix2 k j)) (fun j => x17 (ix1 j)) R q := by
  rw [val_main_v125_apply, val_main_v124_apply, val_main_v123_apply, bias124_at, v122_at]
  simp only [hR]
  rfl

end Stages

/-- The reference's result at (b, o, k) is the perceptron of row 16·b + o of %87, entry k: the reshape reads %125 at
    that row, and the six stages' rows compose to the specification's `mlp`. -/
theorem node_mlp (x0 : (⟨S512x16x128, .f32⟩ : BufTy).Contents (Elt Ideal)) (x1 : (⟨S512, .i32⟩ : BufTy).Contents (Elt Ideal)) (x2 : (⟨S256x512, .f32⟩ : BufTy).Contents (Elt Ideal)) (x3 : (⟨S512, .f32⟩ : BufTy).Contents (Elt Ideal)) (x4 : (⟨S512x512, .f32⟩ : BufTy).Contents (Elt Ideal)) (x5 x6 x7 : (⟨S512, .f32⟩ : BufTy).Contents (Elt Ideal)) (x8 : (⟨S512x512, .f32⟩ : BufTy).Contents (Elt Ideal)) (x9 : (⟨S512, .f32⟩ : BufTy).Contents (Elt Ideal)) (x10 : (⟨S644x512, .f32⟩ : BufTy).Contents (Elt Ideal)) (x11 : (⟨S512, .f32⟩ : BufTy).Contents (Elt Ideal)) (x12 : (⟨S512x512, .f32⟩ : BufTy).Contents (Elt Ideal)) (x13 x14 x15 : (⟨S512, .f32⟩ : BufTy).Contents (Elt Ideal)) (x16 : (⟨S512x128, .f32⟩ : BufTy).Contents (Elt Ideal)) (x17 : (⟨S128, .f32⟩ : BufTy).Contents (Elt Ideal)) (b : Fin 512) (o : Fin 16) (k : Fin 128) :
    val_main_v126 (F := Ideal) x0 x1 x2 x3 x4 x5 x6 x7 x8 x9 x10 x11 x12 x13 x14 x15 x16 x17 (ix3 b o k)
      = mlp (fun k h => x10 (ix2 k h)) (fun h => x11 (ix1 h)) (fun k h => x12 (ix2 k h)) (fun h => x13 (ix1 h)) (fun h => x14 (ix1 h))
          (fun h => x15 (ix1 h)) (fun k j => x16 (ix2 k j)) (fun j => x17 (ix1 j))
          (fun j => val_main_v87 (F := Ideal) x0 x1 x2 x3 x4 x5 x6 x7 x8 x9 (ix2 (⟨16 * b.val + o.val, by have := b.isLt; have := o.isLt; omega⟩ : Fin 8192) j)) k := by
  rw [val_main_v126_apply, idx126_at]
  have h91 := v91_row x0 x1 x2 x3 x4 x5 x6 x7 x8 x9 x10 x11 (⟨16 * b.val + o.val, by have := b.isLt; have := o.isLt; omega⟩ : Fin 8192)
  have h92 := v92_row x0 x1 x2 x3 x4 x5 x6 x7 x8 x9 x10 x11 _ _ h91
  have h96 := v96_row x0 x1 x2 x3 x4 x5 x6 x7 x8 x9 x10 x11 x12 x13 _ _ h92
  have h120 := v120_row x0 x1 x2 x3 x4 x5 x6 x7 x8 x9 x10 x11 x12 x13 x14 x15 _ _ h96
  have h121 := v121_row x0 x1 x2 x3 x4 x5 x6 x7 x8 x9 x10 x11 x12 x13 x14 x15 _ _ h120
  exact v125_row x0 x1 x2 x3 x4 x5 x6 x7 x8 x9 x10 x11 x12 x13 x14 x15 x16 x17 _ _ h121 k

end Cert.RefNodeMlp

end
-- ==== Proof.RefNodeIn.lean ====
/-
  The node perceptron's input row on the reference side. The reference joins, along the columns, the node features
  (128 columns: the [512,16,128] argument read as 8192 rows), the action's one-hot over 64 classes read as four
  columns per node (row 16·b + o, column a of the [8192,4] reading is class 4·o + a of graph b), and the aggregated
  edge results (512 columns). Row 16·b + o of the join is Spec's `nodeIn` for node o of graph b: the two joins are
  nodeIn's two case splits, at 132 and inside the first piece at 128.
-/
import proofs.«421245_j18330920419718_1_alg».proof.Proof.Gen.ReferenceIdeal.Read
import proofs.«421245_j18330920419718_1_alg».proof.Proof.Spec
import Idealize.ShloMosaic.PureOps.Ideal
import Idealize.ShloMosaic.Lib.ValueIdx
import Idealize.ShloMosaic.Lib.Pipeline.Value
import Idealize.ShloMosaic.Lib.StableHlo.Predicate

noncomputable section

namespace Cert.RefNodeIn

open Cert.ReferenceIdeal Cert.ReferenceIdeal.Gen Cert.ReferenceIdeal.Read Cert.GnnSpec Idealize.ShloMosaic Idealize.ShloMosaic.ValueIdx

/-- The equality bit of two words, converted to a float, is the real 1 when they are equal and 0 otherwise. -/
theorem uitofp_cmpi_eq (a b : BitVec 32) :
    (FloatOps.uitofp (F := Ideal) .f32 (IntOp.cmpi .eq a b) : EReal) = if a = b then 1 else 0 := by
  by_cases h : a = b
  · rw [if_pos h, StableHlo.Predicate.cmpi_eq_iff.mpr h]
    show (((1#1 : BitVec 1).toNat : ℝ) : EReal) = 1
    simp
  · rw [if_neg h]
    have h0 : IntOp.cmpi .eq a b = 0#1 := by
      rcases BitVec.eq_zero_or_eq_one (IntOp.cmpi .eq a b) with h0 | h1
      · exact h0
      · exact absurd (StableHlo.Predicate.cmpi_eq_iff.mp h1) h
    rw [h0]
    show (((0#1 : BitVec 1).toNat : ℝ) : EReal) = 0
    simp

/-- Row 16·b + o, column k of the features read as 8192 rows is feature k of node o of graph b:
    (16·b + o)·128 + k = (b·16 + o)·128 + k in row-major order. -/
theorem feat_row (x0 : (⟨S512x16x128, .f32⟩ : BufTy).Contents (Elt Ideal)) (b : Fin 512) (o : Fin 16)
    (r : Fin 8192) (hr : r.val = 16 * b.val + o.val) (k : Fin 128) :
    val_main_v0 (F := Ideal) x0 (ix2 r k) = x0 (ix3 b o k) := by
  rw [val_main_v0_apply]
  congr 1
  funext a
  have hb := b.isLt; have ho := o.isLt; have hk := k.isLt
  match a with
  | ⟨0, _⟩ => exact Fin.ext (by show (r.val * 128 + k.val) / 2048 = b.val; omega)
  | ⟨1, _⟩ => exact Fin.ext (by show (r.val * 128 + k.val) / 128 % 16 = o.val; omega)
  | ⟨2, _⟩ => exact Fin.ext (by show (r.val * 128 + k.val) % 128 = k.val; omega)

/-- Entry (b, q) of the one-hot: 1 when graph b's action word is the class q, else 0. The compare reads the
    action broadcast along the classes against the class numbers broadcast along the graphs. -/
theorem onehot_apply (x1 : (⟨S512, .i32⟩ : BufTy).Contents (Elt Ideal)) (b : Fin 512) (q : Fin 64) :
    val_main_v81 (F := Ideal) x1 (ix2 b q) = if x1 (ix1 b) = BitVec.ofNat 32 q.val then 1 else 0 := by
  rw [val_main_v81_apply, val_main_call2_v4_apply, val_main_call2_v2_apply, val_main_call2_v0_apply,
    val_main_call2_v3_apply, val_main_call2_v1_apply]
  have hi : idx_main_call2_v0 (idx_main_call2_v2 (ix2 b q)) = ix1 b := by
    funext a; match a with | ⟨0, _⟩ => rfl
  rw [hi]
  exact uitofp_cmpi_eq (x1 (ix1 b)) (BitVec.ofNat 32 q.val)

/-- Row 16·b + o, column a of the one-hot read as [8192,4] is its entry (b, 4·o + a):
    (16·b + o)·4 + a = b·64 + (4·o + a). That is Spec's action slice of node o. -/
theorem act_row (x1 : (⟨S512, .i32⟩ : BufTy).Contents (Elt Ideal)) (b : Fin 512) (o : Fin 16)
    (r : Fin 8192) (hr : r.val = 16 * b.val + o.val) (a : Fin 4) :
    val_main_v82 (F := Ideal) x1 (ix2 r a) = actv (x1 (ix1 b)) o a := by
  have hb := b.isLt; have ho := o.isLt; have ha := a.isLt
  rw [val_main_v82_apply]
  have hi : idx_main_v82 (ix2 r a) = ix2 b (⟨4 * o.val + a.val, by omega⟩ : Fin 64) := by
    funext c
    match c with
    | ⟨0, _⟩ => exact Fin.ext (by show (r.val * 4 + a.val) / 64 = b.val; omega)
    | ⟨1, _⟩ => exact Fin.ext (by show (r.val * 4 + a.val) % 64 = 4 * o.val + a.val; omega)
  rw [hi, onehot_apply]
  rfl

/-- A row of the first join (features, then action slice): column j < 128 is a feature, column j ≥ 128 the
    action slice at j − 128. -/
theorem join1_row (x0 : (⟨S512x16x128, .f32⟩ : BufTy).Contents (Elt Ideal))
    (x1 : (⟨S512, .i32⟩ : BufTy).Contents (Elt Ideal)) (b : Fin 512) (o : Fin 16)
    (r : Fin 8192) (hr : r.val = 16 * b.val + o.val) (j : Fin 132) :
    val_main_v83 (F := Ideal) x0 x1 (ix2 r j)
      = if h' : j.val < 128 then x0 (ix3 b o ⟨j.val, h'⟩)
        else actv (x1 (ix1 b)) o ⟨j.val - 128, by have := j.isLt; omega⟩ := by
  unfold val_main_v83
  by_cases h' : j.val < 128
  · rw [dif_pos h']
    refine (concatenate_pair_apply_left 1 (val_main_v0 (F := Ideal) x0) (val_main_v82 (F := Ideal) x1)
      concatenates_S8192x128_S8192x4_S8192x132_d1 (ix2 r j) rfl (ix2 r ⟨j.val, h'⟩)
      (fun c => match c with | ⟨0, _⟩ => rfl | ⟨1, _⟩ => rfl)).trans ?_
    exact feat_row x0 b o r hr ⟨j.val, h'⟩
  · rw [dif_neg h']
    refine (concatenate_pair_apply_right 1 (val_main_v0 (F := Ideal) x0) (val_main_v82 (F := Ideal) x1)
      concatenates_S8192x128_S8192x4_S8192x132_d1 (ix2 r j) rfl rfl
      (ix2 r ⟨j.val - 128, by have := j.isLt; omega⟩)
      (fun c => match c with
        | ⟨0, _⟩ => fun _ => rfl
        | ⟨1, _⟩ => fun hne => absurd rfl hne)
      (by show j.val - 128 + 128 = j.val; omega)).trans ?_
    exact act_row x1 b o r hr ⟨j.val - 128, by have := j.isLt; omega⟩

/-- A row of the second join (first join, then the aggregated edge results) is Spec's node input row, given that
    the aggregated edge results are Spec's `agg`. -/
theorem node_in (x0 : (⟨S512x16x128, .f32⟩ : BufTy).Contents (Elt Ideal)) (x1 : (⟨S512, .i32⟩ : BufTy).Contents (Elt Ideal)) (x2 : (⟨S256x512, .f32⟩ : BufTy).Contents (Elt Ideal)) (x3 : (⟨S512, .f32⟩ : BufTy).Contents (Elt Ideal)) (x4 : (⟨S512x512, .f32⟩ : BufTy).Contents (Elt Ideal)) (x5 x6 x7 : (⟨S512, .f32⟩ : BufTy).Contents (Elt Ideal)) (x8 : (⟨S512x512, .f32⟩ : BufTy).Contents (Elt Ideal)) (x9 : (⟨S512, .f32⟩ : BufTy).Contents (Elt Ideal)) (P : Params) (b : Fin 512) (o : Fin 16)
    (hagg : ∀ h : Fin 512, val_main_v86 (F := Ideal) x0 x2 x3 x4 x5 x6 x7 x8 x9 (ix2 (⟨16 * b.val + o.val, by have := b.isLt; have := o.isLt; omega⟩ : Fin 8192) h) = agg P (fun o k => x0 (ix3 b o k)) o h)
    (j : Fin 644) :
    val_main_v87 (F := Ideal) x0 x1 x2 x3 x4 x5 x6 x7 x8 x9 (ix2 (⟨16 * b.val + o.val, by have := b.isLt; have := o.isLt; omega⟩ : Fin 8192) j) = nodeIn P (fun o k => x0 (ix3 b o k)) (x1 (ix1 b)) o j := by
  unfold val_main_v87 nodeIn
  by_cases h : j.val < 132
  · rw [dif_pos h]
    refine (concatenate_pair_apply_left 1 (val_main_v83 (F := Ideal) x0 x1)
      (val_main_v86 (F := Ideal) x0 x2 x3 x4 x5 x6 x7 x8 x9)
      concatenates_S8192x132_S8192x512_S8192x644_d1 (ix2 _ j) rfl (ix2 _ ⟨j.val, h⟩)
      (fun c => match c with | ⟨0, _⟩ => rfl | ⟨1, _⟩ => rfl)).trans ?_
    exact join1_row x0 x1 b o _ rfl ⟨j.val, h⟩
  · rw [dif_neg h]
    refine (concatenate_pair_apply_right 1 (val_main_v83 (F := Ideal) x0 x1)
      (val_main_v86 (F := Ideal) x0 x2 x3 x4 x5 x6 x7 x8 x9)
      concatenates_S8192x132_S8192x512_S8192x644_d1 (ix2 _ j) rfl rfl
      (ix2 _ ⟨j.val - 132, by have := j.isLt; omega⟩)
      (fun c => match c with
        | ⟨0, _⟩ => fun _ => rfl
        | ⟨1, _⟩ => fun hne => absurd rfl hne)
      (by show j.val - 132 + 132 = j.val; omega)).trans ?_
    exact hagg ⟨j.val - 132, by have := j.isLt; omega⟩

end Cert.RefNodeIn

end
-- ==== Proof.RefScatter.lean ====
/-
  The reference's segment sum. The program scatters the 122,880 edge results (one row of 512 per edge) into an
  8192 × 512 array of zeros, adding each edge's row at the row number the index array names for it; edge
  E = 240·b' + e of the batch is edge e of graph b' and is sent to row 16·b' + (source node of e). Read at row
  16·b + o this is the sum of the edge results of graph b's edges that leave node o: the specification's `agg`.

  Three steps. (1) Pure arithmetic: a sum over all edges is a double sum over graphs and their edges, and of that
  double sum only graph b and the edges with source o stay, because 16·b' + i = 16·b + o with i, o < 16 forces
  b' = b and i = o. (2) The scatter's dimension numbers read: an update element lands on the operand element
  whose row is the (signed) index word of its edge and whose column is its own column; so one element of the
  result is the operand's plus the sum over the edges with that row word of the update at the same column.
  (3) The operand is zero, the row word of edge 240·b' + e is 16·b' + source(e), a number below 2³¹ and so equal
  to its signed reading. Only the laws of a commutative additive monoid are used on the extended reals.
-/
import proofs.«421245_j18330920419718_1_alg».proof.Proof.Gen.ReferenceIdeal.Read
import proofs.«421245_j18330920419718_1_alg».proof.Proof.Spec
import Idealize.ShloMosaic.Lib.ValueIdx
import Idealize.ShloMosaic.Lib.StableHlo.Predicate
import Idealize.ShloMosaic.PureOps.Ideal
import Idealize.ShloMosaic.PureOps.Ideal.Laws
import Mathlib.Algebra.BigOperators.Fin
import Mathlib.Algebra.BigOperators.Ring.Finset
import Mathlib.Logic.Equiv.Fin.Basic

set_option maxRecDepth 16384

noncomputable section

namespace Cert.RefScatter

open Cert.ReferenceIdeal Cert.ReferenceIdeal.Gen Cert.ReferenceIdeal.Read Cert.GnnSpec Idealize.ShloMosaic Idealize.ShloMosaic.ValueIdx

/-! ## (1) Arithmetic of the edge numbering -/

/-- Edge number E of the whole batch is edge e of graph b': E = 240·b' + e, b' = E / 240, e = E % 240. -/
def edgeEquiv : Fin 512 × Fin 240 ≃ Fin 122880 where
  toFun p := ⟨240 * p.1.val + p.2.val, by have := p.1.isLt; have := p.2.isLt; omega⟩
  invFun E := (⟨E.val / 240, by have := E.isLt; omega⟩, ⟨E.val % 240, by omega⟩)
  left_inv p := by
    have h1 := p.1.isLt; have h2 := p.2.isLt
    apply Prod.ext <;> apply Fin.ext <;> simp only <;> omega
  right_inv E := by
    apply Fin.ext; simp only; omega

/-- A sum over all edges of the batch is the sum over the graphs of the sums over each graph's edges. -/
theorem sum_edges {M : Type*} [AddCommMonoid M] (g : Fin 122880 → M) :
    ∑ E : Fin 122880, g E
      = ∑ b' : Fin 512, ∑ e : Fin 240, g ⟨240 * b'.val + e.val, by have := b'.isLt; have := e.isLt; omega⟩ := by
  rw [← Equiv.sum_comp edgeEquiv g, Fintype.sum_prod_type]
  rfl

/-- Row number 16·b' + i equals 16·b + o, with i, o below 16, only for b' = b and i = o; so of the double sum
    over graphs and edges only graph b's edges whose node ρ e is o stay. -/
theorem sum_segment {M : Type*} [AddCommMonoid M] (G : Fin 512 → Fin 240 → M) (ρ : Fin 240 → Fin 16)
    (b : Fin 512) (o : Fin 16) :
    (∑ b' : Fin 512, ∑ e : Fin 240,
        if ((16 * b'.val + (ρ e).val : ℕ) : ℤ) = ((16 * b.val + o.val : ℕ) : ℤ) then G b' e else 0)
      = ∑ e : Fin 240, if ρ e = o then G b e else 0 := by
  rw [Finset.sum_eq_single b]
  · apply Finset.sum_congr rfl
    intro e _
    apply if_congr _ rfl rfl
    constructor
    · intro h; apply Fin.ext; omega
    · intro h; rw [h]
  · intro b' _ hb'
    apply Finset.sum_eq_zero
    intro e _
    rw [if_neg]
    intro h
    apply hb'
    apply Fin.ext
    have := (ρ e).isLt; have := o.isLt
    omega
  · intro h; exact absurd (Finset.mem_univ b) h

/-! ## (2) The scatter's dimension numbers, read -/

/-- The scatter of [122880, 512] updates into an [8192, 512] operand at [122880, 1] row words: the update's axis 1
    is the window axis and goes to the operand's axis 1; the operand's axis 0 is named by the one index component. -/
abbrev sd := scatter_S8192x512_S122880x1_S122880x512_1_0_0_1

/-- On the row axis the window starts at the row word of the update's edge, read signed. -/
theorem sd_start0 {w : Nat} (j : S122880x512.Idx) (idx : IVec S122880x1 w) :
    sd.start j idx 0 = (idx (ix2 (j 0) 0)).toInt := by
  unfold ScatterDims.start
  rw [dif_pos (by decide)]
  congr 2
  funext b
  match b with
  | ⟨0, _⟩ => rfl
  | ⟨1, _⟩ => rfl

/-- On the column axis, which the index names no component for, the window starts at 0. -/
theorem sd_start1 {w : Nat} (j : S122880x512.Idx) (idx : IVec S122880x1 w) :
    sd.start j idx 1 = 0 := by
  unfold ScatterDims.start
  rw [dif_neg (by decide)]

/-- The row axis is an inserted axis: its window coordinate is 0. -/
theorem sd_window0 (j : S122880x512.Idx) : sd.window j 0 = 0 := by
  unfold ScatterDims.window
  rw [dif_neg (by decide)]

/-- The column axis carries the update's own column. -/
theorem sd_window1 (j : S122880x512.Idx) : sd.window j 1 = (j 1).val := by
  unfold ScatterDims.window
  rw [dif_pos (by decide)]
  rfl

/-- Update element j lands on operand element i exactly when the row word at j's edge, read signed, is i's row and
    the two have the same column. (A row word outside 0 … 8191 lands nowhere.) -/
theorem sd_resultIdx_iff {w : Nat} (idx : IVec S122880x1 w) (j : S122880x512.Idx) (i : S8192x512.Idx) :
    sd.resultIdx? j idx = some i ↔
      (idx (ix2 (j 0) 0)).toInt = ((i 0).val : ℤ) ∧ (j 1).val = (i 1).val := by
  have hi0 : (i 0).val < 8192 := (i 0).isLt
  have hj1 : (j 1).val < 512 := (j 1).isLt
  unfold ScatterDims.resultIdx?
  split
  next h =>
    have h0 := h 0
    have h1 := h 1
    rw [sd_start0, sd_window0] at h0
    rw [sd_start1, sd_window1] at h1
    constructor
    · intro he
      have he' := Option.some.inj he
      have e0 := congrArg Fin.val (congrFun he' 0)
      have e1 := congrArg Fin.val (congrFun he' 1)
      simp only [sd_start0, sd_window0, sd_start1, sd_window1] at e0 e1
      constructor <;> omega
    · rintro ⟨e0, e1⟩
      congr 1
      funext a
      match a with
      | ⟨0, _⟩ => apply Fin.ext; show (sd.start j idx 0 + (sd.window j 0 : ℤ)).toNat = (i 0).val; rw [sd_start0, sd_window0]; omega
      | ⟨1, _⟩ => apply Fin.ext; show (sd.start j idx 1 + (sd.window j 1 : ℤ)).toNat = (i 1).val; rw [sd_start1, sd_window1]; omega
  next h =>
    constructor
    · intro he; exact absurd he (by simp)
    · rintro ⟨e0, e1⟩
      exfalso; apply h
      intro a
      match a with
      | ⟨0, _⟩ => show 0 ≤ sd.start j idx 0 + (sd.window j 0 : ℤ) ∧ sd.start j idx 0 + (sd.window j 0 : ℤ) < 8192; rw [sd_start0, sd_window0]; omega
      | ⟨1, _⟩ => show 0 ≤ sd.start j idx 1 + (sd.window j 1 : ℤ) ∧ sd.start j idx 1 + (sd.window j 1 : ℤ) < 512; rw [sd_start1, sd_window1]; omega

/-- The scatter-add read at row r, column h: the operand there plus the sum, over all edges whose row word is r,
    of the update at that edge's column h (of an edge's 512 update elements only the one in column h lands in
    column h). -/
theorem scatterAdd_apply {w : Nat} (x : S8192x512.Idx → EReal) (idx : IVec S122880x1 w) (upd : S122880x512.Idx → EReal)
    (r : Fin 8192) (h : Fin 512) :
    Ideal.hostScatterAdd sd x idx upd (ix2 r h)
      = x (ix2 r h) + ∑ E : Fin 122880, if (idx (ix2 E 0)).toInt = (r.val : ℤ) then upd (ix2 E h) else 0 := by
  unfold Ideal.hostScatterAdd
  refine congrArg (fun t => x (ix2 r h) + t) ?_
  rw [Finset.sum_filter, sum_idx2]
  apply Finset.sum_congr rfl
  intro E _
  by_cases hE : (idx (ix2 E 0)).toInt = (r.val : ℤ)
  · rw [if_pos hE, Finset.sum_eq_single h]
    · rw [if_pos]
      exact (sd_resultIdx_iff idx (ix2 E h) (ix2 r h)).2 ⟨hE, rfl⟩
    · intro c _ hc
      rw [if_neg]
      intro hh
      exact hc (Fin.ext ((sd_resultIdx_iff idx (ix2 E c) (ix2 r h)).1 hh).2)
    · intro hh; exact absurd (Finset.mem_univ h) hh
  · rw [if_neg hE]
    apply Finset.sum_eq_zero
    intro c _
    rw [if_neg]
    intro hh
    exact hE ((sd_resultIdx_iff idx (ix2 E c) (ix2 r h)).1 hh).1

/-! ## (3) The segment sum -/

/-- Scattering into zeros, with edge 240·b' + e sent to row 16·b' + rowL e: row 16·b + o of the result is the sum of
    graph b's updates over the edges e with rowL e = o. -/
theorem scatter_core (x : S8192x512.Idx → EReal) (idx : IVec S122880x1 32) (upd : S122880x512.Idx → EReal)
    (G : Fin 512 → Fin 240 → Fin 512 → EReal)
    (hx : ∀ i, x i = 0)
    (hrow : ∀ (b : Fin 512) (e : Fin 240),
      idx (ix2 (⟨240 * b.val + e.val, by have := b.isLt; have := e.isLt; omega⟩ : Fin 122880) 0)
        = BitVec.ofNat 32 (16 * b.val + (rowL e).val))
    (hupd : ∀ (b : Fin 512) (e : Fin 240) (h : Fin 512),
      upd (ix2 (⟨240 * b.val + e.val, by have := b.isLt; have := e.isLt; omega⟩ : Fin 122880) h) = G b e h)
    (b : Fin 512) (o : Fin 16) (h : Fin 512) :
    Ideal.hostScatterAdd sd x idx upd (ix2 (⟨16 * b.val + o.val, by have := b.isLt; have := o.isLt; omega⟩ : Fin 8192) h)
      = ∑ e : Fin 240, if rowL e = o then G b e h else 0 := by
  rw [scatterAdd_apply, hx, zero_add, sum_edges]
  refine Eq.trans ?_ (sum_segment (fun b' e => G b' e h) rowL b o)
  apply Finset.sum_congr rfl
  intro b' _
  apply Finset.sum_congr rfl
  intro e _
  rw [hrow b' e, StableHlo.Predicate.toInt_ofNat_small _ (by have := b'.isLt; have := (rowL e).isLt; omega), hupd b' e h]

/-- The row-word array %85 at (E, 0) is %22 at E. -/
theorem v85_at (E : Fin 122880) : val_main_v85 (F := Ideal) (ix2 E 0) = val_main_v22 (F := Ideal) (ix1 E) := by
  rw [val_main_v85_apply]
  congr 1
  funext a
  match a with
  | ⟨0, _⟩ => rfl

/-- %86, the scatter-add of the edge results %80 into the zeros %84 at the row words %85, read at row 16·b + o:
    the specification's sum of graph b's edge results over the edges leaving node o. -/
theorem scatter_agg (x0 : (⟨S512x16x128, .f32⟩ : BufTy).Contents (Elt Ideal)) (x2 : (⟨S256x512, .f32⟩ : BufTy).Contents (Elt Ideal)) (x3 : (⟨S512, .f32⟩ : BufTy).Contents (Elt Ideal)) (x4 : (⟨S512x512, .f32⟩ : BufTy).Contents (Elt Ideal)) (x5 x6 x7 : (⟨S512, .f32⟩ : BufTy).Contents (Elt Ideal)) (x8 : (⟨S512x512, .f32⟩ : BufTy).Contents (Elt Ideal)) (x9 : (⟨S512, .f32⟩ : BufTy).Contents (Elt Ideal)) (P : Params)
    (hrow : ∀ (b : Fin 512) (e : Fin 240), val_main_v22 (F := Ideal) (ix1 (⟨240 * b.val + e.val, by have := b.isLt; have := e.isLt; omega⟩ : Fin 122880)) = BitVec.ofNat 32 (16 * b.val + (rowL e).val))
    (hattr : ∀ (b : Fin 512) (e : Fin 240) (h : Fin 512), val_main_v80 (F := Ideal) x0 x2 x3 x4 x5 x6 x7 x8 x9 (ix2 (⟨240 * b.val + e.val, by have := b.isLt; have := e.isLt; omega⟩ : Fin 122880) h) = edgeAttr P (fun o k => x0 (ix3 b o k)) e h)
    (b : Fin 512) (o : Fin 16) (h : Fin 512) :
    val_main_v86 (F := Ideal) x0 x2 x3 x4 x5 x6 x7 x8 x9 (ix2 (⟨16 * b.val + o.val, by have := b.isLt; have := o.isLt; omega⟩ : Fin 8192) h) = agg P (fun o k => x0 (ix3 b o k)) o h := by
  unfold val_main_v86 Host.scatterAdd agg
  rw [Ideal.hostScatterAdd_def]
  exact scatter_core (val_main_v84 (F := Ideal)) (val_main_v85 (F := Ideal)) (val_main_v80 (F := Ideal) x0 x2 x3 x4 x5 x6 x7 x8 x9)
    (fun b e h => edgeAttr P (fun o k => x0 (ix3 b o k)) e h)
    (fun i => by rw [val_main_v84_apply, val_main_cst_8_apply]; exact Ideal.ofBits_zero_f32)
    (fun b e => by rw [v85_at]; exact hrow b e)
    hattr b o h

end Cert.RefScatter

end
-- ==== Proof.Bridge.lean ====
/-
  The two sides joined. The weights of the two perceptrons are read off @main's arguments (`params`); the result
  array both programs end with is, element (b, o, k), Spec's `out` of graph b's node block and action word at
  node o, feature k (`G`). Kernel side: the frame run's result array is the per-point body function of the blocks
  (KerRun), the blocks are the arrays, their slices and the three 0/1 selection tables (KerConsts), and the body
  function is `agg` then `out` (KerEdge, KerNode). Reference side: the result is the node perceptron of %87's row
  (RefNodeMlp), that row is `nodeIn` (RefNodeIn) once the scatter-add is `agg` (RefScatter), which needs the edge
  row numbers and the edge perceptron's rows (RefEdgeIn, RefEdgeMlp).
-/
import proofs.«421245_j18330920419718_1_alg».proof.Defs
import proofs.«421245_j18330920419718_1_alg».proof.Proof.Gen.KernelIdeal.Frame
import proofs.«421245_j18330920419718_1_alg».proof.Proof.Gen.ReferenceIdeal.Run
import proofs.«421245_j18330920419718_1_alg».proof.Proof.Gen.ReferenceIdeal.Read
import proofs.«421245_j18330920419718_1_alg».proof.Proof.Gen.KernelIdeal
import proofs.«421245_j18330920419718_1_alg».proof.Proof.Gen.ReferenceIdeal
import proofs.«421245_j18330920419718_1_alg».proof.Proof.Gen.Pre_finite_inputs
import proofs.«421245_j18330920419718_1_alg».proof.Proof.Spec
import proofs.«421245_j18330920419718_1_alg».proof.Proof.KerRun
import proofs.«421245_j18330920419718_1_alg».proof.Proof.KerConsts
import proofs.«421245_j18330920419718_1_alg».proof.Proof.KerEdge
import proofs.«421245_j18330920419718_1_alg».proof.Proof.KerNode
import proofs.«421245_j18330920419718_1_alg».proof.Proof.RefEdgeIn
import proofs.«421245_j18330920419718_1_alg».proof.Proof.RefEdgeMlp
import proofs.«421245_j18330920419718_1_alg».proof.Proof.RefNodeMlp
import proofs.«421245_j18330920419718_1_alg».proof.Proof.RefNodeIn
import proofs.«421245_j18330920419718_1_alg».proof.Proof.RefScatter

noncomputable section

namespace Cert.Bridge

open Idealize.ShloMosaic Idealize.ShloMosaic.TcCoe Idealize.SL.Sem Idealize.ShloMosaic.ValueIdx Cert.GnnSpec

abbrev A3 := (⟨3, ![512, 16, 128]⟩ : Shape).Idx → EReal
abbrev A1 (n : ℕ) := (⟨1, ![n]⟩ : Shape).Idx → EReal
abbrev A2 (n k : ℕ) := (⟨2, ![n, k]⟩ : Shape).Idx → EReal

/-- The two perceptrons' weights, read off the sixteen weight arguments. -/
def params (x2 : A2 256 512) (x3 : A1 512) (x4 : A2 512 512) (x5 x6 x7 : A1 512) (x8 : A2 512 512) (x9 : A1 512)
    (x10 : A2 644 512) (x11 : A1 512) (x12 : A2 512 512) (x13 x14 x15 : A1 512) (x16 : A2 512 128) (x17 : A1 128) : Params where
  eW1 k h := x2 (ix2 k h)
  eb1 h := x3 (ix1 h)
  eW2 k h := x4 (ix2 k h)
  eb2 h := x5 (ix1 h)
  eg h := x6 (ix1 h)
  ebeta h := x7 (ix1 h)
  eW3 k h := x8 (ix2 k h)
  eb3 h := x9 (ix1 h)
  nW1 k h := x10 (ix2 k h)
  nb1 h := x11 (ix1 h)
  nW2 k h := x12 (ix2 k h)
  nb2 h := x13 (ix1 h)
  ng h := x14 (ix1 h)
  nbeta h := x15 (ix1 h)
  nW3 k j := x16 (ix2 k j)
  nb3 j := x17 (ix1 j)

/-- The result array: element (b, o, k) is the network's output for node o of graph b at feature k. -/
def G (x0 : A3) (x1 : (⟨1, ![512]⟩ : Shape).Idx → BitVec 32) (x2 : A2 256 512) (x3 : A1 512) (x4 : A2 512 512) (x5 x6 x7 : A1 512)
    (x8 : A2 512 512) (x9 : A1 512) (x10 : A2 644 512) (x11 : A1 512) (x12 : A2 512 512) (x13 x14 x15 : A1 512)
    (x16 : A2 512 128) (x17 : A1 128) : A3 :=
  fun i => out (params x2 x3 x4 x5 x6 x7 x8 x9 x10 x11 x12 x13 x14 x15 x16 x17) (fun o k => x0 (ix3 (i 0) o k)) (x1 (ix1 (i 0))) (i 1) (i 2)

/-! ## The reference side -/

/-- The reference's result array is `G` of its arguments: the node perceptron of %87's row (node_mlp), that row the
    node input (node_in) because the scatter-add is the per-node sum of edge results (scatter_agg), the edge results
    the edge perceptron (edge_mlp) of the gathered pair of node rows (edge_in), at the row numbers row_word. -/
theorem ref_eq (x0 : (⟨Cert.ReferenceIdeal.S512x16x128, .f32⟩ : BufTy).Contents (Elt Ideal)) (x1 : (⟨Cert.ReferenceIdeal.S512, .i32⟩ : BufTy).Contents (Elt Ideal)) (x2 : (⟨Cert.ReferenceIdeal.S256x512, .f32⟩ : BufTy).Contents (Elt Ideal)) (x3 : (⟨Cert.ReferenceIdeal.S512, .f32⟩ : BufTy).Contents (Elt Ideal)) (x4 : (⟨Cert.ReferenceIdeal.S512x512, .f32⟩ : BufTy).Contents (Elt Ideal)) (x5 x6 x7 : (⟨Cert.ReferenceIdeal.S512, .f32⟩ : BufTy).Contents (Elt Ideal)) (x8 : (⟨Cert.ReferenceIdeal.S512x512, .f32⟩ : BufTy).Contents (Elt Ideal)) (x9 : (⟨Cert.ReferenceIdeal.S512, .f32⟩ : BufTy).Contents (Elt Ideal)) (x10 : (⟨Cert.ReferenceIdeal.S644x512, .f32⟩ : BufTy).Contents (Elt Ideal)) (x11 : (⟨Cert.ReferenceIdeal.S512, .f32⟩ : BufTy).Contents (Elt Ideal)) (x12 : (⟨Cert.ReferenceIdeal.S512x512, .f32⟩ : BufTy).Contents (Elt Ideal)) (x13 x14 x15 : (⟨Cert.ReferenceIdeal.S512, .f32⟩ : BufTy).Contents (Elt Ideal)) (x16 : (⟨Cert.ReferenceIdeal.S512x128, .f32⟩ : BufTy).Contents (Elt Ideal)) (x17 : (⟨Cert.ReferenceIdeal.S128, .f32⟩ : BufTy).Contents (Elt Ideal)) :
    Cert.ReferenceIdeal.Read.val_main_v126 (F := Ideal) x0 x1 x2 x3 x4 x5 x6 x7 x8 x9 x10 x11 x12 x13 x14 x15 x16 x17 = G x0 x1 x2 x3 x4 x5 x6 x7 x8 x9 x10 x11 x12 x13 x14 x15 x16 x17 := by
  funext i
  obtain ⟨b, o, k, rfl⟩ : ∃ (b : Fin 512) (o : Fin 16) (k : Fin 128), i = ix3 b o k := ⟨i 0, i 1, i 2, eq_ix3 i⟩
  rw [Cert.RefNodeMlp.node_mlp]
  have hin : (fun j => Cert.ReferenceIdeal.Read.val_main_v87 (F := Ideal) x0 x1 x2 x3 x4 x5 x6 x7 x8 x9
        (ix2 (⟨16 * b.val + o.val, by have := b.isLt; have := o.isLt; omega⟩ : Fin 8192) j))
      = nodeIn (params x2 x3 x4 x5 x6 x7 x8 x9 x10 x11 x12 x13 x14 x15 x16 x17) (fun o k => x0 (ix3 b o k)) (x1 (ix1 b)) o :=
    funext fun j => Cert.RefNodeIn.node_in x0 x1 x2 x3 x4 x5 x6 x7 x8 x9 (params x2 x3 x4 x5 x6 x7 x8 x9 x10 x11 x12 x13 x14 x15 x16 x17) b o
      (fun h => Cert.RefScatter.scatter_agg x0 x2 x3 x4 x5 x6 x7 x8 x9 (params x2 x3 x4 x5 x6 x7 x8 x9 x10 x11 x12 x13 x14 x15 x16 x17)
        Cert.RefEdgeIn.row_word
        (fun b e h => (Cert.RefEdgeMlp.edge_mlp x0 x2 x3 x4 x5 x6 x7 x8 x9 _ h).trans (by
          rw [show (fun k => Cert.ReferenceIdeal.Read.val_main_v42 (F := Ideal) x0
                (ix2 (⟨240 * b.val + e.val, by have := b.isLt; have := e.isLt; omega⟩ : Fin 122880) k))
              = edgeIn (fun o k => x0 (ix3 b o k)) e from funext fun k => Cert.RefEdgeIn.edge_in x0 b e k]
          rfl))
        b o h) j
  rw [hin]
  rfl

/-! ## The kernel side -/

section Kernel

open Cert.KernelIdeal Cert.KernelIdeal.Gen

variable (m : (ℓ : Loc Cert.KernelIdeal.nD Cert.KernelIdeal.τ Cert.KernelIdeal.sig) → Buf (Elt Ideal) ℓ) (c : Dev Cert.KernelIdeal.nD)

/-- The kernel's result array is `G` of its arguments: at point b the body's blocks are graph b's node rows, the three
    0/1 selection tables, the weight arrays and their row bands (KerConsts and the generated argument facts), on which the
    body computes `agg` (edge_agg) and then `out` (node_out). -/
theorem ker_eq : Cert.KerRun.kout (F := Ideal) m c = G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) := by
  funext i
  obtain ⟨b, o, k, rfl⟩ : ∃ (b : Fin 512) (o : Fin 16) (k : Fin 128), i = ix3 b o k := ⟨i 0, i 1, i 2, eq_ix3 i⟩
  unfold Cert.KerRun.kout Cert.KerRun.kblock G
  refine Cert.KerNode.node_out (params (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) (fun o k => (m ((c.tc : Thread Cert.KernelIdeal.nD Cert.KernelIdeal.τ).loc Cert.KernelIdeal.main_arg0)) (ix3 b o k)) ((m ((c.tc : Thread Cert.KernelIdeal.nD Cert.KernelIdeal.τ).loc Cert.KernelIdeal.main_arg1)) (ix1 b))
    _ _ _ _ _ _ _ _ _ _ _ _
    (fun o k => congrFun (V_main_arg0 m c) (ix3 b o k))
    (fun o h => Cert.KerEdge.edge_agg (params (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) (fun o k => (m ((c.tc : Thread Cert.KernelIdeal.nD Cert.KernelIdeal.τ).loc Cert.KernelIdeal.main_arg0)) (ix3 b o k))
      _ _ _ _ _ _ _ _ _ _ _ _ _
      (fun o k => congrFun (V_main_arg0 m c) (ix3 b o k))
      (Cert.KerConsts.V_cst m c) (Cert.KerConsts.V_cst_0 m c) (Cert.KerConsts.V_cst_1 m c)
      (Cert.KerConsts.V_v0 m c) (Cert.KerConsts.V_v1 m c)
      (fun h => congrFun (V_main_arg3 m c) (ix1 h)) (fun k h => congrFun (V_main_arg4 m c) (ix2 k h))
      (fun h => congrFun (V_main_arg5 m c) (ix1 h)) (fun h => congrFun (V_main_arg6 m c) (ix1 h)) (fun h => congrFun (V_main_arg7 m c) (ix1 h))
      (fun k h => congrFun (V_main_arg8 m c) (ix2 k h)) (fun h => congrFun (V_main_arg9 m c) (ix1 h)) o h)
    (Cert.KerConsts.V_v2 m c) (Cert.KerConsts.V_v3 m c) (Cert.KerConsts.V_v4 m c)
    (fun h => congrFun (V_main_arg11 m c) (ix1 h)) (fun k h => congrFun (V_main_arg12 m c) (ix2 k h)) (fun h => congrFun (V_main_arg13 m c) (ix1 h))
    (fun h => congrFun (V_main_arg14 m c) (ix1 h)) (fun h => congrFun (V_main_arg15 m c) (ix1 h))
    (fun k j => congrFun (V_main_arg16 m c) (ix2 k j)) (fun j => congrFun (V_main_arg17 m c) (ix1 j)) o k

end Kernel

/-! ## The claim -/

/-- From memories agreeing on the arguments both programs end with the array `G` of those arguments. -/
theorem algebraic : Cert.algebraic_KernelIdeal_ReferenceIdeal := by
  intro m ρ m' ρ' _ hagree
  refine ⟨fun c => G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono (fun _ h c => ⟨(h c).1.trans (ker_eq m c), (h c).2⟩) (Cert.KerRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v126_eq, ref_eq]
    obtain ⟨h0, h1, h2, h3, h4, h5, h6, h7, h8, h9, h10, h11, h12, h13, h14, h15, h16, h17⟩ := hagree c
    rw [h0, h1, h2, h3, h4, h5, h6, h7, h8, h9, h10, h11, h12, h13, h14, h15, h16, h17]

end Cert.Bridge

end
-- ==== Proof.lean ====
/-
  The certificate of a per-graph message-passing network: a Pallas kernel that, for each of 512 graphs of 16 nodes,
  runs an edge perceptron on every ordered pair of distinct nodes, sums the edge results per source node with a 0/1
  matrix product, and runs a node perceptron on (features, action one-hot slice, that sum) — against a jnp reference
  that gathers node pairs for all 122,880 edges at once, scatter-adds the edge results and runs the node perceptron
  on 8,192 rows. At the ideal instance both compute Cert.GnnSpec.out of the graph's node block and action word
  (Proof/Spec.lean); the kernel side is Proof/KerRun, KerConsts, KerEdge, KerNode, the reference side Proof/RefEdgeIn,
  RefEdgeMlp, RefScatter, RefNodeIn, RefNodeMlp, joined in Proof/Bridge. The frames are the generated ones (the
  pipeline's table side condition is `True`: no index map reads the prefetched action table); the ideal pass rewrote
  nothing, so `preserves` is trivial.
-/
import proofs.«421245_j18330920419718_1_alg».proof.Defs
import proofs.«421245_j18330920419718_1_alg».proof.Proof.Gen.Kernel
import proofs.«421245_j18330920419718_1_alg».proof.Proof.Gen.Kernel.Skeleton
import proofs.«421245_j18330920419718_1_alg».proof.Proof.Gen.Kernel.Launch
import proofs.«421245_j18330920419718_1_alg».proof.Proof.Gen.Kernel.Points
import proofs.«421245_j18330920419718_1_alg».proof.Proof.Gen.Kernel.Frame
import proofs.«421245_j18330920419718_1_alg».proof.Proof.Gen.KernelIdeal
import proofs.«421245_j18330920419718_1_alg».proof.Proof.Gen.KernelIdeal.Skeleton
import proofs.«421245_j18330920419718_1_alg».proof.Proof.Gen.KernelIdeal.Launch
import proofs.«421245_j18330920419718_1_alg».proof.Proof.Gen.KernelIdeal.Points
import proofs.«421245_j18330920419718_1_alg».proof.Proof.Gen.KernelIdeal.Frame
import proofs.«421245_j18330920419718_1_alg».proof.Proof.Gen.ReferenceIdeal
import proofs.«421245_j18330920419718_1_alg».proof.Proof.Gen.Pre_finite_inputs
import proofs.«421245_j18330920419718_1_alg».proof.Proof.Gen.ReferenceIdeal.Run
import proofs.«421245_j18330920419718_1_alg».proof.Proof.Gen.ReferenceIdeal.Read
import proofs.«421245_j18330920419718_1_alg».proof.Proof.Spec
import proofs.«421245_j18330920419718_1_alg».proof.Proof.Bridge
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ trivial,
  fun m ρ _ => Cert.KernelIdeal.Gen.frame m ρ trivial,
  fun m ρ _ => (θ_run Cert.ReferenceIdeal.defs _ _).mono (fun _ h c => (h c).2) (Cert.ReferenceIdeal.Value.run (F := Ideal) m ρ),
  trivial,
  Cert.Bridge.algebraic⟩

end Cert.Proof

end
